-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000x64 : Shape := ⟨2, ![500000, 64]⟩
abbrev S512x64 : Shape := ⟨2, ![512, 64]⟩
abbrev S500000 : Shape := ⟨1, ![500000]⟩
abbrev S384x256 : Shape := ⟨2, ![384, 256]⟩
abbrev S256 : Shape := ⟨1, ![256]⟩
abbrev S256x256 : Shape := ⟨2, ![256, 256]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S512x64 : S_.BroadcastsInDim S512x64 (![] : Fin 0 → Fin S512x64.rank)
  reducesTo_S512x64_S_d0_1 : S512x64.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256x256 .f32) (main_arg9 : FVec F S256 .f32) (main_arg10 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S384x256 .f32) (main_arg6 : FVec F S256 .f32) (main_arg7 : FVec F S256 .f32) (main_arg8 : FVec F S256x256 .f32) (main_arg9 : FVec F S256 .f32) (main_arg10 : FVec F S256 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S384x256 .f32 := Host.absf main_arg5
  let main_cst_6 : FVec F S_ .f32 := constant S_ .f32 0x7F800000#32
  let main_v20 : FVec F S384x256 .f32 := broadcastInDim S384x256 ![] bcast_S_S384x256 main_cst_6
  let main_v21 : IVec S384x256 1 := cmpf .olt main_v19 main_v20
  let main_c_7 : IVec S_ 1 := constantI S_ 1 1#1
  let main_v22 : IVec S_ 1 := (fun x v => Host.reduce IntOp.andi x v reducesTo_S384x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_v33

def fn {F : FTy → Type} [FloatOps F] (main_arg0 : FVec F S500000x128 .f32) (main_arg1 : FVec F S500000x128 .f32) (main_arg2 : FVec F S500000x64 .f32) (main_arg3 : FVec F S512x64 .f32) (main_arg4 : IVec S500000 32) (main_arg5 : FVec F S384x256 .f32) (main_arg6 : FVec F S256 .f32) (main_arg7 : FVec F S256 .f32) (main_arg8 : FVec F S256x256 .f32) (main_arg9 : FVec F S256 .f32) (main_arg10 : FVec F S256 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x64 .f32 := Host.absf main_arg2
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg5 main_arg6 main_arg7 main_arg8 main_arg9 main_arg10 main_v13 main_v16
-- ==== Kernel.lean ====
abbrev S500000x128 : Shape := ⟨2, ![500000, 128]⟩
abbrev S500000x64 : Shape := ⟨2, ![500000, 64]⟩
abbrev S512x64 : Shape := ⟨2, ![512, 64]⟩
abbrev S500000 : Shape := ⟨1, ![500000]⟩
abbrev S384x256 : Shape := ⟨2, ![384, 256]⟩
abbrev S256 : Shape := ⟨1, ![256]⟩
abbrev S256x256 : Shape := ⟨2, ![256, 256]⟩
abbrev S_ : Shape := ⟨0, ![]⟩
abbrev S500000x1 : Shape := ⟨2, ![500000, 1]⟩
abbrev S128x256 : Shape := ⟨2, ![128, 256]⟩
abbrev S64x256 : Shape := ⟨2, ![64, 256]⟩
abbrev S500000x256 : Shape := ⟨2, ![500000, 256]⟩
abbrev S1x256 : Shape := ⟨2, ![1, 256]⟩
abbrev S5000x128 : Shape := ⟨2, ![5000, 128]⟩
abbrev S5000x64 : Shape := ⟨2, ![5000, 64]⟩
abbrev S5000x256 : Shape := ⟨2, ![5000, 256]⟩

abbrev nBuf : Space → Nat
  | .hbm => 70
  | .vmem => 35
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S512x64, .f32⟩
  | .hbm, ⟨4, _⟩ => ⟨S500000, .i32⟩
  | .hbm, ⟨5, _⟩ => ⟨S384x256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x64, .f32⟩
  | .hbm, ⟨20, _⟩ => ⟨S128x256, .f32⟩
  | .hbm, ⟨21, _⟩ => ⟨S128x256, .bf16⟩
  | .hbm, ⟨22, _⟩ => ⟨S128x256, .f32⟩
  | .hbm, ⟨23, _⟩ => ⟨S128x256, .bf16⟩
  | .hbm, ⟨24, _⟩ => ⟨S64x256, .f32⟩
  | .hbm, ⟨25, _⟩ => ⟨S64x256, .bf16⟩
  | .hbm, ⟨26, _⟩ => ⟨S64x256, .f32⟩
  | .hbm, ⟨27, _⟩ => ⟨S64x256, .bf16⟩
  | .hbm, ⟨28, _⟩ => ⟨S256x256, .bf16⟩
  | .hbm, ⟨29, _⟩ => ⟨S500000x256, .f32⟩
  | .hbm, ⟨30, _⟩ => ⟨S1x256, .f32⟩
  | .hbm, ⟨31, _⟩ => ⟨S1x256, .f32⟩
  | .hbm, ⟨32, _⟩ => ⟨S_, .f32⟩
  | .hbm, ⟨33, _⟩ => ⟨S1x256, .f32⟩
  | .hbm, ⟨34, _⟩ => ⟨S1x256, .f32⟩
  | .hbm, ⟨35, _⟩ => ⟨S_, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S_, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S500000x256, .f32⟩
  | .hbm, ⟨50, _⟩ => ⟨S1x256, .f32⟩
  | .hbm, ⟨51, _⟩ => ⟨S1x256, .f32⟩
  | .hbm, ⟨52, _⟩ => ⟨S_, .f32⟩
  | .hbm, ⟨53, _⟩ => ⟨S1x256, .f32⟩
  | .hbm, ⟨54, _⟩ => ⟨S1x256, .f32⟩
  | .hbm, ⟨55, _⟩ => ⟨S_, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S_, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S1x256, .f32⟩
  | .hbm, ⟨68, _⟩ => ⟨S1x256, .f32⟩
  | .hbm, ⟨69, _⟩ => ⟨S500000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S128x256, .bf16⟩
  | .local _ .vmem, ⟨9, _⟩ => ⟨S128x256, .bf16⟩
  | .local _ .vmem, ⟨10, _⟩ => ⟨S64x256, .bf16⟩
  | .local _ .vmem, ⟨11, _⟩ => ⟨S64x256, .bf16⟩
  | .local _ .vmem, ⟨12, _⟩ => ⟨S5000x256, .f32⟩
  | .local _ .vmem, ⟨13, _⟩ => ⟨S5000x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | .local _ .vmem, ⟨20, _⟩ => ⟨S1x256, .f32⟩
  | .local _ .vmem, ⟨21, _⟩ => ⟨S1x256, .f32⟩
  | .local _ .vmem, ⟨22, _⟩ => ⟨S256x256, .bf16⟩
  | .local _ .vmem, ⟨23, _⟩ => ⟨S5000x256, .f32⟩
  | .local _ .vmem, ⟨24, _⟩ => ⟨S5000x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S5000x256, .f32⟩
  | .local _ .vmem, ⟨30, _⟩ => ⟨S5000x256, .f32⟩
  | .local _ .vmem, ⟨31, _⟩ => ⟨S1x256, .f32⟩
  | .local _ .vmem, ⟨32, _⟩ => ⟨S1x256, .f32⟩
  | .local _ .vmem, ⟨33, _⟩ => ⟨S5000x256, .f32⟩
  | .local _ .vmem, ⟨34, _⟩ => ⟨S5000x256, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev main_v31_2 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_scratch0 : Ref sig .tc := ⟨.vmem, 27, rfl⟩
abbrev cc1_scratch1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg3_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem4_1 : DmaSem sig := 22
abbrev cc1_sem5_0 : DmaSem sig := 23
abbrev cc1_sem6_0 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem3_1 : DmaSem sig := 30

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v43 : BitVec 1 := Scalar.cmpi .eq arg0 c99_i32
  let v44 : BitVec 32 := Scalar.extui v43
  let c0_i32_31 : BitVec 32 := 0#32
  let v45 : BitVec 1 := Scalar.cmpi .ne v44 c0_i32_31
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![100], ![false]⟩

def k1_cond2 (i : grid1.Coords) : BitVec 1 :=
  let arg0 : BitVec 32 := BitVec.ofNat 32 (i 0).val
  let c99_i32 : BitVec 32 := 99#32
  let v35 : BitVec 1 := Scalar.cmpi .eq arg0 c99_i32
  let v36 : BitVec 32 := Scalar.extui v35
  let c0_i32_21 : BitVec 32 := 0#32
  let v37 : BitVec 1 := Scalar.cmpi .ne v36 c0_i32_21
  v37

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  slices_S384x256_S128x256_0_0 : S384x256.Slices ![0, 0] S128x256
  bitsLt_bf16_f32 : FTy.bits .bf16 < FTy.bits .f32
  slices_S384x256_S128x256_128_0 : S384x256.Slices ![128, 0] S128x256
  slices_S384x256_S64x256_256_0 : S384x256.Slices ![256, 0] S64x256
  slices_S384x256_S64x256_320_0 : S384x256.Slices ![320, 0] S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S5000x128_S5000x128_0_0 : ∀ a, (![0, 0] : Fin 2 → Nat) a + S5000x128.size a ≤ S5000x128.size a
  h_S5000x128 : 0 < S5000x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S5000x256_S5000x256_0_0 : ∀ a, (![0, 0] : Fin 2 → Nat) a + S5000x256.size a ≤ S5000x256.size a
  h_S5000x256 : 0 < S5000x256.numel
  reduces_S5000x256_S256 : S5000x256.Reduces [0] S256
  shapeCasts_S256_S1x256 : S256.ShapeCasts S1x256
  bcast_S_S1x256 : S_.BroadcastsInDim S1x256 (![] : Fin 0 → Fin S1x256.rank)
  shapeCasts_S5000x256_S5000x256 : S5000x256.ShapeCasts S5000x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S512x64_S500000x1_S500000x64_1_0_n_n_0_1_164_wf : GatherDims.WF S512x64 S500000x1 S500000x64 [1] [0] [] [0] [] 1 ![1, 64]
  dot_S5000x128_S128x256_S5000x256_1_0_0_1_n_n_wf : DotDims.WF S5000x128 S128x256 S5000x256 [1] [0] [0] [1] [] []
  dot_S5000x64_S64x256_S5000x256_1_0_0_1_n_n_wf : DotDims.WF S5000x64 S64x256 S5000x256 [1] [0] [0] [1] [] []
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S500000x64.size a
  hwx0_2 : ∀ i : grid0.Coords, EltTy.bits .f32 = 32 ∨ (Rect.block (s := S500000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S500000x64.size a
  hwx0_3 : ∀ i : grid0.Coords, EltTy.bits .f32 = 32 ∨ (Rect.block (s := S500000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .bf16 = 32 ∨ (Rect.block (s := S64x256) S64x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .bf16 = 32 ∨ (Rect.block (s := S64x256) S64x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x256.size a ≤ S500000x256.size a
  hwx0_8 : ∀ i : grid0.Coords, EltTy.bits .f32 = 32 ∨ (Rect.block (s := S500000x256) S5000x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S500000x256.size a
  hwx1_0 : ∀ i : grid1.Coords, EltTy.bits .f32 = 32 ∨ (Rect.block (s := S500000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S500000x256.size a
  hwx1_4 : ∀ i : grid1.Coords, EltTy.bits .f32 = 32 ∨ (Rect.block (s := S500000x256) S5000x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S500000x256.size a
  hwx2_0 : ∀ i : grid2.Coords, EltTy.bits .f32 = 32 ∨ (Rect.block (s := S500000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S500000x256.size a
  hwx2_3 : ∀ i : grid2.Coords, EltTy.bits .f32 = 32 ∨ (Rect.block (s := S500000x256) S5000x256.size (cc2_transform_3 i) (hinb2_3 i)).WholeWords (EltTy.packing .f32)

variable [Facts₀]

def gather_S512x64_S500000x1_S500000x64_1_0_n_n_0_1_164 : GatherDims S512x64 S500000x1 S500000x64 where
  offsetDims := [1]
  collapsedSliceDims := [0]
  operandBatchingDims := []
  startIndicesBatchingDims := []
  startIndexMap := [0]
  indexVectorDim := 1
  sliceSizes := ![1, 64]
  wf := gather_S512x64_S500000x1_S500000x64_1_0_n_n_0_1_164_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_0) S5000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v16_1) S1x256.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16_2) S1x256.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v16_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31_0) S5000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31_1) S1x256.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31_2) S1x256.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v31_0) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S500000x128 : Shape := ⟨2, ![500000, 128]⟩
abbrev S500000x64 : Shape := ⟨2, ![500000, 64]⟩
abbrev S512x64 : Shape := ⟨2, ![512, 64]⟩
abbrev S500000 : Shape := ⟨1, ![500000]⟩
abbrev S384x256 : Shape := ⟨2, ![384, 256]⟩
abbrev S256 : Shape := ⟨1, ![256]⟩
abbrev S256x256 : Shape := ⟨2, ![256, 256]⟩
abbrev S_ : Shape := ⟨0, ![]⟩
abbrev S500000x1 : Shape := ⟨2, ![500000, 1]⟩
abbrev S500000x384 : Shape := ⟨2, ![500000, 384]⟩
abbrev S500000x256 : Shape := ⟨2, ![500000, 256]⟩
abbrev S1x256 : Shape := ⟨2, ![1, 256]⟩

abbrev nBuf : Space → Nat
  | .hbm => 86
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S512x64, .f32⟩
  | .hbm, ⟨4, _⟩ => ⟨S500000, .i32⟩
  | .hbm, ⟨5, _⟩ => ⟨S384x256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x64, .f32⟩
  | .hbm, ⟨20, _⟩ => ⟨S500000x384, .f32⟩
  | .hbm, ⟨21, _⟩ => ⟨S500000x256, .f32⟩
  | .hbm, ⟨22, _⟩ => ⟨S_, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S500000x256, .f32⟩
  | .hbm, ⟨29, _⟩ => ⟨S500000x256, .f32⟩
  | .hbm, ⟨30, _⟩ => ⟨S500000x256, .f32⟩
  | .hbm, ⟨31, _⟩ => ⟨S_, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S1x256, .f32⟩
  | .hbm, ⟨37, _⟩ => ⟨S500000x256, .f32⟩
  | .hbm, ⟨38, _⟩ => ⟨S500000x256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S500000x256, .f32⟩
  | .hbm, ⟨45, _⟩ => ⟨S500000x256, .f32⟩
  | .hbm, ⟨46, _⟩ => ⟨S1x256, .f32⟩
  | .hbm, ⟨47, _⟩ => ⟨S500000x256, .f32⟩
  | .hbm, ⟨48, _⟩ => ⟨S500000x256, .f32⟩
  | .hbm, ⟨49, _⟩ => ⟨S1x256, .f32⟩
  | .hbm, ⟨50, _⟩ => ⟨S500000x256, .f32⟩
  | .hbm, ⟨51, _⟩ => ⟨S500000x256, .f32⟩
  | .hbm, ⟨52, _⟩ => ⟨S_, .f32⟩
  | .hbm, ⟨53, _⟩ => ⟨S500000x256, .f32⟩
  | .hbm, ⟨54, _⟩ => ⟨S500000x256, .f32⟩
  | .hbm, ⟨55, _⟩ => ⟨S500000x256, .f32⟩
  | .hbm, ⟨56, _⟩ => ⟨S_, .f32⟩
  | .hbm, ⟨57, _⟩ => ⟨S256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S1x256, .f32⟩
  | .hbm, ⟨62, _⟩ => ⟨S500000x256, .f32⟩
  | .hbm, ⟨63, _⟩ => ⟨S500000x256, .f32⟩
  | .hbm, ⟨64, _⟩ => ⟨S500000x256, .f32⟩
  | .hbm, ⟨65, _⟩ => ⟨S_, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S1x256, .f32⟩
  | .hbm, ⟨71, _⟩ => ⟨S500000x256, .f32⟩
  | .hbm, ⟨72, _⟩ => ⟨S500000x256, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S256, .f32⟩
  | .hbm, ⟨77, _⟩ => ⟨S1x256, .f32⟩
  | .hbm, ⟨78, _⟩ => ⟨S500000x256, .f32⟩
  | .hbm, ⟨79, _⟩ => ⟨S500000x256, .f32⟩
  | .hbm, ⟨80, _⟩ => ⟨S1x256, .f32⟩
  | .hbm, ⟨81, _⟩ => ⟨S500000x256, .f32⟩
  | .hbm, ⟨82, _⟩ => ⟨S500000x256, .f32⟩
  | .hbm, ⟨83, _⟩ => ⟨S1x256, .f32⟩
  | .hbm, ⟨84, _⟩ => ⟨S500000x256, .f32⟩
  | .hbm, ⟨85, _⟩ => ⟨S500000x256, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x64_S500000x64_S500000x384_d1 : Shape.Concatenates [S500000x128, S500000x128, S500000x64, S500000x64] S500000x384 1
  reducesTo_S500000x256_S256_d0 : S500000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  gather_S512x64_S500000x1_S500000x64_1_0_n_n_0_1_164_wf : GatherDims.WF S512x64 S500000x1 S500000x64 [1] [0] [] [0] [] 1 ![1, 64]
  dot_S500000x384_S384x256_S500000x256_1_0_0_1_n_n_wf : DotDims.WF S500000x384 S384x256 S500000x256 [1] [0] [0] [1] [] []
  dot_S500000x256_S256x256_S500000x256_1_0_0_1_n_n_wf : DotDims.WF S500000x256 S256x256 S500000x256 [1] [0] [0] [1] [] []

variable [Facts₀]

def gather_S512x64_S500000x1_S500000x64_1_0_n_n_0_1_164 : GatherDims S512x64 S500000x1 S500000x64 where
  offsetDims := [1]
  collapsedSliceDims := [0]
  operandBatchingDims := []
  startIndicesBatchingDims := []
  startIndexMap := [0]
  indexVectorDim := 1
  sliceSizes := ![1, 64]
  wf := gather_S512x64_S500000x1_S500000x64_1_0_n_n_0_1_164_wf
def dot_S500000x384_S384x256_S500000x256_1_0_0_1_n_n : DotDims S500000x384 S384x256 S500000x256 where
  lhsContracting := [1]
  rhsContracting := [0]
  lhsNonContracting := [0]
  rhsNonContracting := [1]
  lhsBatch := []
  rhsBatch := []
  wf := dot_S500000x384_S384x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf

class Facts : Prop extends Facts₀ where

variable [Facts]
-- ==== Proof.Region0Defs.lean ====
/- Stage 1 of the edge model as a pipeline: the contents its proof data name.
   A grid point t handles rows 5000·t … 5000·t+4999. The block written to the pre-activation window is the
   sum of four matrix products of the point's input blocks; two scratch rows carry, from point to point, the
   column sums of that block and of its squares, reset at the first point; the last point copies them out. -/
import proofs.«132934_j50371376447949_1_alg».proof.Proof.Gen.KernelIdeal.Launch
import proofs.«132934_j50371376447949_1_alg».proof.Proof.Gen.KernelIdeal.Skeleton
import proofs.«132934_j50371376447949_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pre-activation block of point `t`: the four partial products of the point's rows, added. -/
def preBlk0 (c : Dev nD) (t : Fin cfg0.N) : FVec F S5000x256 .f32 :=
  k0_pay5 (iblk0 V c 0 t) (iblk0 V c 1 t) (iblk0 V c 2 t) (iblk0 V c 3 t) (iblk0 V c 4 t) (iblk0 V c 5 t) (iblk0 V c 6 t) (iblk0 V c 7 t)

/-- Its column sums. -/
def colSum0 (c : Dev nD) (t : Fin cfg0.N) : FVec F S256 .f32 :=
  k0_pay6 (iblk0 V c 0 t) (iblk0 V c 1 t) (iblk0 V c 2 t) (iblk0 V c 3 t) (iblk0 V c 4 t) (iblk0 V c 5 t) (iblk0 V c 6 t) (iblk0 V c 7 t)

/-- The two scratch rows after point `n`: the running column sums and the running sums of squares, started
    from zero at the first point. -/
def acc0 (c : Dev nD) : (n : ℕ) → n < cfg0.N → Vec F S1x256 .f32 × Vec F S1x256 .f32
  | 0, hn => (k0_pay1 (k0_pay3 (F := F)) (colSum0 V c ⟨0, hn⟩), k0_pay2 (preBlk0 V c ⟨0, hn⟩) (k0_pay4 (F := F)))
  | n + 1, hn => (k0_pay1 (acc0 c n (Nat.lt_of_succ_lt hn)).1 (colSum0 V c ⟨n + 1, hn⟩),
                  k0_pay2 (preBlk0 V c ⟨n + 1, hn⟩) (acc0 c n (Nat.lt_of_succ_lt hn)).2)

theorem acc0_zero (c : Dev nD) (hn : 0 < cfg0.N) :
    acc0 V c 0 hn = (k0_pay1 (k0_pay3 (F := F)) (colSum0 V c ⟨0, hn⟩), k0_pay2 (preBlk0 V c ⟨0, hn⟩) (k0_pay4 (F := F))) := rfl
theorem acc0_succ (c : Dev nD) (n : ℕ) (hn : n + 1 < cfg0.N) :
    acc0 V c (n + 1) hn = (k0_pay1 (acc0 V c n (Nat.lt_of_succ_lt hn)).1 (colSum0 V c ⟨n + 1, hn⟩),
                  k0_pay2 (preBlk0 V c ⟨n + 1, hn⟩) (acc0 V c n (Nat.lt_of_succ_lt hn)).2) := rfl

/-- The scratch operands as memrefs. -/
abbrev scM0_0 : Memref sig .tc .vmem S1x256 .f32 := Memref.whole cc0_scratch0
abbrev scM0_1 : Memref sig .tc .vmem S1x256 .f32 := Memref.whole cc0_scratch1

/-- The invariant before point `n`: at the start the scoped buffers at anything; afterwards the two scratch rows
    at what the point before left, every other scoped buffer no window stages at anything; the generator register
    at some state throughout. -/
def PhiS0 (c : Dev nD) : (n : ℕ) → n ≤ cfg0.N → sProp 𝕄
  | 0, _ => Pipeline.ΦA spec0 c
  | n + 1, hn => iprop(owns (c : Thread nD τ) scM0_0 fullShare (acc0 V c n hn).1 ∗ owns (c : Thread nD τ) scM0_1 fullShare (acc0 V c n hn).2
      ∗ Pipeline.scopedRestBut (Ix := Unit) (Name := ℕ) (U := UR sig nD τ) (Lvl := ℕ) (Val := Elt F) spec0 c [cc0_scratch0, cc0_scratch1] ∗ (∃ r, prngReg c r))

/-- Stage 1's proof data: inputs left as fetched; the pre-activation window at the point's block; the two
    statistics windows at the scratch rows (consulted at the last point only: elsewhere they are idle). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => preBlk0 V c t
    | ⟨9, _⟩ => (acc0 V c t.val t.isLt).1
    | ⟨10, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_8 (c : Dev nD) (t : Fin cfg0.N) : (dat0 V c).after 8 t = preBlk0 V c t := by dsimp only [dat0]
theorem after0_9 (c : Dev nD) (t : Fin cfg0.N) : (dat0 V c).after 9 t = (acc0 V c t.val t.isLt).1 := by dsimp only [dat0]
theorem after0_10 (c : Dev nD) (t : Fin cfg0.N) : (dat0 V c).after 10 t = (acc0 V c t.val t.isLt).2 := by dsimp only [dat0]

end

end Cert.KernelIdeal.Hand

end
-- ==== Proof.Region1Defs.lean ====
/- Stage 2 of the edge model as a pipeline: the contents its proof data name.
   A grid point t reads rows 5000·t … 5000·t+4999 of the first pre-activation, applies the first layer's affine
   map and the rectifier, multiplies by the second weight matrix and writes the block out; two scratch rows carry
   the column sums of the written block and of its squares, reset at the first point, copied out at the last. -/
import proofs.«132934_j50371376447949_1_alg».proof.Proof.Gen.KernelIdeal.Launch
import proofs.«132934_j50371376447949_1_alg».proof.Proof.Gen.KernelIdeal.Skeleton
import proofs.«132934_j50371376447949_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second pre-activation block of point `t`. -/
def preBlk1 (c : Dev nD) (t : Fin cfg1.N) : FVec F S5000x256 .f32 :=
  k1_pay4 (iblk1 V c 0 t) (iblk1 V c 1 t) (iblk1 V c 2 t) (iblk1 V c 3 t)

/-- The two scratch rows after point `n`: running column sums, running sums of squares. -/
def acc1 (c : Dev nD) : (n : ℕ) → n < cfg1.N → Vec F S1x256 .f32 × Vec F S1x256 .f32
  | 0, hn => (k1_pay5 (iblk1 V c 0 ⟨0, hn⟩) (iblk1 V c 1 ⟨0, hn⟩) (iblk1 V c 2 ⟨0, hn⟩) (iblk1 V c 3 ⟨0, hn⟩) (k1_pay2 (F := F)),
              k1_pay1 (k1_pay6 (iblk1 V c 0 ⟨0, hn⟩) (iblk1 V c 1 ⟨0, hn⟩) (iblk1 V c 2 ⟨0, hn⟩) (iblk1 V c 3 ⟨0, hn⟩) (k1_pay3 (F := F))))
  | n + 1, hn => (k1_pay5 (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn)).1,
                  k1_pay1 (k1_pay6 (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn)).2))

theorem acc1_zero (c : Dev nD) (hn : 0 < cfg1.N) :
    acc1 V c 0 hn = (k1_pay5 (iblk1 V c 0 ⟨0, hn⟩) (iblk1 V c 1 ⟨0, hn⟩) (iblk1 V c 2 ⟨0, hn⟩) (iblk1 V c 3 ⟨0, hn⟩) (k1_pay2 (F := F)),
              k1_pay1 (k1_pay6 (iblk1 V c 0 ⟨0, hn⟩) (iblk1 V c 1 ⟨0, hn⟩) (iblk1 V c 2 ⟨0, hn⟩) (iblk1 V c 3 ⟨0, hn⟩) (k1_pay3 (F := F)))) := rfl
theorem acc1_succ (c : Dev nD) (n : ℕ) (hn : n + 1 < cfg1.N) :
    acc1 V c (n + 1) hn = (k1_pay5 (iblk1 V c 0 ⟨n + 1, hn⟩) (iblk1 V c 1 ⟨n + 1, hn⟩) (iblk1 V c 2 ⟨n + 1, hn⟩) (iblk1 V c 3 ⟨n + 1, hn⟩) (acc1 V c n (Nat.lt_of_succ_lt hn)).1,
                  k1_pay1 (k1_pay6 (iblk1 V c 0 ⟨n + 1, hn⟩) (iblk1 V c 1 ⟨n + 1, hn⟩) (iblk1 V c 2 ⟨n + 1, hn⟩) (iblk1 V c 3 ⟨n + 1, hn⟩) (acc1 V c n (Nat.lt_of_succ_lt hn)).2)) := rfl

/-- The scratch operands as memrefs. -/
abbrev scM1_0 : Memref sig .tc .vmem S1x256 .f32 := Memref.whole cc1_scratch0
abbrev scM1_1 : Memref sig .tc .vmem S1x256 .f32 := Memref.whole cc1_scratch1

/-- The invariant before point `n`: as for stage 1, with this stage's scratch rows. -/
def PhiS1 (c : Dev nD) : (n : ℕ) → n ≤ cfg1.N → sProp 𝕄
  | 0, _ => Pipeline.ΦA spec1 c
  | n + 1, hn => iprop(owns (c : Thread nD τ) scM1_0 fullShare (acc1 V c n hn).1 ∗ owns (c : Thread nD τ) scM1_1 fullShare (acc1 V c n hn).2
      ∗ Pipeline.scopedRestBut (Ix := Unit) (Name := ℕ) (U := UR sig nD τ) (Lvl := ℕ) (Val := Elt F) spec1 c [cc1_scratch0, cc1_scratch1] ∗ (∃ r, prngReg c r))

/-- Stage 2's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => preBlk1 V c t
    | ⟨5, _⟩ => (acc1 V c t.val t.isLt).1
    | ⟨6, _⟩ => (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_4 (c : Dev nD) (t : Fin cfg1.N) : (dat1 V c).after 4 t = preBlk1 V c t := by dsimp only [dat1]
theorem after1_5 (c : Dev nD) (t : Fin cfg1.N) : (dat1 V c).after 5 t = (acc1 V c t.val t.isLt).1 := by dsimp only [dat1]
theorem after1_6 (c : Dev nD) (t : Fin cfg1.N) : (dat1 V c).after 6 t = (acc1 V c t.val t.isLt).2 := by dsimp only [dat1]

end

end Cert.KernelIdeal.Hand

end
-- ==== Proof.Region2Defs.lean ====
/- Stage 3 of the edge model as a pipeline: each grid point writes the second layer's affine map of its
   block of rows; nothing is carried between points. -/
import proofs.«132934_j50371376447949_1_alg».proof.Proof.Gen.KernelIdeal.Launch
import proofs.«132934_j50371376447949_1_alg».proof.Proof.Gen.KernelIdeal.Skeleton
import proofs.«132934_j50371376447949_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block of point `t`. -/
def outBlk2 (c : Dev nD) (t : Fin cfg2.N) : FVec F S5000x256 .f32 :=
  k2_pay1 (iblk2 V c 0 t) (iblk2 V c 1 t) (iblk2 V c 2 t)

/-- Stage 3's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outBlk2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_3 (c : Dev nD) (t : Fin cfg2.N) : (dat2 V c).after 3 t = outBlk2 V c t := by dsimp only [dat2]

end

end Cert.KernelIdeal.Hand

end
-- ==== Proof.RunDefs.lean ====
/- The buffers' contents at each boundary of the program: launch, after the host lines before stage 1, after
   stage 1, after the host lines that turn its statistics into the first affine map, after stage 2, after the
   host lines for the second affine map, after stage 3. A stage leaves its windows' arrays at what its
   write-backs make of them and every other buffer alone. -/
import proofs.«132934_j50371376447949_1_alg».proof.Proof.Region0Defs
import proofs.«132934_j50371376447949_1_alg».proof.Proof.Region1Defs
import proofs.«132934_j50371376447949_1_alg».proof.Proof.Region2Defs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (stage 1's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After stage 1. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (stage 2's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After stage 2. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third host stretch (stage 3's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After stage 3: the end of the program. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-- No pipeline has a prefetched table. -/
abbrev adm : (p : Fin 3) → (pcfgs (F := F) p).Adm := fun p => (cfgs p).toPCfg_adm

/-- Every pipeline's proof data, each at its stage's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

end Cert.KernelIdeal.Hand

end
-- ==== Proof.Run.lean ====
/- The launch of the whole program: three host stretches alternating with three stages, from the launch memory
   to the return. Between two items a core holds every unscoped buffer at that boundary's contents, its generator
   register at some state, and owes nothing. A host stretch moves the contents by its operations; a stage takes
   its windows' arrays out of the unscoped buffers, runs its pipeline over them, and puts them back at what the
   write-backs left, every other buffer untouched. At the end every unscoped buffer is read against the final
   memory: it holds the last boundary's contents. -/
import proofs.«132934_j50371376447949_1_alg».proof.Proof.RunDefs
import proofs.«132934_j50371376447949_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What a stage's exit contents are, in the two forms the rejoining of the arrays takes -/

/-- Stage 1 leaves each of its arrays at the write-backs' fold, -/
theorem exitArr0 (c : Dev nD) (w : Fin cfg0.W) : (dat0 (V1 m) c).arrAt w cfg0.N = V2 m c (Pipeline.arrRef spec0 w) :=
  (W2_arr m c w).symm
/-- and every buffer that is no array of its windows as entered. -/
theorem exitRest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Stage 2 likewise, -/
theorem exitArr1 (c : Dev nD) (w : Fin cfg1.W) : (dat1 (V3 m) c).arrAt w cfg1.N = V4 m c (Pipeline.arrRef spec1 w) :=
  (W4_arr m c w).symm
theorem exitRest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- and stage 3. -/
theorem exitArr2 (c : Dev nD) (w : Fin cfg2.W) : (dat2 (V5 m) c).arrAt w cfg2.N = V6 m c (Pipeline.arrRef spec2 w) :=
  (W6_arr m c w).symm
theorem exitRest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The thread state between items -/

/-- No variant of any operation is in play. -/
abbrev noVar : Variants := Variants.none
/-- No core waits on another: no pair is levelled. -/
abbrev noPairs : GSem nD τ sig → Finset Unit := fun _ => ∅
abbrev lvl0 : GSem nD τ sig → Unit → ℕ := fun _ _ => 0
/-- Beside the buffers a core carries its generator register at some state and owes nothing. -/
abbrev beside (c : Dev nD) : sProp 𝕄 := iprop((∃ r, prngReg c r) ∗ ∃ W, owes (c : Thread nD τ) (0 : CellTallies nD τ sig Unit) W)
/-- A host stretch from the contents `W`: its operations act on the unscoped buffers, everything else rides along;
    it leaves them at the stretch's image of `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
/-- The state at the return, without the debt: every unscoped buffer at the last contents, the register somewhere. -/
abbrev atReturn (c : Dev nD) : sProp 𝕄 := iprop(StableHlo.held (c : Thread nD τ) (Pipeline.ucRefs τ sig) (W6 m c) ∗ ∃ r, prngReg c r)

/-! ## The stages as segments -/

set_option backward.isDefEq.respectTransparency.types false in
/-- STAGE 1 between the boundaries after the first host stretch and before the second: entered with every unscoped
    buffer at `W1`, left with them at `W2`. Its body's obligation and the two ends of its invariant are given. -/
def stage1 (hb : ∀ c, BodyObligation (dat0 (F := F) (V1 m) c) (defs₀ (F := F)) Variants.none () Set.univ)
    (hi : ∀ c, (Pipeline.ΦA spec0 c : sProp 𝕄) ⊢ (dat0 (V1 m) c).Φ 0)
    (ho : ∀ c, (dat0 (V1 m) c).Φ (Fin.last cfg0.N) ⊢ (Pipeline.ΦA spec0 c : sProp 𝕄)) :
    Pipeline.RegionSeg (pcfgs (F := F)) adm (pdats m) () defs₀ noVar noPairs lvl0 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ noPairs lvl0 0 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    -- the unscoped buffers at the entry contents are the windows' arrays at those contents beside the rest; no table;
    -- the debt, at nothing, is within any bound; the register goes to the invariant
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hbufs, Hreg, Hdebt⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    -- the register, no table and the scoped buffers no window stages make the class invariant, which the stage's
    -- first invariant follows from
    have hΦ : (pdats m 0 c).Φ 0 = (dat0 (V1 m) c).Φ 0 := rfl
    rw [hΦ]
    refine BIBase.Entails.trans ?_ (hi c)
    unfold Pipeline.ΦA
    iintro ⟨Hreg, -, Hsc⟩
    isplitl [Hsc]; · iexact Hsc
    iexact Hreg
  hout c := by
    -- the stage's last invariant gives the class invariant, which is those scoped buffers and the register
    have hΦ : (pdats m 0 c).Φ (Fin.last _) = (dat0 (V1 m) c).Φ (Fin.last cfg0.N) := rfl
    rw [Pipeline.ownSems0_none, hΦ]
    refine BIBase.Entails.trans (ho c) ?_
    unfold Pipeline.ΦA
    iintro ⟨Hsc, Hreg⟩
    isplitl [Hreg]; · iexact Hreg
    isplitr; · iempintro
    iexact Hsc
  hexit c := by
    -- the arrays at the write-backs' fold beside the untouched rest are the unscoped buffers at the exit contents
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exitArr0 m c) (exitRest0 m c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

set_option backward.isDefEq.respectTransparency.types false in
/-- STAGE 2: entered with every unscoped buffer at `W3`, left with them at `W4`. -/
def stage2 (hb : ∀ c, BodyObligation (dat1 (F := F) (V3 m) c) (defs₀ (F := F)) Variants.none () Set.univ)
    (hi : ∀ c, (Pipeline.ΦA spec1 c : sProp 𝕄) ⊢ (dat1 (V3 m) c).Φ 0)
    (ho : ∀ c, (dat1 (V3 m) c).Φ (Fin.last cfg1.N) ⊢ (Pipeline.ΦA spec1 c : sProp 𝕄)) :
    Pipeline.RegionSeg (pcfgs (F := F)) adm (pdats m) () defs₀ noVar noPairs lvl0 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ noPairs lvl0 1 fun _ _ => rfl
  pre c := iprop(StableHlo.held (c : Thread nD τ) (Pipeline.ucRefs τ sig) (W3 m c) ∗ beside c)
  post c := iprop(StableHlo.held (c : Thread nD τ) (Pipeline.ucRefs τ sig) (W4 m c) ∗ beside c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    -- the unscoped buffers at the entry contents are the windows' arrays at those contents beside the rest; no table;
    -- the debt, at nothing, is within any bound; the register goes to the invariant
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hbufs, Hreg, Hdebt⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    -- the register, no table and the scoped buffers no window stages make the class invariant, which the stage's
    -- first invariant follows from
    have hΦ : (pdats m 1 c).Φ 0 = (dat1 (V3 m) c).Φ 0 := rfl
    rw [hΦ]
    refine BIBase.Entails.trans ?_ (hi c)
    unfold Pipeline.ΦA
    iintro ⟨Hreg, -, Hsc⟩
    isplitl [Hsc]; · iexact Hsc
    iexact Hreg
  hout c := by
    -- the stage's last invariant gives the class invariant, which is those scoped buffers and the register
    have hΦ : (pdats m 1 c).Φ (Fin.last _) = (dat1 (V3 m) c).Φ (Fin.last cfg1.N) := rfl
    rw [Pipeline.ownSems0_none, hΦ]
    refine BIBase.Entails.trans (ho c) ?_
    unfold Pipeline.ΦA
    iintro ⟨Hsc, Hreg⟩
    isplitl [Hreg]; · iexact Hreg
    isplitr; · iempintro
    iexact Hsc
  hexit c := by
    -- the arrays at the write-backs' fold beside the untouched rest are the unscoped buffers at the exit contents
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exitArr1 m c) (exitRest1 m c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

set_option backward.isDefEq.respectTransparency.types false in
/-- STAGE 3, the last item: entered with every unscoped buffer at `W5`, left at the return state beside the core
    owing nothing. -/
def stage3 (hb : ∀ c, BodyObligation (dat2 (F := F) (V5 m) c) (defs₀ (F := F)) Variants.none () Set.univ) :
    Pipeline.RegionSeg (pcfgs (F := F)) adm (pdats m) () defs₀ noVar noPairs lvl0 2 where
  win := launch2.win.to₀
  block_pos := launch2.block_pos
  stage_whole := launch2.stage_whole
  K := PEmpty
  osem k := k.elim
  ho := Pipeline.OwnSemFacts.none _
  hbody c := (hb c).loose
  hwaits := Pipeline.hwaits_of_owed_zero _ _ _ _ noPairs lvl0 2 fun _ _ => rfl
  pre c := iprop(StableHlo.held (c : Thread nD τ) (Pipeline.ucRefs τ sig) (W5 m c) ∗ beside c)
  post c := iprop(atReturn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    -- the unscoped buffers at the entry contents are the windows' arrays at those contents beside the rest; no table;
    -- the debt, at nothing, is within any bound; the register goes to the invariant
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hbufs, Hreg, Hdebt⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    -- this stage's invariant is the class invariant at every point
    rw [show (pdats m 2 c).Φ 0 = Pipeline.ΦA spec2 c from rfl]; unfold Pipeline.ΦA
    iintro ⟨Hreg, -, Hsc⟩
    isplitl [Hsc]; · iexact Hsc
    iexact Hreg
  hout c := by
    rw [Pipeline.ownSems0_none, show (pdats m 2 c).Φ (Fin.last _) = Pipeline.ΦA spec2 c from rfl]; unfold Pipeline.ΦA
    iintro ⟨Hsc, Hreg⟩
    isplitl [Hreg]; · iexact Hreg
    isplitr; · iempintro
    iexact Hsc
  hexit c := by
    -- the arrays at the write-backs' fold beside the untouched rest are the unscoped buffers at the exit contents
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (exitArr2 m c) (exitRest2 m c)
    rw [Pipeline.unscopedBufs_held] at hjoin
    iintro ⟨Harr, Hdebt, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Hdebt with ⟨%W, -, Hdebt⟩; iexists W; iexact Hdebt

/-! ## The program as its items, and the launch -/

/-- The six items in order: a host stretch from each even boundary's contents, a stage from each odd one's. -/
abbrev items (hb0 : ∀ c, BodyObligation (dat0 (F := F) (V1 m) c) (defs₀ (F := F)) Variants.none () Set.univ)
    (hi0 : ∀ c, (Pipeline.ΦA spec0 c : sProp 𝕄) ⊢ (dat0 (V1 m) c).Φ 0)
    (ho0 : ∀ c, (dat0 (V1 m) c).Φ (Fin.last cfg0.N) ⊢ (Pipeline.ΦA spec0 c : sProp 𝕄))
    (hb1 : ∀ c, BodyObligation (dat1 (F := F) (V3 m) c) (defs₀ (F := F)) Variants.none () Set.univ)
    (hi1 : ∀ c, (Pipeline.ΦA spec1 c : sProp 𝕄) ⊢ (dat1 (V3 m) c).Φ 0)
    (ho1 : ∀ c, (dat1 (V3 m) c).Φ (Fin.last cfg1.N) ⊢ (Pipeline.ΦA spec1 c : sProp 𝕄))
    (hb2 : ∀ c, BodyObligation (dat2 (F := F) (V5 m) c) (defs₀ (F := F)) Variants.none () Set.univ) :
    List (Pipeline.Seg (pcfgs (F := F)) adm (pdats m) () defs₀ noVar noPairs lvl0) :=
  [ .host (stretch hostOps0 hostOps0_sub hostOps0_fresh (W0 m)),
    .region (stage1 m hb0 hi0 ho0),
    .host (stretch hostOps1 hostOps1_sub hostOps1_fresh (W2 m)),
    .region (stage2 m hb1 hi1 ho1),
    .host (stretch hostOps2 hostOps2_sub hostOps2_fresh (W4 m)),
    .region (stage3 m hb2) ]

/-- The program is the run of its items: it is the chain of their fragments, and so is the run. -/
theorem main_items (hb0 : ∀ c, BodyObligation (dat0 (F := F) (V1 m) c) (defs₀ (F := F)) Variants.none () Set.univ)
    (hi0 : ∀ c, (Pipeline.ΦA spec0 c : sProp 𝕄) ⊢ (dat0 (V1 m) c).Φ 0)
    (ho0 : ∀ c, (dat0 (V1 m) c).Φ (Fin.last cfg0.N) ⊢ (Pipeline.ΦA spec0 c : sProp 𝕄))
    (hb1 : ∀ c, BodyObligation (dat1 (F := F) (V3 m) c) (defs₀ (F := F)) Variants.none () Set.univ)
    (hi1 : ∀ c, (Pipeline.ΦA spec1 c : sProp 𝕄) ⊢ (dat1 (V3 m) c).Φ 0)
    (ho1 : ∀ c, (dat1 (V3 m) c).Φ (Fin.last cfg1.N) ⊢ (Pipeline.ΦA spec1 c : sProp 𝕄))
    (hb2 : ∀ c, BodyObligation (dat2 (F := F) (V5 m) c) (defs₀ (F := F)) Variants.none () Set.univ)
    (c : Dev nD) : main (F := F) c = Pipeline.Seg.run (items m hb0 hi0 ho0 hb1 hi1 ho1 hb2) :=
  (main_chain c).trans (by chain_rfl)

/-- An unscoped reference of the core is among those the thread state holds. -/
theorem held_of_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, given each stage's body obligation and the two ends of the first two
    stages' invariants, every weakly fair execution of the program terminates and the final memory holds, on every core,
    every unscoped buffer at the last boundary's contents `W6`: the launch deals each core its unscoped buffers at the
    launch contents, its register and no debt; the six items chain by name; the return state is read against the
    final memory. -/
theorem run_all (m : (ℓ : Loc nD τ sig) → Buf (Elt F) ℓ) (ρ : Dev nD → PrngReg)
    (hb0 : ∀ c, BodyObligation (dat0 (F := F) (V1 m) c) (defs₀ (F := F)) Variants.none () Set.univ)
    (hi0 : ∀ c, (Pipeline.ΦA spec0 c : sProp 𝕄) ⊢ (dat0 (V1 m) c).Φ 0)
    (ho0 : ∀ c, (dat0 (V1 m) c).Φ (Fin.last cfg0.N) ⊢ (Pipeline.ΦA spec0 c : sProp 𝕄))
    (hb1 : ∀ c, BodyObligation (dat1 (F := F) (V3 m) c) (defs₀ (F := F)) Variants.none () Set.univ)
    (hi1 : ∀ c, (Pipeline.ΦA spec1 c : sProp 𝕄) ⊢ (dat1 (V3 m) c).Φ 0)
    (ho1 : ∀ c, (dat1 (V3 m) c).Φ (Fin.last cfg1.N) ⊢ (Pipeline.ΦA spec1 c : sProp 𝕄))
    (hb2 : ∀ c, BodyObligation (dat2 (F := F) (V5 m) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem ((c : Thread nD τ).1, b) = W6 m c b) :=
  Pipeline.θ_run_regions_kit (pcfgs (F := F)) adm (pdats m) () cellOf_inj emb₁ defs₀ noVar noPairs lvl0 m ρ main
    (items m hb0 hi0 ho0 hb1 hi1 ho1 hb2)
    (fun c Q => by rw [main_items m hb0 hi0 ho0 hb1 hi1 ho1 hb2 c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the whole user component at the launch element is that element through the one embedding; no ghost resource
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := atReturn m)
    (hch := ⟨fun _ => .rfl, fun _ => .rfl, fun _ => .rfl, fun _ => .rfl, fun _ => .rfl, fun _ => .rfl, fun _ => .rfl⟩)
    (hinit := by
      -- core by core: the unscoped buffers at the launch memory are held at `W0`; the register is at its launch state;
      -- the launch debt is none
      refine Pipeline.initEach noPairs lvl0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdebt, -, Hreg, -⟩, -⟩
      imodintro
      isplitl [Hbufs]; · iexact Hbufs
      isplitl [Hreg]; · iexists _; iexact Hreg
      iexists ∅; iexact Hdebt)
    (QY := fun c s => ∀ b ∈ Pipeline.ucRefs τ sig, s.mem (((c : Thread nD τ)).1, b) = W6 m c b)
    (hfin := fun c s' => by
      -- every buffer held at a content, beside the final state's interpretation, says the memory holds that content
      iintro ⟨⟨Hbufs, -⟩, HSI⟩
      unfold StableHlo.held
      imodintro
      iapply (pointsTo_read_all (Pipeline.ucRefs τ sig) (fun b => (((c : Thread nD τ)).1, b)) (W6 m c) s')
      isplitl [Hbufs] <;> iassumption)
    (hQ := fun s h => h)

end Cert.KernelIdeal.Hand

end
-- ==== Proof.RunArgs.lean ====
/- What the fold of boundary contents holds at the program's argument arrays and at the stages' result arrays.
   A host stretch leaves every buffer outside its write list alone; a stage leaves every buffer that is none of its
   windows' arrays alone, leaves an input window's array as it found it, and leaves an output window's array at what
   its write-backs make of it. So an argument array is walked back, boundary by boundary, to the launch memory,
   and a stage's result array is read at the next stage's entry as the earlier stage left it. -/
import proofs.«132934_j50371376447949_1_alg».proof.Proof.RunDefs
import proofs.«132934_j50371376447949_1_alg».proof.Proof.Gen.KernelIdeal.Regions

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## A host stretch leaves what it does not write -/

/-- The first host stretch leaves every buffer outside its write list at the launch contents. -/
theorem W1_of (c : Dev nD) (r : Ref sig .tc) (h : r ∉ hostOps0_W) :
    W1 m c (Proc.devRef .tc r) = W0 m c (Proc.devRef .tc r) :=
  StableHlo.after_of_writes_sub hostOps0 _ hostOps0_writes h
/-- The second host stretch leaves every buffer outside its write list as stage 1 left it. -/
theorem W3_of (c : Dev nD) (r : Ref sig .tc) (h : r ∉ hostOps1_W) :
    W3 m c (Proc.devRef .tc r) = W2 m c (Proc.devRef .tc r) :=
  StableHlo.after_of_writes_sub hostOps1 _ hostOps1_writes h
/-- The third host stretch leaves every buffer outside its write list as stage 2 left it. -/
theorem W5_of (c : Dev nD) (r : Ref sig .tc) (h : r ∉ hostOps2_W) :
    W5 m c (Proc.devRef .tc r) = W4 m c (Proc.devRef .tc r) :=
  StableHlo.after_of_writes_sub hostOps2 _ hostOps2_writes h

/-! ## Stage 1's inputs among the arguments -/

/-- An input window of stage 1 holds at its exit what it held at its entry (an input array is never written). -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
/-- An input window of stage 2 holds at its exit what it held at its entry. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))
/-- An input window of stage 3 holds at its exit what it held at its entry. -/
theorem W6_in (c : Dev nD) (w : Fin cfg2.W) (hin : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hin _).trans (A_eq2 (V5 m) c w))

/-! ## The arguments at stage 1's entry -/

/-- No host line before stage 1 writes the first argument. -/
theorem W1_main_arg0 (c : Dev nD) :
    W1 m c (Proc.devRef .tc main_arg0) = m ((c : Thread nD τ).loc main_arg0) :=
  (W1_of m c main_arg0 (by decide)).trans rfl
/-- No host line before stage 1 writes the second argument. -/
theorem W1_main_arg1 (c : Dev nD) :
    W1 m c (Proc.devRef .tc main_arg1) = m ((c : Thread nD τ).loc main_arg1) :=
  (W1_of m c main_arg1 (by decide)).trans rfl
/-- No host line before stage 1 writes the third argument. -/
theorem W1_main_arg2 (c : Dev nD) :
    W1 m c (Proc.devRef .tc main_arg2) = m ((c : Thread nD τ).loc main_arg2) :=
  (W1_of m c main_arg2 (by decide)).trans rfl

/-! ## The arguments at the end -/

/-- A buffer that no host stretch writes and that is no window's array of any stage ends at its launch contents. -/
theorem W6_of_untouched (c : Dev nD) (r : Ref sig .tc)
    (h0 : r ∉ hostOps0_W) (h1 : r ∉ hostOps1_W) (h2 : r ∉ hostOps2_W)
    (n0 : ∀ w, Pipeline.arrRef spec0 w ≠ r) (n1 : ∀ w, Pipeline.arrRef spec1 w ≠ r)
    (n2 : ∀ w, Pipeline.arrRef spec2 w ≠ r) :
    W6 m c (Proc.devRef .tc r) = m ((c : Thread nD τ).loc r) :=
  calc W6 m c (Proc.devRef .tc r)
    _ = W5 m c (Proc.devRef .tc r) := W6_of_ne m c r n2
    _ = W4 m c (Proc.devRef .tc r) := W5_of m c r h2
    _ = W3 m c (Proc.devRef .tc r) := W4_of_ne m c r n1
    _ = W2 m c (Proc.devRef .tc r) := W3_of m c r h1
    _ = W1 m c (Proc.devRef .tc r) := W2_of_ne m c r n0
    _ = W0 m c (Proc.devRef .tc r) := W1_of m c r h0
    _ = m ((c : Thread nD τ).loc r) := rfl

/-- A buffer that no host stretch writes, that is an input window's array of stage 1 and no window's array of the
    later stages, ends at its launch contents. -/
theorem W6_of_in0 (c : Dev nD) (w : Fin cfg0.W) (hin : (cfg0.win w).isOut = false)
    (h0 : Pipeline.arrRef spec0 w ∉ hostOps0_W) (h1 : Pipeline.arrRef spec0 w ∉ hostOps1_W)
    (h2 : Pipeline.arrRef spec0 w ∉ hostOps2_W)
    (n1 : ∀ w', Pipeline.arrRef spec1 w' ≠ Pipeline.arrRef spec0 w)
    (n2 : ∀ w', Pipeline.arrRef spec2 w' ≠ Pipeline.arrRef spec0 w) :
    W6 m c (Proc.devRef .tc (Pipeline.arrRef spec0 w)) = m ((c : Thread nD τ).loc (Pipeline.arrRef spec0 w)) :=
  calc W6 m c (Proc.devRef .tc (Pipeline.arrRef spec0 w))
    _ = W5 m c (Proc.devRef .tc (Pipeline.arrRef spec0 w)) := W6_of_ne m c _ n2
    _ = W4 m c (Proc.devRef .tc (Pipeline.arrRef spec0 w)) := W5_of m c _ h2
    _ = W3 m c (Proc.devRef .tc (Pipeline.arrRef spec0 w)) := W4_of_ne m c _ n1
    _ = W2 m c (Proc.devRef .tc (Pipeline.arrRef spec0 w)) := W3_of m c _ h1
    _ = W1 m c (Proc.devRef .tc (Pipeline.arrRef spec0 w)) := W2_in m c w hin
    _ = W0 m c (Proc.devRef .tc (Pipeline.arrRef spec0 w)) := W1_of m c _ h0
    _ = m ((c : Thread nD τ).loc (Pipeline.arrRef spec0 w)) := rfl

/-- The first argument is stage 1's input window 0 and nothing else touches it. -/
theorem W6_main_arg0 (c : Dev nD) :
    W6 m c (Proc.devRef .tc main_arg0) = m ((c : Thread nD τ).loc main_arg0) :=
  W6_of_in0 m c 0 rfl (by decide) (by decide) (by decide) (by decide) (by decide)
/-- The second argument is stage 1's input window 1 and nothing else touches it. -/
theorem W6_main_arg1 (c : Dev nD) :
    W6 m c (Proc.devRef .tc main_arg1) = m ((c : Thread nD τ).loc main_arg1) :=
  W6_of_in0 m c 1 rfl (by decide) (by decide) (by decide) (by decide) (by decide)
/-- The third argument is stage 1's input window 2 and nothing else touches it. -/
theorem W6_main_arg2 (c : Dev nD) :
    W6 m c (Proc.devRef .tc main_arg2) = m ((c : Thread nD τ).loc main_arg2) :=
  W6_of_in0 m c 2 rfl (by decide) (by decide) (by decide) (by decide) (by decide)
/-- Argument 3 is read by host lines only: no host line writes it and it is no window's array. -/
theorem W6_main_arg3 (c : Dev nD) :
    W6 m c (Proc.devRef .tc main_arg3) = m ((c : Thread nD τ).loc main_arg3) :=
  W6_of_untouched m c main_arg3 (by decide) (by decide) (by decide) (by decide) (by decide) (by decide)
/-- Argument 4 is read by host lines only: no host line writes it and it is no window's array. -/
theorem W6_main_arg4 (c : Dev nD) :
    W6 m c (Proc.devRef .tc main_arg4) = m ((c : Thread nD τ).loc main_arg4) :=
  W6_of_untouched m c main_arg4 (by decide) (by decide) (by decide) (by decide) (by decide) (by decide)
/-- Argument 5 is read by host lines only: no host line writes it and it is no window's array. -/
theorem W6_main_arg5 (c : Dev nD) :
    W6 m c (Proc.devRef .tc main_arg5) = m ((c : Thread nD τ).loc main_arg5) :=
  W6_of_untouched m c main_arg5 (by decide) (by decide) (by decide) (by decide) (by decide) (by decide)
/-- Argument 6 is read by host lines only: no host line writes it and it is no window's array. -/
theorem W6_main_arg6 (c : Dev nD) :
    W6 m c (Proc.devRef .tc main_arg6) = m ((c : Thread nD τ).loc main_arg6) :=
  W6_of_untouched m c main_arg6 (by decide) (by decide) (by decide) (by decide) (by decide) (by decide)
/-- Argument 7 is read by host lines only: no host line writes it and it is no window's array. -/
theorem W6_main_arg7 (c : Dev nD) :
    W6 m c (Proc.devRef .tc main_arg7) = m ((c : Thread nD τ).loc main_arg7) :=
  W6_of_untouched m c main_arg7 (by decide) (by decide) (by decide) (by decide) (by decide) (by decide)
/-- Argument 8 is read by host lines only: no host line writes it and it is no window's array. -/
theorem W6_main_arg8 (c : Dev nD) :
    W6 m c (Proc.devRef .tc main_arg8) = m ((c : Thread nD τ).loc main_arg8) :=
  W6_of_untouched m c main_arg8 (by decide) (by decide) (by decide) (by decide) (by decide) (by decide)
/-- Argument 9 is read by host lines only: no host line writes it and it is no window's array. -/
theorem W6_main_arg9 (c : Dev nD) :
    W6 m c (Proc.devRef .tc main_arg9) = m ((c : Thread nD τ).loc main_arg9) :=
  W6_of_untouched m c main_arg9 (by decide) (by decide) (by decide) (by decide) (by decide) (by decide)
/-- Argument 10 is read by host lines only: no host line writes it and it is no window's array. -/
theorem W6_main_arg10 (c : Dev nD) :
    W6 m c (Proc.devRef .tc main_arg10) = m ((c : Thread nD τ).loc main_arg10) :=
  W6_of_untouched m c main_arg10 (by decide) (by decide) (by decide) (by decide) (by decide) (by decide)

/-! ## The stages' result arrays -/

/-- The program's result is stage 3's output window 3: what its write-backs make of it. -/
theorem W6_main_v46 (c : Dev nD) :
    W6 m c (Proc.devRef .tc main_v46) = (dat2 (V5 m) c).arrAt 3 cfg2.N :=
  W6_arr m c 3

/-- Stage 1's pre-activation array (its output window 8) reaches stage 2's entry as stage 1 left it: no host
    line in between writes it. -/
theorem W3_main_v16_0 (c : Dev nD) :
    W3 m c (Proc.devRef .tc main_v16_0) = (dat0 (V1 m) c).arrAt 8 cfg0.N :=
  (W3_of m c main_v16_0 (by decide)).trans (W2_arr m c 8)

/-- The second weight matrix, made by the first host stretch, reaches stage 2's entry as made: it is no window's
    array of stage 1 and no host line in between writes it. -/
theorem W3_main_v15 (c : Dev nD) :
    W3 m c (Proc.devRef .tc main_v15) = W1 m c (Proc.devRef .tc main_v15) :=
  (W3_of m c main_v15 (by decide)).trans (W2_of_ne m c main_v15 (by decide))

/-- Stage 2's pre-activation array (its output window 4) reaches stage 3's entry as stage 2 left it. -/
theorem W5_main_v31_0 (c : Dev nD) :
    W5 m c (Proc.devRef .tc main_v31_0) = (dat1 (V3 m) c).arrAt 4 cfg1.N :=
  (W5_of m c main_v31_0 (by decide)).trans (W4_arr m c 4)

end Cert.KernelIdeal.Hand

end
-- ==== Proof.Region0Body.lean ====
/- Stage 1 of the edge model as a pipeline: the body at every grid point.
   A point t reads its eight input blocks, writes the pre-activation block (the four matrix products of the
   point's rows, added) and adds that block's column sums and the column sums of its squares into two scratch
   rows; the first point starts the two rows from zero, the last point copies them into the two statistics
   windows, which no other point touches. -/
import proofs.«132934_j50371376447949_1_alg».proof.Proof.Region0Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The invariant before the first point, with the two scratch rows named -/

/-- The scoped buffers no window stages, split at the two scratch rows. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop(iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f))
          ∗ Pipeline.scopedRestBut (Ix := Ix) (Name := Name) (U := U) (Lvl := Lvl) (Val := Val) spec0 c [cc0_scratch0, cc0_scratch1]) :=
  Pipeline.scopedRest_split_of_list spec0 c [cc0_scratch0, cc0_scratch1] (by decide) (by decide)

/-- What the launch hands the region: the two scratch rows at anything, the other scoped buffers, the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The two conditions of the body, in closed form over the grid -/

/-- The first point's test: the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The last point's test: the grid coordinate is 99. -/
abbrev cond0_1 (i : grid0.Coords) : Prop := k0_cond2 i = 1#1
theorem hcond0_1 : ∀ t : Fin cfg0.N, cond0_1 (grid0.coords t) ↔ t.val = 99 :=
  (by decide +kernel : ∀ t : Fin grid0.N, cond0_1 (grid0.coords t) ↔ t.val = 99)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- Off the last point the two statistics windows are idle and not written back; at it they are live. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel

/-! ## What the body leaves in the input windows -/

theorem after0_0 (V : (c : Dev nD) → (b : Ref sig .tc) → Buf (Elt F) ((c : Thread nD τ).loc b)) (c : Dev nD) (t : Fin cfg0.N) : (dat0 V c).after 0 t = iblk0 V c 0 t := by dsimp only [dat0]
theorem after0_1 (V : (c : Dev nD) → (b : Ref sig .tc) → Buf (Elt F) ((c : Thread nD τ).loc b)) (c : Dev nD) (t : Fin cfg0.N) : (dat0 V c).after 1 t = iblk0 V c 1 t := by dsimp only [dat0]
theorem after0_2 (V : (c : Dev nD) → (b : Ref sig .tc) → Buf (Elt F) ((c : Thread nD τ).loc b)) (c : Dev nD) (t : Fin cfg0.N) : (dat0 V c).after 2 t = iblk0 V c 2 t := by dsimp only [dat0]
theorem after0_3 (V : (c : Dev nD) → (b : Ref sig .tc) → Buf (Elt F) ((c : Thread nD τ).loc b)) (c : Dev nD) (t : Fin cfg0.N) : (dat0 V c).after 3 t = iblk0 V c 3 t := by dsimp only [dat0]
theorem after0_4 (V : (c : Dev nD) → (b : Ref sig .tc) → Buf (Elt F) ((c : Thread nD τ).loc b)) (c : Dev nD) (t : Fin cfg0.N) : (dat0 V c).after 4 t = iblk0 V c 4 t := by dsimp only [dat0]
theorem after0_5 (V : (c : Dev nD) → (b : Ref sig .tc) → Buf (Elt F) ((c : Thread nD τ).loc b)) (c : Dev nD) (t : Fin cfg0.N) : (dat0 V c).after 5 t = iblk0 V c 5 t := by dsimp only [dat0]
theorem after0_6 (V : (c : Dev nD) → (b : Ref sig .tc) → Buf (Elt F) ((c : Thread nD τ).loc b)) (c : Dev nD) (t : Fin cfg0.N) : (dat0 V c).after 6 t = iblk0 V c 6 t := by dsimp only [dat0]
theorem after0_7 (V : (c : Dev nD) → (b : Ref sig .tc) → Buf (Elt F) ((c : Thread nD τ).loc b)) (c : Dev nD) (t : Fin cfg0.N) : (dat0 V c).after 7 t = iblk0 V c 7 t := by dsimp only [dat0]

/-! ## Each input window's current buffer holds its block at every point, fetched there or not -/

theorem before0_0 (V : (c : Dev nD) → (b : Ref sig .tc) → Buf (Elt F) ((c : Thread nD τ).loc b)) (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (V : (c : Dev nD) → (b : Ref sig .tc) → Buf (Elt F) ((c : Thread nD τ).loc b)) (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

theorem before0_2 (V : (c : Dev nD) → (b : Ref sig .tc) → Buf (Elt F) ((c : Thread nD τ).loc b)) (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

theorem before0_3 (V : (c : Dev nD) → (b : Ref sig .tc) → Buf (Elt F) ((c : Thread nD τ).loc b)) (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

theorem before0_4 (V : (c : Dev nD) → (b : Ref sig .tc) → Buf (Elt F) ((c : Thread nD τ).loc b)) (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

theorem before0_5 (V : (c : Dev nD) → (b : Ref sig .tc) → Buf (Elt F) ((c : Thread nD τ).loc b)) (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

theorem before0_6 (V : (c : Dev nD) → (b : Ref sig .tc) → Buf (Elt F) ((c : Thread nD τ).loc b)) (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

theorem before0_7 (V : (c : Dev nD) → (b : Ref sig .tc) → Buf (Elt F) ((c : Thread nD τ).loc b)) (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)

/-! ## One whole-block store: its rectangle holds every index -/

theorem hzR0 : (![0, 0] : Fin 2 → ℕ) = fun _ => 0 := funext fun a => by fin_cases a <;> rfl

theorem coverR0 {S : Shape} {e : EltTy} {off : Fin S.rank → ℕ} (h : off = fun _ => 0) (inb : ∀ a, off a + S.size a ≤ S.size a)
    (p0 : (Rect.unit off S.size inb).shape.Idx → Elt F e) (L : List (View.Piece (Elt F) S e)) (y : S.Idx) :
    ∃ pc ∈ ((⟨Rect.unit off S.size inb, p0⟩ : View.Piece (Elt F) S e) :: L), y ∈ pc.1.set :=
  ⟨_, List.mem_cons_self .., View.mem_set_unit_zero h inb y⟩

/-! ## The body's run, case by case, on any whole staging memrefs -/

set_option maxHeartbeats 4000000 in
/-- The first point: the two scratch rows, found at anything, are started from zero and end at this block's column
    sums and the column sums of its squares; the two statistics windows' buffers are untouched. -/
theorem run0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S64x256 .bf16) (harg7 : arg7.IsWhole) (arg8 : Memref sig .tc .vmem S64x256 .bf16) (harg8 : arg8.IsWhole) (arg9 : Memref sig .tc .vmem S5000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : cond0_0 i) (hc1 : ¬cond0_1 i)
    (x0 : Vec F S5000x128 .f32) (x1 : Vec F S5000x128 .f32) (x2 : Vec F S5000x64 .f32) (x3 : Vec F S5000x64 .f32) (x4 : Vec F S128x256 .bf16) (x5 : Vec F S128x256 .bf16) (x6 : Vec F S64x256 .bf16) (x7 : Vec F S64x256 .bf16) (xi9 xi10 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay5 x0 x1 x2 x3 x4 x5 x6 x7) ∗ owns (c : Thread nD τ) arg10 fullShare xi9 ∗ owns (c : Thread nD τ) arg11 fullShare xi10 ∗ owns (c : Thread nD τ) arg12 fullShare (k0_pay1 (k0_pay3 (F := F)) (k0_pay6 x0 x1 x2 x3 x4 x5 x6 x7)) ∗ owns (c : Thread nD τ) arg13 fullShare (k0_pay2 (k0_pay5 x0 x1 x2 x3 x4 x5 x6 x7) (k0_pay4 (F := F)))) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11 arg12 harg12 arg13 harg13) K := by
  simp only [cc0__stage1_kernel_eq_skeleton]; unfold cc0__stage1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg10.eq_unread hf9; obtain rfl := harg11.eq_unread hf10
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    sl_unfold_run_names
    rw [View.read_writes_eq_canon _ _ _ (coverR0 hzR0 _ _ _), View.canon_unit_zero hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  isplitl [H9]
  · iexists _; isplitr; · ipureintro; exact harg10.read_unread _
    iexact H9
  isplitl [H10]
  · iexists _; isplitr; · ipureintro; exact harg11.read_unread _
    iexact H10
  isplitl [HS0]
  · iexists _; isplitr
    swap; · iexact HS0
    ipureintro
    sl_unfold_run_names
    rw [View.read_writes_eq_canon _ _ _ (coverR0 hzR0 _ _ _)]
    rw [View.canon_cons_unit_zero (S := S1x256) hzR0, View.readCov_unit_zero (S := S1x256) _ hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  iexists _; isplitr
  swap; · iexact HS1
  ipureintro
  sl_unfold_run_names
  rw [View.read_writes_eq_canon _ _ _ (coverR0 hzR0 _ _ _)]
  rw [View.canon_cons_unit_zero (S := S1x256) hzR0, View.readCov_unit_zero (S := S1x256) _ hzR0]
  simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]

set_option maxHeartbeats 4000000 in
/-- A point that is neither first nor last: the pre-activation window's buffer ends at the point's block, the two
    scratch rows at the running sums with this block's added, the two statistics windows' buffers untouched. -/
theorem run0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S64x256 .bf16) (harg7 : arg7.IsWhole) (arg8 : Memref sig .tc .vmem S64x256 .bf16) (harg8 : arg8.IsWhole) (arg9 : Memref sig .tc .vmem S5000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬cond0_0 i) (hc1 : ¬cond0_1 i)
    (x0 : Vec F S5000x128 .f32) (x1 : Vec F S5000x128 .f32) (x2 : Vec F S5000x64 .f32) (x3 : Vec F S5000x64 .f32) (x4 : Vec F S128x256 .bf16) (x5 : Vec F S128x256 .bf16) (x6 : Vec F S64x256 .bf16) (x7 : Vec F S64x256 .bf16) (xi9 xi10 s0 s1 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ owns (c : Thread nD τ) arg12 fullShare s0 ∗ owns (c : Thread nD τ) arg13 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay5 x0 x1 x2 x3 x4 x5 x6 x7) ∗ owns (c : Thread nD τ) arg10 fullShare xi9 ∗ owns (c : Thread nD τ) arg11 fullShare xi10 ∗ owns (c : Thread nD τ) arg12 fullShare (k0_pay1 s0 (k0_pay6 x0 x1 x2 x3 x4 x5 x6 x7)) ∗ owns (c : Thread nD τ) arg13 fullShare (k0_pay2 (k0_pay5 x0 x1 x2 x3 x4 x5 x6 x7) s1)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11 arg12 harg12 arg13 harg13) K := by
  simp only [cc0__stage1_kernel_eq_skeleton]; unfold cc0__stage1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg10.eq_unread hf9; obtain rfl := harg11.eq_unread hf10; obtain rfl := harg12.eq_unread hfs0; obtain rfl := harg13.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    sl_unfold_run_names
    rw [View.read_writes_eq_canon _ _ _ (coverR0 hzR0 _ _ _), View.canon_unit_zero hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  isplitl [H9]
  · iexists _; isplitr; · ipureintro; exact harg10.read_unread _
    iexact H9
  isplitl [H10]
  · iexists _; isplitr; · ipureintro; exact harg11.read_unread _
    iexact H10
  isplitl [HS0]
  · iexists _; isplitr
    swap; · iexact HS0
    ipureintro
    sl_unfold_run_names
    rw [View.read_writes_eq_canon _ _ _ (coverR0 hzR0 _ _ _)]
    rw [View.canon_unit_zero (S := S1x256) hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  iexists _; isplitr
  swap; · iexact HS1
  ipureintro
  sl_unfold_run_names
  rw [View.read_writes_eq_canon _ _ _ (coverR0 hzR0 _ _ _)]
  rw [View.canon_unit_zero (S := S1x256) hzR0]
  simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]

set_option maxHeartbeats 4000000 in
/-- The last point: as at a middle point, and then the two scratch rows are copied into the two statistics windows'
    buffers, found at anything. -/
theorem run0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S64x256 .bf16) (harg7 : arg7.IsWhole) (arg8 : Memref sig .tc .vmem S64x256 .bf16) (harg8 : arg8.IsWhole) (arg9 : Memref sig .tc .vmem S5000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬cond0_0 i) (hc1 : cond0_1 i)
    (x0 : Vec F S5000x128 .f32) (x1 : Vec F S5000x128 .f32) (x2 : Vec F S5000x64 .f32) (x3 : Vec F S5000x64 .f32) (x4 : Vec F S128x256 .bf16) (x5 : Vec F S128x256 .bf16) (x6 : Vec F S64x256 .bf16) (x7 : Vec F S64x256 .bf16) (s0 s1 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s0 ∗ owns (c : Thread nD τ) arg13 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay5 x0 x1 x2 x3 x4 x5 x6 x7) ∗ owns (c : Thread nD τ) arg10 fullShare (k0_pay1 s0 (k0_pay6 x0 x1 x2 x3 x4 x5 x6 x7)) ∗ owns (c : Thread nD τ) arg11 fullShare (k0_pay2 (k0_pay5 x0 x1 x2 x3 x4 x5 x6 x7) s1) ∗ owns (c : Thread nD τ) arg12 fullShare (k0_pay1 s0 (k0_pay6 x0 x1 x2 x3 x4 x5 x6 x7)) ∗ owns (c : Thread nD τ) arg13 fullShare (k0_pay2 (k0_pay5 x0 x1 x2 x3 x4 x5 x6 x7) s1)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11 arg12 harg12 arg13 harg13) K := by
  simp only [cc0__stage1_kernel_eq_skeleton]; unfold cc0__stage1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg12.eq_unread hfs0; obtain rfl := harg13.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    sl_unfold_run_names
    rw [View.read_writes_eq_canon _ _ _ (coverR0 hzR0 _ _ _), View.canon_unit_zero hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  isplitl [H9]
  · iexists _; isplitr
    swap; · iexact H9
    ipureintro
    sl_unfold_run_names
    rw [View.read_writes_eq_canon _ _ _ (coverR0 hzR0 _ _ _)]
    rw [View.canon_unit_zero (S := S1x256) hzR0, View.readCov_unit_zero (S := S1x256) _ hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  isplitl [H10]
  · iexists _; isplitr
    swap; · iexact H10
    ipureintro
    sl_unfold_run_names
    rw [View.read_writes_eq_canon _ _ _ (coverR0 hzR0 _ _ _)]
    rw [View.canon_unit_zero (S := S1x256) hzR0, View.readCov_unit_zero (S := S1x256) _ hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  isplitl [HS0]
  · iexists _; isplitr
    swap; · iexact HS0
    ipureintro
    sl_unfold_run_names
    rw [View.read_writes_eq_canon _ _ _ (coverR0 hzR0 _ _ _)]
    rw [View.canon_unit_zero (S := S1x256) hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  iexists _; isplitr
  swap; · iexact HS1
  ipureintro
  sl_unfold_run_names
  rw [View.read_writes_eq_canon _ _ _ (coverR0 hzR0 _ _ _)]
  rw [View.canon_unit_zero (S := S1x256) hzR0]
  simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]

/-! ## The invariant, point by point -/

section
variable (V : (c : Dev nD) → (b : Ref sig .tc) → Buf (Elt F) ((c : Thread nD τ).loc b))

theorem PhiS0_zero (c : Dev nD) (n : ℕ) (h : n ≤ cfg0.N) (hz : n = 0) : PhiS0 V c n h = Pipeline.ΦA spec0 c := by
  subst hz; rfl

/-- After point `n`: the two scratch rows at that point's running sums. -/
theorem PhiS0_succ (c : Dev nD) (n : ℕ) (hn : n < cfg0.N) :
    PhiS0 V c (n + 1) hn = iprop(owns (c : Thread nD τ) scM0_0 fullShare (acc0 V c n hn).1 ∗ owns (c : Thread nD τ) scM0_1 fullShare (acc0 V c n hn).2
      ∗ Pipeline.scopedRestBut (Ix := Unit) (Name := ℕ) (U := UR sig nD τ) (Lvl := ℕ) (Val := Elt F) spec0 c [cc0_scratch0, cc0_scratch1] ∗ (∃ r, prngReg c r)) := rfl

/-- Before a point that is not the first: the two scratch rows at what the point before left. -/
theorem PhiS0_pos (c : Dev nD) (n : ℕ) (h : n ≤ cfg0.N) (hz : n ≠ 0) :
    PhiS0 V c n h = iprop(owns (c : Thread nD τ) scM0_0 fullShare (acc0 V c (n - 1) (by omega)).1 ∗ owns (c : Thread nD τ) scM0_1 fullShare (acc0 V c (n - 1) (by omega)).2
      ∗ Pipeline.scopedRestBut (Ix := Unit) (Name := ℕ) (U := UR sig nD τ) (Lvl := ℕ) (Val := Elt F) spec0 c [cc0_scratch0, cc0_scratch1] ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The running sums after the first point: started from zero. -/
theorem acc0_first (c : Dev nD) (t : Fin cfg0.N) (h : t.val = 0) :
    acc0 V c t.val t.isLt = (k0_pay1 (k0_pay3 (F := F)) (colSum0 V c t), k0_pay2 (preBlk0 V c t) (k0_pay4 (F := F))) := by
  obtain ⟨n, hn⟩ := t
  cases n with
  | zero => rfl
  | succ n => exact absurd h (Nat.succ_ne_zero n)

/-- The running sums after a later point: the point before's, with this point's block added. -/
theorem acc0_next (c : Dev nD) (t : Fin cfg0.N) (h : t.val ≠ 0) :
    acc0 V c t.val t.isLt = (k0_pay1 (acc0 V c (t.val - 1) (Nat.lt_of_le_of_lt (Nat.sub_le _ _) t.isLt)).1 (colSum0 V c t),
      k0_pay2 (preBlk0 V c t) (acc0 V c (t.val - 1) (Nat.lt_of_le_of_lt (Nat.sub_le _ _) t.isLt)).2) := by
  obtain ⟨n, hn⟩ := t
  cases n with
  | zero => exact absurd rfl h
  | succ n => rfl

/-- A window live at a point is left at what the proof data name. -/
theorem leavesExact_live0 (c : Dev nD) (w : Fin cfg0.W) (t : Fin cfg0.N) (hi : cfg0.idle w (grid0.coords t) = false) :
    (dat0 V c).leavesExact w t = owns (c : Thread nD τ) ((cfg0.win w).stage (cfg0.slots t w)) fullShare ((dat0 V c).after w t) := by
  unfold Dat.leavesExact; rw [hi]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 4000000 in
/-- The body at any point. The inputs' buffers hold their blocks; the point is the first, the last, or neither, and
    the matching run applies: the invariant hands it the two scratch rows (at anything at the first point, at the
    running sums afterwards) and takes them back at this point's running sums; off the last point the two statistics
    windows' buffers pass through as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  rw [leavesExact_live0 V c 0 t (liveAt0_0 t), leavesExact_live0 V c 1 t (liveAt0_1 t), leavesExact_live0 V c 2 t (liveAt0_2 t), leavesExact_live0 V c 3 t (liveAt0_3 t), leavesExact_live0 V c 4 t (liveAt0_4 t), leavesExact_live0 V c 5 t (liveAt0_5 t), leavesExact_live0 V c 6 t (liveAt0_6 t), leavesExact_live0 V c 7 t (liveAt0_7 t), leavesExact_live0 V c 8 t (liveAt0_8 t)]
  rw [after0_0, after0_1, after0_2, after0_3, after0_4, after0_5, after0_6, after0_7, after0_8]
  have hN : t.val < 100 := lt_of_lt_of_eq t.isLt (show cfg0.N = 100 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 9 t (idleAt0_9 t hc1) (noFlush0_9 t hc1), Dat.leavesExact_idle (dat0 V c) 10 t (idleAt0_10 t hc1) (noFlush0_10 t hc1)]
    rw [acc0_first V c t h0]
    dsimp only
    unfold colSum0 preBlk0
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run0_A c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) ((dat0 V c).before 9 t d9) ((dat0 V c).before 10 t d10) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · by_cases h1 : t.val = 99
    · have hc0 : ¬cond0_0 (grid0.coords t) := fun h => h0 ((hcond0_0 t).mp h)
      have hc1 : cond0_1 (grid0.coords t) := (hcond0_1 t).mpr h1
      rw [leavesExact_live0 V c 9 t (liveAt0_9 t hc1), leavesExact_live0 V c 10 t (liveAt0_10 t hc1), after0_9, after0_10]
      rw [acc0_next V c t h0]
      dsimp only
      unfold colSum0 preBlk0
      rw [PhiS0_castSucc V c t, PhiS0_pos V c _ _ h0]
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run0_C c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 9 t (idleAt0_9 t hc1) (noFlush0_9 t hc1), Dat.leavesExact_idle (dat0 V c) 10 t (idleAt0_10 t hc1) (noFlush0_10 t hc1)]
      rw [acc0_next V c t h0]
      dsimp only
      unfold colSum0 preBlk0
      rw [PhiS0_castSucc V c t, PhiS0_pos V c _ _ h0]
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run0_B c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) ((dat0 V c).before 9 t d9) ((dat0 V c).before 10 t d10) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

end

/-! ## The three facts the region's run takes -/

/-- The body obligation, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body0 V c t

/-- What the launch hands the region is the invariant before the first point. -/
theorem hin0 (V : (c : Dev nD) → (b : Ref sig .tc) → Buf (Elt F) ((c : Thread nD τ).loc b)) (c : Dev nD) :
    (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the two scratch rows' contents are forgotten. -/
theorem hout0 (V : (c : Dev nD) → (b : Ref sig .tc) → Buf (Elt F) ((c : Thread nD τ).loc b)) (c : Dev nD) :
    (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 100 := N_0; omega), PhiA0_eq]
  iintro ⟨HS0, HS1, Hrest, Hg⟩
  isplitl [HS0 HS1 Hrest]
  · isplitl [HS0 HS1]
    · isplitl [HS0]
      · iexists _; iexact HS0
      · iexists _; iexact HS1
    · iexact Hrest
  · iexact Hg

end Cert.KernelIdeal.Hand

end
-- ==== Proof.Region1Body.lean ====
/- Stage 2 of the edge model as a pipeline: the body at every grid point keeps the region's invariant.
   The body reads a 5000-row block of the first pre-activation, maps it affinely, rectifies, multiplies by the
   second weight matrix and writes the block; two scratch rows accumulate the written block's column sums and the
   column sums of its squares. Three cases over the grid: the first point resets the rows before accumulating,
   an inner point accumulates only, the last point accumulates and copies the rows into the two statistics windows. -/
import proofs.«132934_j50371376447949_1_alg».proof.Proof.Region1Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The reset branch's condition, from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The copy-out branch's condition. -/
abbrev cond1_1 (i : grid1.Coords) : Prop := k1_cond2 i = 1#1
/-- It holds at the last point only. -/
theorem hcond1_1 : ∀ t : Fin cfg1.N, cond1_1 (grid1.coords t) ↔ t.val = 99 :=
  (by decide +kernel : ∀ t : Fin grid1.N, cond1_1 (grid1.coords t) ↔ t.val = 99)

/-- The zero offsets of a whole-row access, however spelt. -/
theorem hz2 : (![0, 0] : Fin 2 → Nat) = fun _ => 0 := funext fun a => by fin_cases a <;> rfl

/-- A whole-shape store, made last, leaves its payload: whatever the buffer held and whatever was stored before. -/
theorem read_writes_unit_last {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero h inb y⟩),
    View.canon_cons_unit_zero h]

/-! ## The body's run, case by case, on any whole memrefs -/

set_option maxHeartbeats 1000000 in
/-- The first point: each scratch row is reset, the block is written, each row gains the block's column sums. -/
theorem run1_first (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S5000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc0 : cond1_0 i) (hc1 : ¬cond1_1 i) (x0 : Vec F S5000x256 .f32) (x1 : Vec F S1x256 .f32) (x2 : Vec F S1x256 .f32) (x3 : Vec F S256x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay4 x0 x1 x2 x3) ∗ owns (c : Thread nD τ) arg8 fullShare (k1_pay5 x0 x1 x2 x3 (k1_pay2 (F := F))) ∗ owns (c : Thread nD τ) arg9 fullShare (k1_pay1 (k1_pay6 x0 x1 x2 x3 (k1_pay3 (F := F))))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9) K := by
  simp only [cc1__stage2_kernel_eq_skeleton]; unfold cc1__stage2_kernel_skel
  simp only [k1_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | exact hc0 | exact hc1)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_unit_last (S := S5000x256) arg5.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  isplitl [H8]
  · iexists _; isplitr
    swap; · iexact H8
    ipureintro
    refine (read_writes_unit_last (S := S1x256) arg8.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  iexists _; isplitr
  swap; · iexact H9
  ipureintro
  refine (read_writes_unit_last (S := S1x256) arg9.view _ hz2 _ _ _).trans ?_
  simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]

set_option maxHeartbeats 1000000 in
/-- An inner point: the block is written, each scratch row gains the block's column sums. -/
theorem run1_mid (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S5000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc0 : ¬cond1_0 i) (hc1 : ¬cond1_1 i) (x0 : Vec F S5000x256 .f32) (x1 : Vec F S1x256 .f32) (x2 : Vec F S1x256 .f32) (x3 : Vec F S256x256 .bf16) (xs0 : Vec F S1x256 .f32) (xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay4 x0 x1 x2 x3) ∗ owns (c : Thread nD τ) arg8 fullShare (k1_pay5 x0 x1 x2 x3 xs0) ∗ owns (c : Thread nD τ) arg9 fullShare (k1_pay1 (k1_pay6 x0 x1 x2 x3 xs1))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9) K := by
  simp only [cc1__stage2_kernel_eq_skeleton]; unfold cc1__stage2_kernel_skel
  simp only [k1_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_unit_last (S := S5000x256) arg5.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  isplitl [H8]
  · iexists _; isplitr
    swap; · iexact H8
    ipureintro
    refine (read_writes_unit_last (S := S1x256) arg8.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  iexists _; isplitr
  swap; · iexact H9
  ipureintro
  refine (read_writes_unit_last (S := S1x256) arg9.view _ hz2 _ _ _).trans ?_
  simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]

set_option maxHeartbeats 1000000 in
/-- The last point: the block is written, each scratch row gains the block's column sums and is copied into its
    statistics window. -/
theorem run1_last (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S5000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc0 : ¬cond1_0 i) (hc1 : cond1_1 i) (x0 : Vec F S5000x256 .f32) (x1 : Vec F S1x256 .f32) (x2 : Vec F S1x256 .f32) (x3 : Vec F S256x256 .bf16) (xs0 : Vec F S1x256 .f32) (xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay4 x0 x1 x2 x3) ∗ owns (c : Thread nD τ) arg6 fullShare (k1_pay5 x0 x1 x2 x3 xs0) ∗ owns (c : Thread nD τ) arg7 fullShare (k1_pay1 (k1_pay6 x0 x1 x2 x3 xs1))
            ∗ owns (c : Thread nD τ) arg8 fullShare (k1_pay5 x0 x1 x2 x3 xs0) ∗ owns (c : Thread nD τ) arg9 fullShare (k1_pay1 (k1_pay6 x0 x1 x2 x3 xs1))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9) K := by
  simp only [cc1__stage2_kernel_eq_skeleton]; unfold cc1__stage2_kernel_skel
  simp only [k1_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_unit_last (S := S5000x256) arg5.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  isplitl [H6]
  · iexists _; isplitr
    swap; · iexact H6
    ipureintro
    refine (read_writes_unit_last (S := S1x256) arg6.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  isplitl [H7]
  · iexists _; isplitr
    swap; · iexact H7
    ipureintro
    refine (read_writes_unit_last (S := S1x256) arg7.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  isplitl [H8]
  · iexists _; isplitr
    swap; · iexact H8
    ipureintro
    refine (read_writes_unit_last (S := S1x256) arg8.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  iexists _; isplitr
  swap; · iexact H9
  ipureintro
  refine (read_writes_unit_last (S := S1x256) arg9.view _ hz2 _ _ _).trans ?_
  simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]

section
variable (V : (c : Dev nD) → (b : Ref sig .tc) → Buf (Elt F) ((c : Thread nD τ).loc b))

/-! ## Where the windows are idle -/

/-- The four inputs and the block output are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- The two statistics windows are idle, and not written back, away from the last point; live at it. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The invariant, point by point -/

theorem PhiS1_zero (c : Dev nD) (n : ℕ) (h : n ≤ cfg1.N) (hz : n = 0) : PhiS1 V c n h = Pipeline.ΦA spec1 c := by
  subst hz; rfl

/-- After point `n`: the two scratch rows at that point's running sums. -/
theorem PhiS1_succ (c : Dev nD) (n : ℕ) (hn : n < cfg1.N) :
    PhiS1 V c (n + 1) hn = iprop(owns (c : Thread nD τ) scM1_0 fullShare (acc1 V c n hn).1 ∗ owns (c : Thread nD τ) scM1_1 fullShare (acc1 V c n hn).2
      ∗ Pipeline.scopedRestBut (Ix := Unit) (Name := ℕ) (U := UR sig nD τ) (Lvl := ℕ) (Val := Elt F) spec1 c [cc1_scratch0, cc1_scratch1] ∗ (∃ r, prngReg c r)) := rfl

/-- Before a point that is not the first: the rows at what the point before left. -/
theorem PhiS1_pos (c : Dev nD) (n : ℕ) (h : n ≤ cfg1.N) (hz : n ≠ 0) :
    PhiS1 V c n h = iprop(owns (c : Thread nD τ) scM1_0 fullShare (acc1 V c (n - 1) (by omega)).1 ∗ owns (c : Thread nD τ) scM1_1 fullShare (acc1 V c (n - 1) (by omega)).2
      ∗ Pipeline.scopedRestBut (Ix := Unit) (Name := ℕ) (U := UR sig nD τ) (Lvl := ℕ) (Val := Elt F) spec1 c [cc1_scratch0, cc1_scratch1] ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region, with the two scratch rows opened as whole memrefs at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The running sums, unfolded at a point -/

theorem acc1_fst_first (c : Dev nD) (t : Fin cfg1.N) (h0 : t.val = 0) :
    (acc1 V c t.val t.isLt).1 = k1_pay5 (iblk1 V c 0 t) (iblk1 V c 1 t) (iblk1 V c 2 t) (iblk1 V c 3 t) (k1_pay2 (F := F)) := by
  obtain ⟨n, hn⟩ := t
  cases n with
  | zero => rfl
  | succ n => exact absurd h0 (Nat.succ_ne_zero n)
theorem acc1_snd_first (c : Dev nD) (t : Fin cfg1.N) (h0 : t.val = 0) :
    (acc1 V c t.val t.isLt).2 = k1_pay1 (k1_pay6 (iblk1 V c 0 t) (iblk1 V c 1 t) (iblk1 V c 2 t) (iblk1 V c 3 t) (k1_pay3 (F := F))) := by
  obtain ⟨n, hn⟩ := t
  cases n with
  | zero => rfl
  | succ n => exact absurd h0 (Nat.succ_ne_zero n)
theorem acc1_fst_later (c : Dev nD) (t : Fin cfg1.N) (h0 : t.val ≠ 0) :
    (acc1 V c t.val t.isLt).1 = k1_pay5 (iblk1 V c 0 t) (iblk1 V c 1 t) (iblk1 V c 2 t) (iblk1 V c 3 t)
      (acc1 V c (t.val - 1) (Nat.lt_of_le_of_lt (Nat.sub_le _ _) t.isLt)).1 := by
  obtain ⟨n, hn⟩ := t
  cases n with
  | zero => exact absurd rfl h0
  | succ n => rfl
theorem acc1_snd_later (c : Dev nD) (t : Fin cfg1.N) (h0 : t.val ≠ 0) :
    (acc1 V c t.val t.isLt).2 = k1_pay1 (k1_pay6 (iblk1 V c 0 t) (iblk1 V c 1 t) (iblk1 V c 2 t) (iblk1 V c 3 t)
      (acc1 V c (t.val - 1) (Nat.lt_of_le_of_lt (Nat.sub_le _ _) t.isLt)).2) := by
  obtain ⟨n, hn⟩ := t
  cases n with
  | zero => exact absurd rfl h0
  | succ n => rfl

/-! ## The inputs' staging buffers hold their blocks at every point -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- Input window 0: fetched or not, the block index has not moved since its fetch. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input window 1: fetched or not, the block index has not moved since its fetch. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input window 2: fetched or not, the block index has not moved since its fetch. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input window 3: fetched or not, the block index has not moved since its fetch. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the closed forms of the two conditions say which
    case the point is in; the invariant hands the body the two scratch rows (at anything before the first point, at
    the running sums afterwards) and takes them back at this point's running sums; the statistics windows pass
    untouched except at the last point, where each receives its row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  unfold preBlk1
  have hN : t.val < 100 := lt_of_lt_of_eq t.isLt (show cfg1.N = 100 from N_1)
  by_cases h0 : t.val = 0
  · have h1 : ¬t.val = 99 := by omega
    rw [Dat.leavesExact_idle (dat1 V c) 5 t (idleAt1_5 t (fun h => h1 ((hcond1_1 t).mp h))) (noFlush1_5 t (fun h => h1 ((hcond1_1 t).mp h)))]
    rw [Dat.leavesExact_idle (dat1 V c) 6 t (idleAt1_6 t (fun h => h1 ((hcond1_1 t).mp h))) (noFlush1_6 t (fun h => h1 ((hcond1_1 t).mp h)))]
    rw [acc1_fst_first V c t h0, acc1_snd_first V c t h0]
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, H5, H6⟩
    iapply (run1_first c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)  Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h1 : t.val = 99
    · rw [show (dat1 V c).leavesExact 5 t = owns (c : Thread nD τ) (st1_5 t) fullShare ((dat1 V c).after 5 t) from by
        unfold Dat.leavesExact; rw [liveAt1_5 t ((hcond1_1 t).mpr h1)], after1_5]
      rw [show (dat1 V c).leavesExact 6 t = owns (c : Thread nD τ) (st1_6 t) fullShare ((dat1 V c).after 6 t) from by
        unfold Dat.leavesExact; rw [liveAt1_6 t ((hcond1_1 t).mpr h1)], after1_6]
      rw [acc1_fst_later V c t h0, acc1_snd_later V c t h0]
      rw [PhiS1_castSucc V c t, PhiS1_pos V c _ _ h0]
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (run1_last c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [acc1_fst_later V c t h0, acc1_snd_later V c t h0]
      rw [PhiS1_castSucc V c t, PhiS1_pos V c _ _ h0]
      iintro ⟨⟨HS0, HS1, Hrest, Hg⟩, Ho, ⟨%d0, H0⟩, ⟨%d1, H1⟩, ⟨%d2, H2⟩, ⟨%d3, H3⟩, ⟨%d4, H4⟩, H5, H6⟩
      iapply (run1_mid c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's resources back: the rows' named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 100 := N_1; omega), PhiA1_eq]
  iintro ⟨HS0, HS1, Hrest, Hg⟩
  isplitl [HS0 HS1 Hrest]
  · isplitl [HS0 HS1]
    · isplitl [HS0]; · iexists _; iexact HS0
      iexists _; iexact HS1
    iexact Hrest
  iexact Hg

end

end Cert.KernelIdeal.Hand

end
-- ==== Proof.Region2Body.lean ====
/- Stage 3 of the edge model, the body at one grid point: the block of rows of the first input is scaled
   column by column by the second input's row and shifted by the third input's row, and the result is
   stored over the whole output block. Entry (r, j) of the output block depends only on entry (r, j) of
   the row block and on entry j of the two rows; nothing is carried between points. -/
import proofs.«132934_j50371376447949_1_alg».proof.Proof.Region2Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Each input's staging buffer holds its block at every point -/

/-- The row block (input 0) is fetched at every point, so its staging buffer holds the point's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The scale row (input 1) is fetched once; its block index never moves, so the buffer holds the same row at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The shift row (input 2): the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's accesses: every load and the one store go through the whole buffer -/

/-- The whole 5000×256 block as a rectangle at zero offsets. -/
abbrev rBlk2 : Rect S5000x256 := Rect.unit (s := S5000x256) ![0, 0] S5000x256.size inb_S5000x256_S5000x256_0_0
/-- The whole 1×256 row as a rectangle at zero offsets. -/
abbrev rRow2 : Rect S1x256 := Rect.unit (s := S1x256) ![0, 0] S1x256.size inb_S1x256_S1x256_0_0

theorem hzBlk2 : (![0, 0] : Fin S5000x256.rank → Nat) = fun _ => 0 := funext fun a => by fin_cases a <;> rfl
theorem hzRow2 : (![0, 0] : Fin S1x256.rank → Nat) = fun _ => 0 := funext fun a => by fin_cases a <;> rfl

/-- The one store covers the output block. -/
theorem cover2_3 (p0 : Vec F S5000x256 .f32) (y : S5000x256.Idx) :
    ∃ pc ∈ ([⟨rBlk2, p0⟩] : List (View.Piece (Elt F) S5000x256 .f32)), y ∈ pc.1.set :=
  View.cover_of_tiled [⟨rBlk2, p0⟩] S5000x256.size (by rfl) y

/-- What one store over the whole block, of the affine map of whole-buffer loads, leaves: the affine map of the buffers. -/
theorem stored2_3 (x0 : Vec F S5000x256 .f32) (x1 : Vec F S1x256 .f32) (x2 : Vec F S1x256 .f32) :
    View.canon [(⟨rBlk2, k2_pay1 (View.ld x0 rBlk2) (View.ld x1 rRow2) (View.ld x2 rRow2)⟩ : View.Piece (Elt F) S5000x256 .f32)]
      = k2_pay1 x0 x1 x2 := by
  rw [View.canon_unit_zero hzBlk2, View.ld_unit_zero hzBlk2, View.ld_unit_zero hzRow2, View.ld_unit_zero hzRow2]

/-! ## The body's triple -/

set_option maxHeartbeats 1000000 in
/-- The body on whole staging buffers, the three inputs' at contents x0, x1, x2 and the output's at anything, runs to
    the continuation holding the inputs' as they were and the output's at the affine map of the inputs. -/
theorem sound_kernel2 (c : Dev nD) (E : Set ℕ) (i : grid2.Coords)
    (arg1 : Memref sig .tc .vmem S5000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S5000x256 .f32) (harg4 : arg4.IsWhole)
    (x0 : Vec F S5000x256 .f32) (x1 : Vec F S1x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay1 x0 x1 x2)) -∗ K ⟨⟩))
      ⊢ wp frame (wpE (defs₀ (F := F)) Variants.none c none) E (cc2__stage3_kernel i arg1 harg1 arg2 harg2 arg3 harg3 arg4 harg4) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (cover2_3 _)).trans (stored2_3 _ _ _)

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  unfold outBlk2
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of stage 3, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.Frame.lean ====
/- The program's run with what it leaves: every weakly fair execution ends, the result array holds what the
   last stage's write-backs make of it, and every argument array holds what it held at launch. -/
import proofs.«132934_j50371376447949_1_alg».proof.Proof.Run
import proofs.«132934_j50371376447949_1_alg».proof.Proof.RunArgs
import proofs.«132934_j50371376447949_1_alg».proof.Proof.Region0Body
import proofs.«132934_j50371376447949_1_alg».proof.Proof.Region1Body
import proofs.«132934_j50371376447949_1_alg».proof.Proof.Region2Body

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped buffer of the core is among those the run's last state is read at. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_value : θ_run defs (onTc (τ := τ) (main (F := F))) ⟨m, fun _ => 0, ρ⟩ (fun r => ∀ c : Dev nD,
      r.2.mem ((c.tc : Thread nD τ).loc main_v46) = W6 m c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_unscoped main_v46 (by decide)),
      (h c _ (mem_unscoped main_arg0 (by decide))).trans (W6_main_arg0 m c),
      (h c _ (mem_unscoped main_arg1 (by decide))).trans (W6_main_arg1 m c),
      (h c _ (mem_unscoped main_arg2 (by decide))).trans (W6_main_arg2 m c),
      (h c _ (mem_unscoped main_arg3 (by decide))).trans (W6_main_arg3 m c),
      (h c _ (mem_unscoped main_arg4 (by decide))).trans (W6_main_arg4 m c),
      (h c _ (mem_unscoped main_arg5 (by decide))).trans (W6_main_arg5 m c),
      (h c _ (mem_unscoped main_arg6 (by decide))).trans (W6_main_arg6 m c),
      (h c _ (mem_unscoped main_arg7 (by decide))).trans (W6_main_arg7 m c),
      (h c _ (mem_unscoped main_arg8 (by decide))).trans (W6_main_arg8 m c),
      (h c _ (mem_unscoped main_arg9 (by decide))).trans (W6_main_arg9 m c),
      (h c _ (mem_unscoped main_arg10 (by decide))).trans (W6_main_arg10 m c)⟩)
    (run_all m ρ (fun c => body_obligation0 (V1 m) c) (fun c => hin0 (V1 m) c) (fun c => hout0 (V1 m) c)
      (fun c => body_obligation1 (V3 m) c) (fun c => hin1 (V3 m) c) (fun c => hout1 (V3 m) c) (fun c => body_obligation2 (V5 m) c))

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_value m ρ)

end Cert.KernelIdeal.Hand

end
-- ==== Proof.Bits.Region0Defs.lean ====
/- Stage 1 of the edge model as a pipeline: the contents its proof data name.
   A grid point t handles rows 5000·t … 5000·t+4999. The block written to the pre-activation window is the
   sum of four matrix products of the point's input blocks; two scratch rows carry, from point to point, the
   column sums of that block and of its squares, reset at the first point; the last point copies them out. -/
import proofs.«132934_j50371376447949_1_alg».proof.Proof.Gen.Kernel.Launch
import proofs.«132934_j50371376447949_1_alg».proof.Proof.Gen.Kernel.Skeleton
import proofs.«132934_j50371376447949_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pre-activation block of point `t`: the four partial products of the point's rows, added. -/
def preBlk0 (c : Dev nD) (t : Fin cfg0.N) : FVec F S5000x256 .f32 :=
  k0_pay5 (iblk0 V c 0 t) (iblk0 V c 1 t) (iblk0 V c 2 t) (iblk0 V c 3 t) (iblk0 V c 4 t) (iblk0 V c 5 t) (iblk0 V c 6 t) (iblk0 V c 7 t)

/-- Its column sums. -/
def colSum0 (c : Dev nD) (t : Fin cfg0.N) : FVec F S256 .f32 :=
  k0_pay6 (iblk0 V c 0 t) (iblk0 V c 1 t) (iblk0 V c 2 t) (iblk0 V c 3 t) (iblk0 V c 4 t) (iblk0 V c 5 t) (iblk0 V c 6 t) (iblk0 V c 7 t)

/-- The two scratch rows after point `n`: the running column sums and the running sums of squares, started
    from zero at the first point. -/
def acc0 (c : Dev nD) : (n : ℕ) → n < cfg0.N → Vec F S1x256 .f32 × Vec F S1x256 .f32
  | 0, hn => (k0_pay1 (k0_pay3 (F := F)) (colSum0 V c ⟨0, hn⟩), k0_pay2 (preBlk0 V c ⟨0, hn⟩) (k0_pay4 (F := F)))
  | n + 1, hn => (k0_pay1 (acc0 c n (Nat.lt_of_succ_lt hn)).1 (colSum0 V c ⟨n + 1, hn⟩),
                  k0_pay2 (preBlk0 V c ⟨n + 1, hn⟩) (acc0 c n (Nat.lt_of_succ_lt hn)).2)

theorem acc0_zero (c : Dev nD) (hn : 0 < cfg0.N) :
    acc0 V c 0 hn = (k0_pay1 (k0_pay3 (F := F)) (colSum0 V c ⟨0, hn⟩), k0_pay2 (preBlk0 V c ⟨0, hn⟩) (k0_pay4 (F := F))) := rfl
theorem acc0_succ (c : Dev nD) (n : ℕ) (hn : n + 1 < cfg0.N) :
    acc0 V c (n + 1) hn = (k0_pay1 (acc0 V c n (Nat.lt_of_succ_lt hn)).1 (colSum0 V c ⟨n + 1, hn⟩),
                  k0_pay2 (preBlk0 V c ⟨n + 1, hn⟩) (acc0 V c n (Nat.lt_of_succ_lt hn)).2) := rfl

/-- The scratch operands as memrefs. -/
abbrev scM0_0 : Memref sig .tc .vmem S1x256 .f32 := Memref.whole cc0_scratch0
abbrev scM0_1 : Memref sig .tc .vmem S1x256 .f32 := Memref.whole cc0_scratch1

/-- The invariant before point `n`: at the start the scoped buffers at anything; afterwards the two scratch rows
    at what the point before left, every other scoped buffer no window stages at anything; the generator register
    at some state throughout. -/
def PhiS0 (c : Dev nD) : (n : ℕ) → n ≤ cfg0.N → sProp 𝕄
  | 0, _ => Pipeline.ΦA spec0 c
  | n + 1, hn => iprop(owns (c : Thread nD τ) scM0_0 fullShare (acc0 V c n hn).1 ∗ owns (c : Thread nD τ) scM0_1 fullShare (acc0 V c n hn).2
      ∗ Pipeline.scopedRestBut (Ix := Unit) (Name := ℕ) (U := UR sig nD τ) (Lvl := ℕ) (Val := Elt F) spec0 c [cc0_scratch0, cc0_scratch1] ∗ (∃ r, prngReg c r))

/-- Stage 1's proof data: inputs left as fetched; the pre-activation window at the point's block; the two
    statistics windows at the scratch rows (consulted at the last point only: elsewhere they are idle). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => preBlk0 V c t
    | ⟨9, _⟩ => (acc0 V c t.val t.isLt).1
    | ⟨10, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_8 (c : Dev nD) (t : Fin cfg0.N) : (dat0 V c).after 8 t = preBlk0 V c t := by dsimp only [dat0]
theorem after0_9 (c : Dev nD) (t : Fin cfg0.N) : (dat0 V c).after 9 t = (acc0 V c t.val t.isLt).1 := by dsimp only [dat0]
theorem after0_10 (c : Dev nD) (t : Fin cfg0.N) : (dat0 V c).after 10 t = (acc0 V c t.val t.isLt).2 := by dsimp only [dat0]

end

end Cert.Kernel.Hand

end
-- ==== Proof.Bits.Region1Defs.lean ====
/- Stage 2 of the edge model as a pipeline: the contents its proof data name.
   A grid point t reads rows 5000·t … 5000·t+4999 of the first pre-activation, applies the first layer's affine
   map and the rectifier, multiplies by the second weight matrix and writes the block out; two scratch rows carry
   the column sums of the written block and of its squares, reset at the first point, copied out at the last. -/
import proofs.«132934_j50371376447949_1_alg».proof.Proof.Gen.Kernel.Launch
import proofs.«132934_j50371376447949_1_alg».proof.Proof.Gen.Kernel.Skeleton
import proofs.«132934_j50371376447949_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second pre-activation block of point `t`. -/
def preBlk1 (c : Dev nD) (t : Fin cfg1.N) : FVec F S5000x256 .f32 :=
  k1_pay4 (iblk1 V c 0 t) (iblk1 V c 1 t) (iblk1 V c 2 t) (iblk1 V c 3 t)

/-- The two scratch rows after point `n`: running column sums, running sums of squares. -/
def acc1 (c : Dev nD) : (n : ℕ) → n < cfg1.N → Vec F S1x256 .f32 × Vec F S1x256 .f32
  | 0, hn => (k1_pay5 (iblk1 V c 0 ⟨0, hn⟩) (iblk1 V c 1 ⟨0, hn⟩) (iblk1 V c 2 ⟨0, hn⟩) (iblk1 V c 3 ⟨0, hn⟩) (k1_pay2 (F := F)),
              k1_pay1 (k1_pay6 (iblk1 V c 0 ⟨0, hn⟩) (iblk1 V c 1 ⟨0, hn⟩) (iblk1 V c 2 ⟨0, hn⟩) (iblk1 V c 3 ⟨0, hn⟩) (k1_pay3 (F := F))))
  | n + 1, hn => (k1_pay5 (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn)).1,
                  k1_pay1 (k1_pay6 (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn)).2))

theorem acc1_zero (c : Dev nD) (hn : 0 < cfg1.N) :
    acc1 V c 0 hn = (k1_pay5 (iblk1 V c 0 ⟨0, hn⟩) (iblk1 V c 1 ⟨0, hn⟩) (iblk1 V c 2 ⟨0, hn⟩) (iblk1 V c 3 ⟨0, hn⟩) (k1_pay2 (F := F)),
              k1_pay1 (k1_pay6 (iblk1 V c 0 ⟨0, hn⟩) (iblk1 V c 1 ⟨0, hn⟩) (iblk1 V c 2 ⟨0, hn⟩) (iblk1 V c 3 ⟨0, hn⟩) (k1_pay3 (F := F)))) := rfl
theorem acc1_succ (c : Dev nD) (n : ℕ) (hn : n + 1 < cfg1.N) :
    acc1 V c (n + 1) hn = (k1_pay5 (iblk1 V c 0 ⟨n + 1, hn⟩) (iblk1 V c 1 ⟨n + 1, hn⟩) (iblk1 V c 2 ⟨n + 1, hn⟩) (iblk1 V c 3 ⟨n + 1, hn⟩) (acc1 V c n (Nat.lt_of_succ_lt hn)).1,
                  k1_pay1 (k1_pay6 (iblk1 V c 0 ⟨n + 1, hn⟩) (iblk1 V c 1 ⟨n + 1, hn⟩) (iblk1 V c 2 ⟨n + 1, hn⟩) (iblk1 V c 3 ⟨n + 1, hn⟩) (acc1 V c n (Nat.lt_of_succ_lt hn)).2)) := rfl

/-- The scratch operands as memrefs. -/
abbrev scM1_0 : Memref sig .tc .vmem S1x256 .f32 := Memref.whole cc1_scratch0
abbrev scM1_1 : Memref sig .tc .vmem S1x256 .f32 := Memref.whole cc1_scratch1

/-- The invariant before point `n`: as for stage 1, with this stage's scratch rows. -/
def PhiS1 (c : Dev nD) : (n : ℕ) → n ≤ cfg1.N → sProp 𝕄
  | 0, _ => Pipeline.ΦA spec1 c
  | n + 1, hn => iprop(owns (c : Thread nD τ) scM1_0 fullShare (acc1 V c n hn).1 ∗ owns (c : Thread nD τ) scM1_1 fullShare (acc1 V c n hn).2
      ∗ Pipeline.scopedRestBut (Ix := Unit) (Name := ℕ) (U := UR sig nD τ) (Lvl := ℕ) (Val := Elt F) spec1 c [cc1_scratch0, cc1_scratch1] ∗ (∃ r, prngReg c r))

/-- Stage 2's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => preBlk1 V c t
    | ⟨5, _⟩ => (acc1 V c t.val t.isLt).1
    | ⟨6, _⟩ => (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_4 (c : Dev nD) (t : Fin cfg1.N) : (dat1 V c).after 4 t = preBlk1 V c t := by dsimp only [dat1]
theorem after1_5 (c : Dev nD) (t : Fin cfg1.N) : (dat1 V c).after 5 t = (acc1 V c t.val t.isLt).1 := by dsimp only [dat1]
theorem after1_6 (c : Dev nD) (t : Fin cfg1.N) : (dat1 V c).after 6 t = (acc1 V c t.val t.isLt).2 := by dsimp only [dat1]

end

end Cert.Kernel.Hand

end
-- ==== Proof.Bits.Region2Defs.lean ====
/- Stage 3 of the edge model as a pipeline: each grid point writes the second layer's affine map of its
   block of rows; nothing is carried between points. -/
import proofs.«132934_j50371376447949_1_alg».proof.Proof.Gen.Kernel.Launch
import proofs.«132934_j50371376447949_1_alg».proof.Proof.Gen.Kernel.Skeleton
import proofs.«132934_j50371376447949_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block of point `t`. -/
def outBlk2 (c : Dev nD) (t : Fin cfg2.N) : FVec F S5000x256 .f32 :=
  k2_pay1 (iblk2 V c 0 t) (iblk2 V c 1 t) (iblk2 V c 2 t)

/-- Stage 3's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outBlk2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_3 (c : Dev nD) (t : Fin cfg2.N) : (dat2 V c).after 3 t = outBlk2 V c t := by dsimp only [dat2]

end

end Cert.Kernel.Hand

end
-- ==== Proof.Bits.RunDefs.lean ====
/- The buffers' contents at each boundary of the program: launch, after the host lines before stage 1, after
   stage 1, after the host lines that turn its statistics into the first affine map, after stage 2, after the
   host lines for the second affine map, after stage 3. A stage leaves its windows' arrays at what its
   write-backs make of them and every other buffer alone. -/
import proofs.«132934_j50371376447949_1_alg».proof.Proof.Bits.Region0Defs
import proofs.«132934_j50371376447949_1_alg».proof.Proof.Bits.Region1Defs
import proofs.«132934_j50371376447949_1_alg».proof.Proof.Bits.Region2Defs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (stage 1's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After stage 1. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (stage 2's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After stage 2. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third host stretch (stage 3's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After stage 3: the end of the program. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-- No pipeline has a prefetched table. -/
abbrev adm : (p : Fin 3) → (pcfgs (F := F) p).Adm := fun p => (cfgs p).toPCfg_adm

/-- Every pipeline's proof data, each at its stage's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

end Cert.Kernel.Hand

end
-- ==== Proof.Bits.Run.lean ====
/- The launch of the whole program: three host stretches alternating with three stages, from the launch memory
   to the return. Between two items a core holds every unscoped buffer at that boundary's contents, its generator
   register at some state, and owes nothing. A host stretch moves the contents by its operations; a stage takes
   its windows' arrays out of the unscoped buffers, runs its pipeline over them, and puts them back at what the
   write-backs left, every other buffer untouched. At the end every unscoped buffer is read against the final
   memory: it holds the last boundary's contents. -/
import proofs.«132934_j50371376447949_1_alg».proof.Proof.Bits.RunDefs
import proofs.«132934_j50371376447949_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What a stage's exit contents are, in the two forms the rejoining of the arrays takes -/

/-- Stage 1 leaves each of its arrays at the write-backs' fold, -/
theorem exitArr0 (c : Dev nD) (w : Fin cfg0.W) : (dat0 (V1 m) c).arrAt w cfg0.N = V2 m c (Pipeline.arrRef spec0 w) :=
  (W2_arr m c w).symm
/-- and every buffer that is no array of its windows as entered. -/
theorem exitRest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Stage 2 likewise, -/
theorem exitArr1 (c : Dev nD) (w : Fin cfg1.W) : (dat1 (V3 m) c).arrAt w cfg1.N = V4 m c (Pipeline.arrRef spec1 w) :=
  (W4_arr m c w).symm
theorem exitRest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- and stage 3. -/
theorem exitArr2 (c : Dev nD) (w : Fin cfg2.W) : (dat2 (V5 m) c).arrAt w cfg2.N = V6 m c (Pipeline.arrRef spec2 w) :=
  (W6_arr m c w).symm
theorem exitRest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The thread state between items -/

/-- No variant of any operation is in play. -/
abbrev noVar : Variants := Variants.none
/-- No core waits on another: no pair is levelled. -/
abbrev noPairs : GSem nD τ sig → Finset Unit := fun _ => ∅
abbrev lvl0 : GSem nD τ sig → Unit → ℕ := fun _ _ => 0
/-- Beside the buffers a core carries its generator register at some state and owes nothing. -/
abbrev beside (c : Dev nD) : sProp 𝕄 := iprop((∃ r, prngReg c r) ∗ ∃ W, owes (c : Thread nD τ) (0 : CellTallies nD τ sig Unit) W)
/-- A host stretch from the contents `W`: its operations act on the unscoped buffers, everything else rides along;
    it leaves them at the stretch's image of `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
/-- The state at the return, without the debt: every unscoped buffer at the last contents, the register somewhere. -/
abbrev atReturn (c : Dev nD) : sProp 𝕄 := iprop(StableHlo.held (c : Thread nD τ) (Pipeline.ucRefs τ sig) (W6 m c) ∗ ∃ r, prngReg c r)

/-! ## The stages as segments -/

set_option backward.isDefEq.respectTransparency.types false in
/-- STAGE 1 between the boundaries after the first host stretch and before the second: entered with every unscoped
    buffer at `W1`, left with them at `W2`. Its body's obligation and the two ends of its invariant are given. -/
def stage1 (hb : ∀ c, BodyObligation (dat0 (F := F) (V1 m) c) (defs₀ (F := F)) Variants.none () Set.univ)
    (hi : ∀ c, (Pipeline.ΦA spec0 c : sProp 𝕄) ⊢ (dat0 (V1 m) c).Φ 0)
    (ho : ∀ c, (dat0 (V1 m) c).Φ (Fin.last cfg0.N) ⊢ (Pipeline.ΦA spec0 c : sProp 𝕄)) :
    Pipeline.RegionSeg (pcfgs (F := F)) adm (pdats m) () defs₀ noVar noPairs lvl0 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ noPairs lvl0 0 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    -- the unscoped buffers at the entry contents are the windows' arrays at those contents beside the rest; no table;
    -- the debt, at nothing, is within any bound; the register goes to the invariant
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hbufs, Hreg, Hdebt⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    -- the register, no table and the scoped buffers no window stages make the class invariant, which the stage's
    -- first invariant follows from
    have hΦ : (pdats m 0 c).Φ 0 = (dat0 (V1 m) c).Φ 0 := rfl
    rw [hΦ]
    refine BIBase.Entails.trans ?_ (hi c)
    unfold Pipeline.ΦA
    iintro ⟨Hreg, -, Hsc⟩
    isplitl [Hsc]; · iexact Hsc
    iexact Hreg
  hout c := by
    -- the stage's last invariant gives the class invariant, which is those scoped buffers and the register
    have hΦ : (pdats m 0 c).Φ (Fin.last _) = (dat0 (V1 m) c).Φ (Fin.last cfg0.N) := rfl
    rw [Pipeline.ownSems0_none, hΦ]
    refine BIBase.Entails.trans (ho c) ?_
    unfold Pipeline.ΦA
    iintro ⟨Hsc, Hreg⟩
    isplitl [Hreg]; · iexact Hreg
    isplitr; · iempintro
    iexact Hsc
  hexit c := by
    -- the arrays at the write-backs' fold beside the untouched rest are the unscoped buffers at the exit contents
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exitArr0 m c) (exitRest0 m c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

set_option backward.isDefEq.respectTransparency.types false in
/-- STAGE 2: entered with every unscoped buffer at `W3`, left with them at `W4`. -/
def stage2 (hb : ∀ c, BodyObligation (dat1 (F := F) (V3 m) c) (defs₀ (F := F)) Variants.none () Set.univ)
    (hi : ∀ c, (Pipeline.ΦA spec1 c : sProp 𝕄) ⊢ (dat1 (V3 m) c).Φ 0)
    (ho : ∀ c, (dat1 (V3 m) c).Φ (Fin.last cfg1.N) ⊢ (Pipeline.ΦA spec1 c : sProp 𝕄)) :
    Pipeline.RegionSeg (pcfgs (F := F)) adm (pdats m) () defs₀ noVar noPairs lvl0 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ noPairs lvl0 1 fun _ _ => rfl
  pre c := iprop(StableHlo.held (c : Thread nD τ) (Pipeline.ucRefs τ sig) (W3 m c) ∗ beside c)
  post c := iprop(StableHlo.held (c : Thread nD τ) (Pipeline.ucRefs τ sig) (W4 m c) ∗ beside c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    -- the unscoped buffers at the entry contents are the windows' arrays at those contents beside the rest; no table;
    -- the debt, at nothing, is within any bound; the register goes to the invariant
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hbufs, Hreg, Hdebt⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    -- the register, no table and the scoped buffers no window stages make the class invariant, which the stage's
    -- first invariant follows from
    have hΦ : (pdats m 1 c).Φ 0 = (dat1 (V3 m) c).Φ 0 := rfl
    rw [hΦ]
    refine BIBase.Entails.trans ?_ (hi c)
    unfold Pipeline.ΦA
    iintro ⟨Hreg, -, Hsc⟩
    isplitl [Hsc]; · iexact Hsc
    iexact Hreg
  hout c := by
    -- the stage's last invariant gives the class invariant, which is those scoped buffers and the register
    have hΦ : (pdats m 1 c).Φ (Fin.last _) = (dat1 (V3 m) c).Φ (Fin.last cfg1.N) := rfl
    rw [Pipeline.ownSems0_none, hΦ]
    refine BIBase.Entails.trans (ho c) ?_
    unfold Pipeline.ΦA
    iintro ⟨Hsc, Hreg⟩
    isplitl [Hreg]; · iexact Hreg
    isplitr; · iempintro
    iexact Hsc
  hexit c := by
    -- the arrays at the write-backs' fold beside the untouched rest are the unscoped buffers at the exit contents
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exitArr1 m c) (exitRest1 m c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

set_option backward.isDefEq.respectTransparency.types false in
/-- STAGE 3, the last item: entered with every unscoped buffer at `W5`, left at the return state beside the core
    owing nothing. -/
def stage3 (hb : ∀ c, BodyObligation (dat2 (F := F) (V5 m) c) (defs₀ (F := F)) Variants.none () Set.univ) :
    Pipeline.RegionSeg (pcfgs (F := F)) adm (pdats m) () defs₀ noVar noPairs lvl0 2 where
  win := launch2.win.to₀
  block_pos := launch2.block_pos
  stage_whole := launch2.stage_whole
  K := PEmpty
  osem k := k.elim
  ho := Pipeline.OwnSemFacts.none _
  hbody c := (hb c).loose
  hwaits := Pipeline.hwaits_of_owed_zero _ _ _ _ noPairs lvl0 2 fun _ _ => rfl
  pre c := iprop(StableHlo.held (c : Thread nD τ) (Pipeline.ucRefs τ sig) (W5 m c) ∗ beside c)
  post c := iprop(atReturn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    -- the unscoped buffers at the entry contents are the windows' arrays at those contents beside the rest; no table;
    -- the debt, at nothing, is within any bound; the register goes to the invariant
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hbufs, Hreg, Hdebt⟩, -, -⟩
    ihave Hs := hsplit $$ Hbufs
    icases Hs with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    -- this stage's invariant is the class invariant at every point
    rw [show (pdats m 2 c).Φ 0 = Pipeline.ΦA spec2 c from rfl]; unfold Pipeline.ΦA
    iintro ⟨Hreg, -, Hsc⟩
    isplitl [Hsc]; · iexact Hsc
    iexact Hreg
  hout c := by
    rw [Pipeline.ownSems0_none, show (pdats m 2 c).Φ (Fin.last _) = Pipeline.ΦA spec2 c from rfl]; unfold Pipeline.ΦA
    iintro ⟨Hsc, Hreg⟩
    isplitl [Hreg]; · iexact Hreg
    isplitr; · iempintro
    iexact Hsc
  hexit c := by
    -- the arrays at the write-backs' fold beside the untouched rest are the unscoped buffers at the exit contents
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (exitArr2 m c) (exitRest2 m c)
    rw [Pipeline.unscopedBufs_held] at hjoin
    iintro ⟨Harr, Hdebt, Hreg, Hrest⟩
    imodintro
    isplitl [Harr Hrest Hreg]
    · isplitl [Harr Hrest]
      · iapply hjoin; isplitl [Harr] <;> iassumption
      iexact Hreg
    unfold Pipeline.Dat.owesAt Pipeline.owesWithin
    icases Hdebt with ⟨%W, -, Hdebt⟩; iexists W; iexact Hdebt

/-! ## The program as its items, and the launch -/

/-- The six items in order: a host stretch from each even boundary's contents, a stage from each odd one's. -/
abbrev items (hb0 : ∀ c, BodyObligation (dat0 (F := F) (V1 m) c) (defs₀ (F := F)) Variants.none () Set.univ)
    (hi0 : ∀ c, (Pipeline.ΦA spec0 c : sProp 𝕄) ⊢ (dat0 (V1 m) c).Φ 0)
    (ho0 : ∀ c, (dat0 (V1 m) c).Φ (Fin.last cfg0.N) ⊢ (Pipeline.ΦA spec0 c : sProp 𝕄))
    (hb1 : ∀ c, BodyObligation (dat1 (F := F) (V3 m) c) (defs₀ (F := F)) Variants.none () Set.univ)
    (hi1 : ∀ c, (Pipeline.ΦA spec1 c : sProp 𝕄) ⊢ (dat1 (V3 m) c).Φ 0)
    (ho1 : ∀ c, (dat1 (V3 m) c).Φ (Fin.last cfg1.N) ⊢ (Pipeline.ΦA spec1 c : sProp 𝕄))
    (hb2 : ∀ c, BodyObligation (dat2 (F := F) (V5 m) c) (defs₀ (F := F)) Variants.none () Set.univ) :
    List (Pipeline.Seg (pcfgs (F := F)) adm (pdats m) () defs₀ noVar noPairs lvl0) :=
  [ .host (stretch hostOps0 hostOps0_sub hostOps0_fresh (W0 m)),
    .region (stage1 m hb0 hi0 ho0),
    .host (stretch hostOps1 hostOps1_sub hostOps1_fresh (W2 m)),
    .region (stage2 m hb1 hi1 ho1),
    .host (stretch hostOps2 hostOps2_sub hostOps2_fresh (W4 m)),
    .region (stage3 m hb2) ]

/-- The program is the run of its items: it is the chain of their fragments, and so is the run. -/
theorem main_items (hb0 : ∀ c, BodyObligation (dat0 (F := F) (V1 m) c) (defs₀ (F := F)) Variants.none () Set.univ)
    (hi0 : ∀ c, (Pipeline.ΦA spec0 c : sProp 𝕄) ⊢ (dat0 (V1 m) c).Φ 0)
    (ho0 : ∀ c, (dat0 (V1 m) c).Φ (Fin.last cfg0.N) ⊢ (Pipeline.ΦA spec0 c : sProp 𝕄))
    (hb1 : ∀ c, BodyObligation (dat1 (F := F) (V3 m) c) (defs₀ (F := F)) Variants.none () Set.univ)
    (hi1 : ∀ c, (Pipeline.ΦA spec1 c : sProp 𝕄) ⊢ (dat1 (V3 m) c).Φ 0)
    (ho1 : ∀ c, (dat1 (V3 m) c).Φ (Fin.last cfg1.N) ⊢ (Pipeline.ΦA spec1 c : sProp 𝕄))
    (hb2 : ∀ c, BodyObligation (dat2 (F := F) (V5 m) c) (defs₀ (F := F)) Variants.none () Set.univ)
    (c : Dev nD) : main (F := F) c = Pipeline.Seg.run (items m hb0 hi0 ho0 hb1 hi1 ho1 hb2) :=
  (main_chain c).trans (by chain_rfl)

/-- An unscoped reference of the core is among those the thread state holds. -/
theorem held_of_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, given each stage's body obligation and the two ends of the first two
    stages' invariants, every weakly fair execution of the program terminates and the final memory holds, on every core,
    every unscoped buffer at the last boundary's contents `W6`: the launch deals each core its unscoped buffers at the
    launch contents, its register and no debt; the six items chain by name; the return state is read against the
    final memory. -/
theorem run_all (m : (ℓ : Loc nD τ sig) → Buf (Elt F) ℓ) (ρ : Dev nD → PrngReg)
    (hb0 : ∀ c, BodyObligation (dat0 (F := F) (V1 m) c) (defs₀ (F := F)) Variants.none () Set.univ)
    (hi0 : ∀ c, (Pipeline.ΦA spec0 c : sProp 𝕄) ⊢ (dat0 (V1 m) c).Φ 0)
    (ho0 : ∀ c, (dat0 (V1 m) c).Φ (Fin.last cfg0.N) ⊢ (Pipeline.ΦA spec0 c : sProp 𝕄))
    (hb1 : ∀ c, BodyObligation (dat1 (F := F) (V3 m) c) (defs₀ (F := F)) Variants.none () Set.univ)
    (hi1 : ∀ c, (Pipeline.ΦA spec1 c : sProp 𝕄) ⊢ (dat1 (V3 m) c).Φ 0)
    (ho1 : ∀ c, (dat1 (V3 m) c).Φ (Fin.last cfg1.N) ⊢ (Pipeline.ΦA spec1 c : sProp 𝕄))
    (hb2 : ∀ c, BodyObligation (dat2 (F := F) (V5 m) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem ((c : Thread nD τ).1, b) = W6 m c b) :=
  Pipeline.θ_run_regions_kit (pcfgs (F := F)) adm (pdats m) () cellOf_inj emb₁ defs₀ noVar noPairs lvl0 m ρ main
    (items m hb0 hi0 ho0 hb1 hi1 ho1 hb2)
    (fun c Q => by rw [main_items m hb0 hi0 ho0 hb1 hi1 ho1 hb2 c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the whole user component at the launch element is that element through the one embedding; no ghost resource
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := atReturn m)
    (hch := ⟨fun _ => .rfl, fun _ => .rfl, fun _ => .rfl, fun _ => .rfl, fun _ => .rfl, fun _ => .rfl, fun _ => .rfl⟩)
    (hinit := by
      -- core by core: the unscoped buffers at the launch memory are held at `W0`; the register is at its launch state;
      -- the launch debt is none
      refine Pipeline.initEach noPairs lvl0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdebt, -, Hreg, -⟩, -⟩
      imodintro
      isplitl [Hbufs]; · iexact Hbufs
      isplitl [Hreg]; · iexists _; iexact Hreg
      iexists ∅; iexact Hdebt)
    (QY := fun c s => ∀ b ∈ Pipeline.ucRefs τ sig, s.mem (((c : Thread nD τ)).1, b) = W6 m c b)
    (hfin := fun c s' => by
      -- every buffer held at a content, beside the final state's interpretation, says the memory holds that content
      iintro ⟨⟨Hbufs, -⟩, HSI⟩
      unfold StableHlo.held
      imodintro
      iapply (pointsTo_read_all (Pipeline.ucRefs τ sig) (fun b => (((c : Thread nD τ)).1, b)) (W6 m c) s')
      isplitl [Hbufs] <;> iassumption)
    (hQ := fun s h => h)

end Cert.Kernel.Hand

end
-- ==== Proof.Bits.RunArgs.lean ====
/- What the fold of boundary contents holds at the program's argument arrays and at the stages' result arrays.
   A host stretch leaves every buffer outside its write list alone; a stage leaves every buffer that is none of its
   windows' arrays alone, leaves an input window's array as it found it, and leaves an output window's array at what
   its write-backs make of it. So an argument array is walked back, boundary by boundary, to the launch memory,
   and a stage's result array is read at the next stage's entry as the earlier stage left it. -/
import proofs.«132934_j50371376447949_1_alg».proof.Proof.Bits.RunDefs
import proofs.«132934_j50371376447949_1_alg».proof.Proof.Gen.Kernel.Regions

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## A host stretch leaves what it does not write -/

/-- The first host stretch leaves every buffer outside its write list at the launch contents. -/
theorem W1_of (c : Dev nD) (r : Ref sig .tc) (h : r ∉ hostOps0_W) :
    W1 m c (Proc.devRef .tc r) = W0 m c (Proc.devRef .tc r) :=
  StableHlo.after_of_writes_sub hostOps0 _ hostOps0_writes h
/-- The second host stretch leaves every buffer outside its write list as stage 1 left it. -/
theorem W3_of (c : Dev nD) (r : Ref sig .tc) (h : r ∉ hostOps1_W) :
    W3 m c (Proc.devRef .tc r) = W2 m c (Proc.devRef .tc r) :=
  StableHlo.after_of_writes_sub hostOps1 _ hostOps1_writes h
/-- The third host stretch leaves every buffer outside its write list as stage 2 left it. -/
theorem W5_of (c : Dev nD) (r : Ref sig .tc) (h : r ∉ hostOps2_W) :
    W5 m c (Proc.devRef .tc r) = W4 m c (Proc.devRef .tc r) :=
  StableHlo.after_of_writes_sub hostOps2 _ hostOps2_writes h

/-! ## Stage 1's inputs among the arguments -/

/-- An input window of stage 1 holds at its exit what it held at its entry (an input array is never written). -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
/-- An input window of stage 2 holds at its exit what it held at its entry. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))
/-- An input window of stage 3 holds at its exit what it held at its entry. -/
theorem W6_in (c : Dev nD) (w : Fin cfg2.W) (hin : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hin _).trans (A_eq2 (V5 m) c w))

/-! ## The arguments at stage 1's entry -/

/-- No host line before stage 1 writes the first argument. -/
theorem W1_main_arg0 (c : Dev nD) :
    W1 m c (Proc.devRef .tc main_arg0) = m ((c : Thread nD τ).loc main_arg0) :=
  (W1_of m c main_arg0 (by decide)).trans rfl
/-- No host line before stage 1 writes the second argument. -/
theorem W1_main_arg1 (c : Dev nD) :
    W1 m c (Proc.devRef .tc main_arg1) = m ((c : Thread nD τ).loc main_arg1) :=
  (W1_of m c main_arg1 (by decide)).trans rfl
/-- No host line before stage 1 writes the third argument. -/
theorem W1_main_arg2 (c : Dev nD) :
    W1 m c (Proc.devRef .tc main_arg2) = m ((c : Thread nD τ).loc main_arg2) :=
  (W1_of m c main_arg2 (by decide)).trans rfl

/-! ## The arguments at the end -/

/-- A buffer that no host stretch writes and that is no window's array of any stage ends at its launch contents. -/
theorem W6_of_untouched (c : Dev nD) (r : Ref sig .tc)
    (h0 : r ∉ hostOps0_W) (h1 : r ∉ hostOps1_W) (h2 : r ∉ hostOps2_W)
    (n0 : ∀ w, Pipeline.arrRef spec0 w ≠ r) (n1 : ∀ w, Pipeline.arrRef spec1 w ≠ r)
    (n2 : ∀ w, Pipeline.arrRef spec2 w ≠ r) :
    W6 m c (Proc.devRef .tc r) = m ((c : Thread nD τ).loc r) :=
  calc W6 m c (Proc.devRef .tc r)
    _ = W5 m c (Proc.devRef .tc r) := W6_of_ne m c r n2
    _ = W4 m c (Proc.devRef .tc r) := W5_of m c r h2
    _ = W3 m c (Proc.devRef .tc r) := W4_of_ne m c r n1
    _ = W2 m c (Proc.devRef .tc r) := W3_of m c r h1
    _ = W1 m c (Proc.devRef .tc r) := W2_of_ne m c r n0
    _ = W0 m c (Proc.devRef .tc r) := W1_of m c r h0
    _ = m ((c : Thread nD τ).loc r) := rfl

/-- A buffer that no host stretch writes, that is an input window's array of stage 1 and no window's array of the
    later stages, ends at its launch contents. -/
theorem W6_of_in0 (c : Dev nD) (w : Fin cfg0.W) (hin : (cfg0.win w).isOut = false)
    (h0 : Pipeline.arrRef spec0 w ∉ hostOps0_W) (h1 : Pipeline.arrRef spec0 w ∉ hostOps1_W)
    (h2 : Pipeline.arrRef spec0 w ∉ hostOps2_W)
    (n1 : ∀ w', Pipeline.arrRef spec1 w' ≠ Pipeline.arrRef spec0 w)
    (n2 : ∀ w', Pipeline.arrRef spec2 w' ≠ Pipeline.arrRef spec0 w) :
    W6 m c (Proc.devRef .tc (Pipeline.arrRef spec0 w)) = m ((c : Thread nD τ).loc (Pipeline.arrRef spec0 w)) :=
  calc W6 m c (Proc.devRef .tc (Pipeline.arrRef spec0 w))
    _ = W5 m c (Proc.devRef .tc (Pipeline.arrRef spec0 w)) := W6_of_ne m c _ n2
    _ = W4 m c (Proc.devRef .tc (Pipeline.arrRef spec0 w)) := W5_of m c _ h2
    _ = W3 m c (Proc.devRef .tc (Pipeline.arrRef spec0 w)) := W4_of_ne m c _ n1
    _ = W2 m c (Proc.devRef .tc (Pipeline.arrRef spec0 w)) := W3_of m c _ h1
    _ = W1 m c (Proc.devRef .tc (Pipeline.arrRef spec0 w)) := W2_in m c w hin
    _ = W0 m c (Proc.devRef .tc (Pipeline.arrRef spec0 w)) := W1_of m c _ h0
    _ = m ((c : Thread nD τ).loc (Pipeline.arrRef spec0 w)) := rfl

/-- The first argument is stage 1's input window 0 and nothing else touches it. -/
theorem W6_main_arg0 (c : Dev nD) :
    W6 m c (Proc.devRef .tc main_arg0) = m ((c : Thread nD τ).loc main_arg0) :=
  W6_of_in0 m c 0 rfl (by decide) (by decide) (by decide) (by decide) (by decide)
/-- The second argument is stage 1's input window 1 and nothing else touches it. -/
theorem W6_main_arg1 (c : Dev nD) :
    W6 m c (Proc.devRef .tc main_arg1) = m ((c : Thread nD τ).loc main_arg1) :=
  W6_of_in0 m c 1 rfl (by decide) (by decide) (by decide) (by decide) (by decide)
/-- The third argument is stage 1's input window 2 and nothing else touches it. -/
theorem W6_main_arg2 (c : Dev nD) :
    W6 m c (Proc.devRef .tc main_arg2) = m ((c : Thread nD τ).loc main_arg2) :=
  W6_of_in0 m c 2 rfl (by decide) (by decide) (by decide) (by decide) (by decide)
/-- Argument 3 is read by host lines only: no host line writes it and it is no window's array. -/
theorem W6_main_arg3 (c : Dev nD) :
    W6 m c (Proc.devRef .tc main_arg3) = m ((c : Thread nD τ).loc main_arg3) :=
  W6_of_untouched m c main_arg3 (by decide) (by decide) (by decide) (by decide) (by decide) (by decide)
/-- Argument 4 is read by host lines only: no host line writes it and it is no window's array. -/
theorem W6_main_arg4 (c : Dev nD) :
    W6 m c (Proc.devRef .tc main_arg4) = m ((c : Thread nD τ).loc main_arg4) :=
  W6_of_untouched m c main_arg4 (by decide) (by decide) (by decide) (by decide) (by decide) (by decide)
/-- Argument 5 is read by host lines only: no host line writes it and it is no window's array. -/
theorem W6_main_arg5 (c : Dev nD) :
    W6 m c (Proc.devRef .tc main_arg5) = m ((c : Thread nD τ).loc main_arg5) :=
  W6_of_untouched m c main_arg5 (by decide) (by decide) (by decide) (by decide) (by decide) (by decide)
/-- Argument 6 is read by host lines only: no host line writes it and it is no window's array. -/
theorem W6_main_arg6 (c : Dev nD) :
    W6 m c (Proc.devRef .tc main_arg6) = m ((c : Thread nD τ).loc main_arg6) :=
  W6_of_untouched m c main_arg6 (by decide) (by decide) (by decide) (by decide) (by decide) (by decide)
/-- Argument 7 is read by host lines only: no host line writes it and it is no window's array. -/
theorem W6_main_arg7 (c : Dev nD) :
    W6 m c (Proc.devRef .tc main_arg7) = m ((c : Thread nD τ).loc main_arg7) :=
  W6_of_untouched m c main_arg7 (by decide) (by decide) (by decide) (by decide) (by decide) (by decide)
/-- Argument 8 is read by host lines only: no host line writes it and it is no window's array. -/
theorem W6_main_arg8 (c : Dev nD) :
    W6 m c (Proc.devRef .tc main_arg8) = m ((c : Thread nD τ).loc main_arg8) :=
  W6_of_untouched m c main_arg8 (by decide) (by decide) (by decide) (by decide) (by decide) (by decide)
/-- Argument 9 is read by host lines only: no host line writes it and it is no window's array. -/
theorem W6_main_arg9 (c : Dev nD) :
    W6 m c (Proc.devRef .tc main_arg9) = m ((c : Thread nD τ).loc main_arg9) :=
  W6_of_untouched m c main_arg9 (by decide) (by decide) (by decide) (by decide) (by decide) (by decide)
/-- Argument 10 is read by host lines only: no host line writes it and it is no window's array. -/
theorem W6_main_arg10 (c : Dev nD) :
    W6 m c (Proc.devRef .tc main_arg10) = m ((c : Thread nD τ).loc main_arg10) :=
  W6_of_untouched m c main_arg10 (by decide) (by decide) (by decide) (by decide) (by decide) (by decide)

/-! ## The stages' result arrays -/

/-- The program's result is stage 3's output window 3: what its write-backs make of it. -/
theorem W6_main_v46 (c : Dev nD) :
    W6 m c (Proc.devRef .tc main_v46) = (dat2 (V5 m) c).arrAt 3 cfg2.N :=
  W6_arr m c 3

/-- Stage 1's pre-activation array (its output window 8) reaches stage 2's entry as stage 1 left it: no host
    line in between writes it. -/
theorem W3_main_v16_0 (c : Dev nD) :
    W3 m c (Proc.devRef .tc main_v16_0) = (dat0 (V1 m) c).arrAt 8 cfg0.N :=
  (W3_of m c main_v16_0 (by decide)).trans (W2_arr m c 8)

/-- The second weight matrix, made by the first host stretch, reaches stage 2's entry as made: it is no window's
    array of stage 1 and no host line in between writes it. -/
theorem W3_main_v15 (c : Dev nD) :
    W3 m c (Proc.devRef .tc main_v15) = W1 m c (Proc.devRef .tc main_v15) :=
  (W3_of m c main_v15 (by decide)).trans (W2_of_ne m c main_v15 (by decide))

/-- Stage 2's pre-activation array (its output window 4) reaches stage 3's entry as stage 2 left it. -/
theorem W5_main_v31_0 (c : Dev nD) :
    W5 m c (Proc.devRef .tc main_v31_0) = (dat1 (V3 m) c).arrAt 4 cfg1.N :=
  (W5_of m c main_v31_0 (by decide)).trans (W4_arr m c 4)

end Cert.Kernel.Hand

end
-- ==== Proof.Bits.Region0Body.lean ====
/- Stage 1 of the edge model as a pipeline: the body at every grid point.
   A point t reads its eight input blocks, writes the pre-activation block (the four matrix products of the
   point's rows, added) and adds that block's column sums and the column sums of its squares into two scratch
   rows; the first point starts the two rows from zero, the last point copies them into the two statistics
   windows, which no other point touches. -/
import proofs.«132934_j50371376447949_1_alg».proof.Proof.Bits.Region0Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The invariant before the first point, with the two scratch rows named -/

/-- The scoped buffers no window stages, split at the two scratch rows. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop(iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f))
          ∗ Pipeline.scopedRestBut (Ix := Ix) (Name := Name) (U := U) (Lvl := Lvl) (Val := Val) spec0 c [cc0_scratch0, cc0_scratch1]) :=
  Pipeline.scopedRest_split_of_list spec0 c [cc0_scratch0, cc0_scratch1] (by decide) (by decide)

/-- What the launch hands the region: the two scratch rows at anything, the other scoped buffers, the generator register. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The two conditions of the body, in closed form over the grid -/

/-- The first point's test: the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The last point's test: the grid coordinate is 99. -/
abbrev cond0_1 (i : grid0.Coords) : Prop := k0_cond2 i = 1#1
theorem hcond0_1 : ∀ t : Fin cfg0.N, cond0_1 (grid0.coords t) ↔ t.val = 99 :=
  (by decide +kernel : ∀ t : Fin grid0.N, cond0_1 (grid0.coords t) ↔ t.val = 99)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
/-- Off the last point the two statistics windows are idle and not written back; at it they are live. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel

/-! ## What the body leaves in the input windows -/

theorem after0_0 (V : (c : Dev nD) → (b : Ref sig .tc) → Buf (Elt F) ((c : Thread nD τ).loc b)) (c : Dev nD) (t : Fin cfg0.N) : (dat0 V c).after 0 t = iblk0 V c 0 t := by dsimp only [dat0]
theorem after0_1 (V : (c : Dev nD) → (b : Ref sig .tc) → Buf (Elt F) ((c : Thread nD τ).loc b)) (c : Dev nD) (t : Fin cfg0.N) : (dat0 V c).after 1 t = iblk0 V c 1 t := by dsimp only [dat0]
theorem after0_2 (V : (c : Dev nD) → (b : Ref sig .tc) → Buf (Elt F) ((c : Thread nD τ).loc b)) (c : Dev nD) (t : Fin cfg0.N) : (dat0 V c).after 2 t = iblk0 V c 2 t := by dsimp only [dat0]
theorem after0_3 (V : (c : Dev nD) → (b : Ref sig .tc) → Buf (Elt F) ((c : Thread nD τ).loc b)) (c : Dev nD) (t : Fin cfg0.N) : (dat0 V c).after 3 t = iblk0 V c 3 t := by dsimp only [dat0]
theorem after0_4 (V : (c : Dev nD) → (b : Ref sig .tc) → Buf (Elt F) ((c : Thread nD τ).loc b)) (c : Dev nD) (t : Fin cfg0.N) : (dat0 V c).after 4 t = iblk0 V c 4 t := by dsimp only [dat0]
theorem after0_5 (V : (c : Dev nD) → (b : Ref sig .tc) → Buf (Elt F) ((c : Thread nD τ).loc b)) (c : Dev nD) (t : Fin cfg0.N) : (dat0 V c).after 5 t = iblk0 V c 5 t := by dsimp only [dat0]
theorem after0_6 (V : (c : Dev nD) → (b : Ref sig .tc) → Buf (Elt F) ((c : Thread nD τ).loc b)) (c : Dev nD) (t : Fin cfg0.N) : (dat0 V c).after 6 t = iblk0 V c 6 t := by dsimp only [dat0]
theorem after0_7 (V : (c : Dev nD) → (b : Ref sig .tc) → Buf (Elt F) ((c : Thread nD τ).loc b)) (c : Dev nD) (t : Fin cfg0.N) : (dat0 V c).after 7 t = iblk0 V c 7 t := by dsimp only [dat0]

/-! ## Each input window's current buffer holds its block at every point, fetched there or not -/

theorem before0_0 (V : (c : Dev nD) → (b : Ref sig .tc) → Buf (Elt F) ((c : Thread nD τ).loc b)) (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

theorem before0_1 (V : (c : Dev nD) → (b : Ref sig .tc) → Buf (Elt F) ((c : Thread nD τ).loc b)) (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

theorem before0_2 (V : (c : Dev nD) → (b : Ref sig .tc) → Buf (Elt F) ((c : Thread nD τ).loc b)) (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

theorem before0_3 (V : (c : Dev nD) → (b : Ref sig .tc) → Buf (Elt F) ((c : Thread nD τ).loc b)) (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

theorem before0_4 (V : (c : Dev nD) → (b : Ref sig .tc) → Buf (Elt F) ((c : Thread nD τ).loc b)) (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

theorem before0_5 (V : (c : Dev nD) → (b : Ref sig .tc) → Buf (Elt F) ((c : Thread nD τ).loc b)) (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

theorem before0_6 (V : (c : Dev nD) → (b : Ref sig .tc) → Buf (Elt F) ((c : Thread nD τ).loc b)) (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

theorem before0_7 (V : (c : Dev nD) → (b : Ref sig .tc) → Buf (Elt F) ((c : Thread nD τ).loc b)) (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)

/-! ## One whole-block store: its rectangle holds every index -/

theorem hzR0 : (![0, 0] : Fin 2 → ℕ) = fun _ => 0 := funext fun a => by fin_cases a <;> rfl

theorem coverR0 {S : Shape} {e : EltTy} {off : Fin S.rank → ℕ} (h : off = fun _ => 0) (inb : ∀ a, off a + S.size a ≤ S.size a)
    (p0 : (Rect.unit off S.size inb).shape.Idx → Elt F e) (L : List (View.Piece (Elt F) S e)) (y : S.Idx) :
    ∃ pc ∈ ((⟨Rect.unit off S.size inb, p0⟩ : View.Piece (Elt F) S e) :: L), y ∈ pc.1.set :=
  ⟨_, List.mem_cons_self .., View.mem_set_unit_zero h inb y⟩

/-! ## The body's run, case by case, on any whole staging memrefs -/

set_option maxHeartbeats 4000000 in
/-- The first point: the two scratch rows, found at anything, are started from zero and end at this block's column
    sums and the column sums of its squares; the two statistics windows' buffers are untouched. -/
theorem run0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S64x256 .bf16) (harg7 : arg7.IsWhole) (arg8 : Memref sig .tc .vmem S64x256 .bf16) (harg8 : arg8.IsWhole) (arg9 : Memref sig .tc .vmem S5000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : cond0_0 i) (hc1 : ¬cond0_1 i)
    (x0 : Vec F S5000x128 .f32) (x1 : Vec F S5000x128 .f32) (x2 : Vec F S5000x64 .f32) (x3 : Vec F S5000x64 .f32) (x4 : Vec F S128x256 .bf16) (x5 : Vec F S128x256 .bf16) (x6 : Vec F S64x256 .bf16) (x7 : Vec F S64x256 .bf16) (xi9 xi10 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay5 x0 x1 x2 x3 x4 x5 x6 x7) ∗ owns (c : Thread nD τ) arg10 fullShare xi9 ∗ owns (c : Thread nD τ) arg11 fullShare xi10 ∗ owns (c : Thread nD τ) arg12 fullShare (k0_pay1 (k0_pay3 (F := F)) (k0_pay6 x0 x1 x2 x3 x4 x5 x6 x7)) ∗ owns (c : Thread nD τ) arg13 fullShare (k0_pay2 (k0_pay5 x0 x1 x2 x3 x4 x5 x6 x7) (k0_pay4 (F := F)))) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11 arg12 harg12 arg13 harg13) K := by
  simp only [cc0__stage1_kernel_eq_skeleton]; unfold cc0__stage1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg10.eq_unread hf9; obtain rfl := harg11.eq_unread hf10
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    sl_unfold_run_names
    rw [View.read_writes_eq_canon _ _ _ (coverR0 hzR0 _ _ _), View.canon_unit_zero hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  isplitl [H9]
  · iexists _; isplitr; · ipureintro; exact harg10.read_unread _
    iexact H9
  isplitl [H10]
  · iexists _; isplitr; · ipureintro; exact harg11.read_unread _
    iexact H10
  isplitl [HS0]
  · iexists _; isplitr
    swap; · iexact HS0
    ipureintro
    sl_unfold_run_names
    rw [View.read_writes_eq_canon _ _ _ (coverR0 hzR0 _ _ _)]
    rw [View.canon_cons_unit_zero (S := S1x256) hzR0, View.readCov_unit_zero (S := S1x256) _ hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  iexists _; isplitr
  swap; · iexact HS1
  ipureintro
  sl_unfold_run_names
  rw [View.read_writes_eq_canon _ _ _ (coverR0 hzR0 _ _ _)]
  rw [View.canon_cons_unit_zero (S := S1x256) hzR0, View.readCov_unit_zero (S := S1x256) _ hzR0]
  simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]

set_option maxHeartbeats 4000000 in
/-- A point that is neither first nor last: the pre-activation window's buffer ends at the point's block, the two
    scratch rows at the running sums with this block's added, the two statistics windows' buffers untouched. -/
theorem run0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S64x256 .bf16) (harg7 : arg7.IsWhole) (arg8 : Memref sig .tc .vmem S64x256 .bf16) (harg8 : arg8.IsWhole) (arg9 : Memref sig .tc .vmem S5000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬cond0_0 i) (hc1 : ¬cond0_1 i)
    (x0 : Vec F S5000x128 .f32) (x1 : Vec F S5000x128 .f32) (x2 : Vec F S5000x64 .f32) (x3 : Vec F S5000x64 .f32) (x4 : Vec F S128x256 .bf16) (x5 : Vec F S128x256 .bf16) (x6 : Vec F S64x256 .bf16) (x7 : Vec F S64x256 .bf16) (xi9 xi10 s0 s1 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ owns (c : Thread nD τ) arg12 fullShare s0 ∗ owns (c : Thread nD τ) arg13 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay5 x0 x1 x2 x3 x4 x5 x6 x7) ∗ owns (c : Thread nD τ) arg10 fullShare xi9 ∗ owns (c : Thread nD τ) arg11 fullShare xi10 ∗ owns (c : Thread nD τ) arg12 fullShare (k0_pay1 s0 (k0_pay6 x0 x1 x2 x3 x4 x5 x6 x7)) ∗ owns (c : Thread nD τ) arg13 fullShare (k0_pay2 (k0_pay5 x0 x1 x2 x3 x4 x5 x6 x7) s1)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11 arg12 harg12 arg13 harg13) K := by
  simp only [cc0__stage1_kernel_eq_skeleton]; unfold cc0__stage1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg10.eq_unread hf9; obtain rfl := harg11.eq_unread hf10; obtain rfl := harg12.eq_unread hfs0; obtain rfl := harg13.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    sl_unfold_run_names
    rw [View.read_writes_eq_canon _ _ _ (coverR0 hzR0 _ _ _), View.canon_unit_zero hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  isplitl [H9]
  · iexists _; isplitr; · ipureintro; exact harg10.read_unread _
    iexact H9
  isplitl [H10]
  · iexists _; isplitr; · ipureintro; exact harg11.read_unread _
    iexact H10
  isplitl [HS0]
  · iexists _; isplitr
    swap; · iexact HS0
    ipureintro
    sl_unfold_run_names
    rw [View.read_writes_eq_canon _ _ _ (coverR0 hzR0 _ _ _)]
    rw [View.canon_unit_zero (S := S1x256) hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  iexists _; isplitr
  swap; · iexact HS1
  ipureintro
  sl_unfold_run_names
  rw [View.read_writes_eq_canon _ _ _ (coverR0 hzR0 _ _ _)]
  rw [View.canon_unit_zero (S := S1x256) hzR0]
  simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]

set_option maxHeartbeats 4000000 in
/-- The last point: as at a middle point, and then the two scratch rows are copied into the two statistics windows'
    buffers, found at anything. -/
theorem run0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S64x256 .bf16) (harg7 : arg7.IsWhole) (arg8 : Memref sig .tc .vmem S64x256 .bf16) (harg8 : arg8.IsWhole) (arg9 : Memref sig .tc .vmem S5000x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬cond0_0 i) (hc1 : cond0_1 i)
    (x0 : Vec F S5000x128 .f32) (x1 : Vec F S5000x128 .f32) (x2 : Vec F S5000x64 .f32) (x3 : Vec F S5000x64 .f32) (x4 : Vec F S128x256 .bf16) (x5 : Vec F S128x256 .bf16) (x6 : Vec F S64x256 .bf16) (x7 : Vec F S64x256 .bf16) (s0 s1 : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s0 ∗ owns (c : Thread nD τ) arg13 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay5 x0 x1 x2 x3 x4 x5 x6 x7) ∗ owns (c : Thread nD τ) arg10 fullShare (k0_pay1 s0 (k0_pay6 x0 x1 x2 x3 x4 x5 x6 x7)) ∗ owns (c : Thread nD τ) arg11 fullShare (k0_pay2 (k0_pay5 x0 x1 x2 x3 x4 x5 x6 x7) s1) ∗ owns (c : Thread nD τ) arg12 fullShare (k0_pay1 s0 (k0_pay6 x0 x1 x2 x3 x4 x5 x6 x7)) ∗ owns (c : Thread nD τ) arg13 fullShare (k0_pay2 (k0_pay5 x0 x1 x2 x3 x4 x5 x6 x7) s1)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11 arg12 harg12 arg13 harg13) K := by
  simp only [cc0__stage1_kernel_eq_skeleton]; unfold cc0__stage1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg12.eq_unread hfs0; obtain rfl := harg13.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    sl_unfold_run_names
    rw [View.read_writes_eq_canon _ _ _ (coverR0 hzR0 _ _ _), View.canon_unit_zero hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  isplitl [H9]
  · iexists _; isplitr
    swap; · iexact H9
    ipureintro
    sl_unfold_run_names
    rw [View.read_writes_eq_canon _ _ _ (coverR0 hzR0 _ _ _)]
    rw [View.canon_unit_zero (S := S1x256) hzR0, View.readCov_unit_zero (S := S1x256) _ hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  isplitl [H10]
  · iexists _; isplitr
    swap; · iexact H10
    ipureintro
    sl_unfold_run_names
    rw [View.read_writes_eq_canon _ _ _ (coverR0 hzR0 _ _ _)]
    rw [View.canon_unit_zero (S := S1x256) hzR0, View.readCov_unit_zero (S := S1x256) _ hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  isplitl [HS0]
  · iexists _; isplitr
    swap; · iexact HS0
    ipureintro
    sl_unfold_run_names
    rw [View.read_writes_eq_canon _ _ _ (coverR0 hzR0 _ _ _)]
    rw [View.canon_unit_zero (S := S1x256) hzR0]
    simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]
  iexists _; isplitr
  swap; · iexact HS1
  ipureintro
  sl_unfold_run_names
  rw [View.read_writes_eq_canon _ _ _ (coverR0 hzR0 _ _ _)]
  rw [View.canon_unit_zero (S := S1x256) hzR0]
  simp only [View.readAt_eq_ld, Memref.IsWhole.read_unread, View.ld_unit_zero (S := S5000x128) hzR0, View.ld_unit_zero (S := S5000x64) hzR0, View.ld_unit_zero (S := S128x256) hzR0, View.ld_unit_zero (S := S64x256) hzR0, View.ld_unit_zero (S := S1x256) hzR0, View.ld_unit_zero (S := S5000x256) hzR0]

/-! ## The invariant, point by point -/

section
variable (V : (c : Dev nD) → (b : Ref sig .tc) → Buf (Elt F) ((c : Thread nD τ).loc b))

theorem PhiS0_zero (c : Dev nD) (n : ℕ) (h : n ≤ cfg0.N) (hz : n = 0) : PhiS0 V c n h = Pipeline.ΦA spec0 c := by
  subst hz; rfl

/-- After point `n`: the two scratch rows at that point's running sums. -/
theorem PhiS0_succ (c : Dev nD) (n : ℕ) (hn : n < cfg0.N) :
    PhiS0 V c (n + 1) hn = iprop(owns (c : Thread nD τ) scM0_0 fullShare (acc0 V c n hn).1 ∗ owns (c : Thread nD τ) scM0_1 fullShare (acc0 V c n hn).2
      ∗ Pipeline.scopedRestBut (Ix := Unit) (Name := ℕ) (U := UR sig nD τ) (Lvl := ℕ) (Val := Elt F) spec0 c [cc0_scratch0, cc0_scratch1] ∗ (∃ r, prngReg c r)) := rfl

/-- Before a point that is not the first: the two scratch rows at what the point before left. -/
theorem PhiS0_pos (c : Dev nD) (n : ℕ) (h : n ≤ cfg0.N) (hz : n ≠ 0) :
    PhiS0 V c n h = iprop(owns (c : Thread nD τ) scM0_0 fullShare (acc0 V c (n - 1) (by omega)).1 ∗ owns (c : Thread nD τ) scM0_1 fullShare (acc0 V c (n - 1) (by omega)).2
      ∗ Pipeline.scopedRestBut (Ix := Unit) (Name := ℕ) (U := UR sig nD τ) (Lvl := ℕ) (Val := Elt F) spec0 c [cc0_scratch0, cc0_scratch1] ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The running sums after the first point: started from zero. -/
theorem acc0_first (c : Dev nD) (t : Fin cfg0.N) (h : t.val = 0) :
    acc0 V c t.val t.isLt = (k0_pay1 (k0_pay3 (F := F)) (colSum0 V c t), k0_pay2 (preBlk0 V c t) (k0_pay4 (F := F))) := by
  obtain ⟨n, hn⟩ := t
  cases n with
  | zero => rfl
  | succ n => exact absurd h (Nat.succ_ne_zero n)

/-- The running sums after a later point: the point before's, with this point's block added. -/
theorem acc0_next (c : Dev nD) (t : Fin cfg0.N) (h : t.val ≠ 0) :
    acc0 V c t.val t.isLt = (k0_pay1 (acc0 V c (t.val - 1) (Nat.lt_of_le_of_lt (Nat.sub_le _ _) t.isLt)).1 (colSum0 V c t),
      k0_pay2 (preBlk0 V c t) (acc0 V c (t.val - 1) (Nat.lt_of_le_of_lt (Nat.sub_le _ _) t.isLt)).2) := by
  obtain ⟨n, hn⟩ := t
  cases n with
  | zero => exact absurd rfl h
  | succ n => rfl

/-- A window live at a point is left at what the proof data name. -/
theorem leavesExact_live0 (c : Dev nD) (w : Fin cfg0.W) (t : Fin cfg0.N) (hi : cfg0.idle w (grid0.coords t) = false) :
    (dat0 V c).leavesExact w t = owns (c : Thread nD τ) ((cfg0.win w).stage (cfg0.slots t w)) fullShare ((dat0 V c).after w t) := by
  unfold Dat.leavesExact; rw [hi]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 4000000 in
/-- The body at any point. The inputs' buffers hold their blocks; the point is the first, the last, or neither, and
    the matching run applies: the invariant hands it the two scratch rows (at anything at the first point, at the
    running sums afterwards) and takes them back at this point's running sums; off the last point the two statistics
    windows' buffers pass through as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  rw [leavesExact_live0 V c 0 t (liveAt0_0 t), leavesExact_live0 V c 1 t (liveAt0_1 t), leavesExact_live0 V c 2 t (liveAt0_2 t), leavesExact_live0 V c 3 t (liveAt0_3 t), leavesExact_live0 V c 4 t (liveAt0_4 t), leavesExact_live0 V c 5 t (liveAt0_5 t), leavesExact_live0 V c 6 t (liveAt0_6 t), leavesExact_live0 V c 7 t (liveAt0_7 t), leavesExact_live0 V c 8 t (liveAt0_8 t)]
  rw [after0_0, after0_1, after0_2, after0_3, after0_4, after0_5, after0_6, after0_7, after0_8]
  have hN : t.val < 100 := lt_of_lt_of_eq t.isLt (show cfg0.N = 100 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 9 t (idleAt0_9 t hc1) (noFlush0_9 t hc1), Dat.leavesExact_idle (dat0 V c) 10 t (idleAt0_10 t hc1) (noFlush0_10 t hc1)]
    rw [acc0_first V c t h0]
    dsimp only
    unfold colSum0 preBlk0
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run0_A c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) ((dat0 V c).before 9 t d9) ((dat0 V c).before 10 t d10) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · by_cases h1 : t.val = 99
    · have hc0 : ¬cond0_0 (grid0.coords t) := fun h => h0 ((hcond0_0 t).mp h)
      have hc1 : cond0_1 (grid0.coords t) := (hcond0_1 t).mpr h1
      rw [leavesExact_live0 V c 9 t (liveAt0_9 t hc1), leavesExact_live0 V c 10 t (liveAt0_10 t hc1), after0_9, after0_10]
      rw [acc0_next V c t h0]
      dsimp only
      unfold colSum0 preBlk0
      rw [PhiS0_castSucc V c t, PhiS0_pos V c _ _ h0]
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run0_C c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 9 t (idleAt0_9 t hc1) (noFlush0_9 t hc1), Dat.leavesExact_idle (dat0 V c) 10 t (idleAt0_10 t hc1) (noFlush0_10 t hc1)]
      rw [acc0_next V c t h0]
      dsimp only
      unfold colSum0 preBlk0
      rw [PhiS0_castSucc V c t, PhiS0_pos V c _ _ h0]
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run0_B c (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) ((dat0 V c).before 9 t d9) ((dat0 V c).before 10 t d10) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

end

/-! ## The three facts the region's run takes -/

/-- The body obligation, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body0 V c t

/-- What the launch hands the region is the invariant before the first point. -/
theorem hin0 (V : (c : Dev nD) → (b : Ref sig .tc) → Buf (Elt F) ((c : Thread nD τ).loc b)) (c : Dev nD) :
    (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the two scratch rows' contents are forgotten. -/
theorem hout0 (V : (c : Dev nD) → (b : Ref sig .tc) → Buf (Elt F) ((c : Thread nD τ).loc b)) (c : Dev nD) :
    (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 100 := N_0; omega), PhiA0_eq]
  iintro ⟨HS0, HS1, Hrest, Hg⟩
  isplitl [HS0 HS1 Hrest]
  · isplitl [HS0 HS1]
    · isplitl [HS0]
      · iexists _; iexact HS0
      · iexists _; iexact HS1
    · iexact Hrest
  · iexact Hg

end Cert.Kernel.Hand

end
-- ==== Proof.Bits.Region1Body.lean ====
/- Stage 2 of the edge model as a pipeline: the body at every grid point keeps the region's invariant.
   The body reads a 5000-row block of the first pre-activation, maps it affinely, rectifies, multiplies by the
   second weight matrix and writes the block; two scratch rows accumulate the written block's column sums and the
   column sums of its squares. Three cases over the grid: the first point resets the rows before accumulating,
   an inner point accumulates only, the last point accumulates and copies the rows into the two statistics windows. -/
import proofs.«132934_j50371376447949_1_alg».proof.Proof.Bits.Region1Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The reset branch's condition, from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The copy-out branch's condition. -/
abbrev cond1_1 (i : grid1.Coords) : Prop := k1_cond2 i = 1#1
/-- It holds at the last point only. -/
theorem hcond1_1 : ∀ t : Fin cfg1.N, cond1_1 (grid1.coords t) ↔ t.val = 99 :=
  (by decide +kernel : ∀ t : Fin grid1.N, cond1_1 (grid1.coords t) ↔ t.val = 99)

/-- The zero offsets of a whole-row access, however spelt. -/
theorem hz2 : (![0, 0] : Fin 2 → Nat) = fun _ => 0 := funext fun a => by fin_cases a <;> rfl

/-- A whole-shape store, made last, leaves its payload: whatever the buffer held and whatever was stored before. -/
theorem read_writes_unit_last {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero h inb y⟩),
    View.canon_cons_unit_zero h]

/-! ## The body's run, case by case, on any whole memrefs -/

set_option maxHeartbeats 1000000 in
/-- The first point: each scratch row is reset, the block is written, each row gains the block's column sums. -/
theorem run1_first (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S5000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc0 : cond1_0 i) (hc1 : ¬cond1_1 i) (x0 : Vec F S5000x256 .f32) (x1 : Vec F S1x256 .f32) (x2 : Vec F S1x256 .f32) (x3 : Vec F S256x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay4 x0 x1 x2 x3) ∗ owns (c : Thread nD τ) arg8 fullShare (k1_pay5 x0 x1 x2 x3 (k1_pay2 (F := F))) ∗ owns (c : Thread nD τ) arg9 fullShare (k1_pay1 (k1_pay6 x0 x1 x2 x3 (k1_pay3 (F := F))))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9) K := by
  simp only [cc1__stage2_kernel_eq_skeleton]; unfold cc1__stage2_kernel_skel
  simp only [k1_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf1; obtain rfl := harg2.eq_unread hf2; obtain rfl := harg3.eq_unread hf3; obtain rfl := harg4.eq_unread hf4
  sl_exec (disch := first | exact hc0 | exact hc1)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_unit_last (S := S5000x256) arg5.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  isplitl [H8]
  · iexists _; isplitr
    swap; · iexact H8
    ipureintro
    refine (read_writes_unit_last (S := S1x256) arg8.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  iexists _; isplitr
  swap; · iexact H9
  ipureintro
  refine (read_writes_unit_last (S := S1x256) arg9.view _ hz2 _ _ _).trans ?_
  simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]

set_option maxHeartbeats 1000000 in
/-- An inner point: the block is written, each scratch row gains the block's column sums. -/
theorem run1_mid (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S5000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc0 : ¬cond1_0 i) (hc1 : ¬cond1_1 i) (x0 : Vec F S5000x256 .f32) (x1 : Vec F S1x256 .f32) (x2 : Vec F S1x256 .f32) (x3 : Vec F S256x256 .bf16) (xs0 : Vec F S1x256 .f32) (xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay4 x0 x1 x2 x3) ∗ owns (c : Thread nD τ) arg8 fullShare (k1_pay5 x0 x1 x2 x3 xs0) ∗ owns (c : Thread nD τ) arg9 fullShare (k1_pay1 (k1_pay6 x0 x1 x2 x3 xs1))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9) K := by
  simp only [cc1__stage2_kernel_eq_skeleton]; unfold cc1__stage2_kernel_skel
  simp only [k1_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_unit_last (S := S5000x256) arg5.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  isplitl [H8]
  · iexists _; isplitr
    swap; · iexact H8
    ipureintro
    refine (read_writes_unit_last (S := S1x256) arg8.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  iexists _; isplitr
  swap; · iexact H9
  ipureintro
  refine (read_writes_unit_last (S := S1x256) arg9.view _ hz2 _ _ _).trans ?_
  simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]

set_option maxHeartbeats 1000000 in
/-- The last point: the block is written, each scratch row gains the block's column sums and is copied into its
    statistics window. -/
theorem run1_last (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S5000x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
    (hc0 : ¬cond1_0 i) (hc1 : cond1_1 i) (x0 : Vec F S5000x256 .f32) (x1 : Vec F S1x256 .f32) (x2 : Vec F S1x256 .f32) (x3 : Vec F S256x256 .bf16) (xs0 : Vec F S1x256 .f32) (xs1 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay4 x0 x1 x2 x3) ∗ owns (c : Thread nD τ) arg6 fullShare (k1_pay5 x0 x1 x2 x3 xs0) ∗ owns (c : Thread nD τ) arg7 fullShare (k1_pay1 (k1_pay6 x0 x1 x2 x3 xs1))
            ∗ owns (c : Thread nD τ) arg8 fullShare (k1_pay5 x0 x1 x2 x3 xs0) ∗ owns (c : Thread nD τ) arg9 fullShare (k1_pay1 (k1_pay6 x0 x1 x2 x3 xs1))) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9) K := by
  simp only [cc1__stage2_kernel_eq_skeleton]; unfold cc1__stage2_kernel_skel
  simp only [k1_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf1; obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  sl_unfold_words
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_unit_last (S := S5000x256) arg5.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  isplitl [H6]
  · iexists _; isplitr
    swap; · iexact H6
    ipureintro
    refine (read_writes_unit_last (S := S1x256) arg6.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  isplitl [H7]
  · iexists _; isplitr
    swap; · iexact H7
    ipureintro
    refine (read_writes_unit_last (S := S1x256) arg7.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  isplitl [H8]
  · iexists _; isplitr
    swap; · iexact H8
    ipureintro
    refine (read_writes_unit_last (S := S1x256) arg8.view _ hz2 _ _ _).trans ?_
    simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]
  iexists _; isplitr
  swap; · iexact H9
  ipureintro
  refine (read_writes_unit_last (S := S1x256) arg9.view _ hz2 _ _ _).trans ?_
  simp only [View.readAt_eq_ld, harg1.read_unread, harg2.read_unread, harg3.read_unread, harg4.read_unread, harg8.read_unread, harg9.read_unread, View.ld_unit_zero (S := S5000x256) hz2, View.ld_unit_zero (S := S1x256) hz2, View.ld_unit_zero (S := S256x256) hz2, View.readCov_unit_zero (S := S1x256) _ hz2]

section
variable (V : (c : Dev nD) → (b : Ref sig .tc) → Buf (Elt F) ((c : Thread nD τ).loc b))

/-! ## Where the windows are idle -/

/-- The four inputs and the block output are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- The two statistics windows are idle, and not written back, away from the last point; live at it. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The invariant, point by point -/

theorem PhiS1_zero (c : Dev nD) (n : ℕ) (h : n ≤ cfg1.N) (hz : n = 0) : PhiS1 V c n h = Pipeline.ΦA spec1 c := by
  subst hz; rfl

/-- After point `n`: the two scratch rows at that point's running sums. -/
theorem PhiS1_succ (c : Dev nD) (n : ℕ) (hn : n < cfg1.N) :
    PhiS1 V c (n + 1) hn = iprop(owns (c : Thread nD τ) scM1_0 fullShare (acc1 V c n hn).1 ∗ owns (c : Thread nD τ) scM1_1 fullShare (acc1 V c n hn).2
      ∗ Pipeline.scopedRestBut (Ix := Unit) (Name := ℕ) (U := UR sig nD τ) (Lvl := ℕ) (Val := Elt F) spec1 c [cc1_scratch0, cc1_scratch1] ∗ (∃ r, prngReg c r)) := rfl

/-- Before a point that is not the first: the rows at what the point before left. -/
theorem PhiS1_pos (c : Dev nD) (n : ℕ) (h : n ≤ cfg1.N) (hz : n ≠ 0) :
    PhiS1 V c n h = iprop(owns (c : Thread nD τ) scM1_0 fullShare (acc1 V c (n - 1) (by omega)).1 ∗ owns (c : Thread nD τ) scM1_1 fullShare (acc1 V c (n - 1) (by omega)).2
      ∗ Pipeline.scopedRestBut (Ix := Unit) (Name := ℕ) (U := UR sig nD τ) (Lvl := ℕ) (Val := Elt F) spec1 c [cc1_scratch0, cc1_scratch1] ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region, with the two scratch rows opened as whole memrefs at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The running sums, unfolded at a point -/

theorem acc1_fst_first (c : Dev nD) (t : Fin cfg1.N) (h0 : t.val = 0) :
    (acc1 V c t.val t.isLt).1 = k1_pay5 (iblk1 V c 0 t) (iblk1 V c 1 t) (iblk1 V c 2 t) (iblk1 V c 3 t) (k1_pay2 (F := F)) := by
  obtain ⟨n, hn⟩ := t
  cases n with
  | zero => rfl
  | succ n => exact absurd h0 (Nat.succ_ne_zero n)
theorem acc1_snd_first (c : Dev nD) (t : Fin cfg1.N) (h0 : t.val = 0) :
    (acc1 V c t.val t.isLt).2 = k1_pay1 (k1_pay6 (iblk1 V c 0 t) (iblk1 V c 1 t) (iblk1 V c 2 t) (iblk1 V c 3 t) (k1_pay3 (F := F))) := by
  obtain ⟨n, hn⟩ := t
  cases n with
  | zero => rfl
  | succ n => exact absurd h0 (Nat.succ_ne_zero n)
theorem acc1_fst_later (c : Dev nD) (t : Fin cfg1.N) (h0 : t.val ≠ 0) :
    (acc1 V c t.val t.isLt).1 = k1_pay5 (iblk1 V c 0 t) (iblk1 V c 1 t) (iblk1 V c 2 t) (iblk1 V c 3 t)
      (acc1 V c (t.val - 1) (Nat.lt_of_le_of_lt (Nat.sub_le _ _) t.isLt)).1 := by
  obtain ⟨n, hn⟩ := t
  cases n with
  | zero => exact absurd rfl h0
  | succ n => rfl
theorem acc1_snd_later (c : Dev nD) (t : Fin cfg1.N) (h0 : t.val ≠ 0) :
    (acc1 V c t.val t.isLt).2 = k1_pay1 (k1_pay6 (iblk1 V c 0 t) (iblk1 V c 1 t) (iblk1 V c 2 t) (iblk1 V c 3 t)
      (acc1 V c (t.val - 1) (Nat.lt_of_le_of_lt (Nat.sub_le _ _) t.isLt)).2) := by
  obtain ⟨n, hn⟩ := t
  cases n with
  | zero => exact absurd rfl h0
  | succ n => rfl

/-! ## The inputs' staging buffers hold their blocks at every point -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- Input window 0: fetched or not, the block index has not moved since its fetch. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input window 1: fetched or not, the block index has not moved since its fetch. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input window 2: fetched or not, the block index has not moved since its fetch. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input window 3: fetched or not, the block index has not moved since its fetch. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The inputs' memrefs hold their blocks; the closed forms of the two conditions say which
    case the point is in; the invariant hands the body the two scratch rows (at anything before the first point, at
    the running sums afterwards) and takes them back at this point's running sums; the statistics windows pass
    untouched except at the last point, where each receives its row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  unfold preBlk1
  have hN : t.val < 100 := lt_of_lt_of_eq t.isLt (show cfg1.N = 100 from N_1)
  by_cases h0 : t.val = 0
  · have h1 : ¬t.val = 99 := by omega
    rw [Dat.leavesExact_idle (dat1 V c) 5 t (idleAt1_5 t (fun h => h1 ((hcond1_1 t).mp h))) (noFlush1_5 t (fun h => h1 ((hcond1_1 t).mp h)))]
    rw [Dat.leavesExact_idle (dat1 V c) 6 t (idleAt1_6 t (fun h => h1 ((hcond1_1 t).mp h))) (noFlush1_6 t (fun h => h1 ((hcond1_1 t).mp h)))]
    rw [acc1_fst_first V c t h0, acc1_snd_first V c t h0]
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, H5, H6⟩
    iapply (run1_first c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)  Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h1 : t.val = 99
    · rw [show (dat1 V c).leavesExact 5 t = owns (c : Thread nD τ) (st1_5 t) fullShare ((dat1 V c).after 5 t) from by
        unfold Dat.leavesExact; rw [liveAt1_5 t ((hcond1_1 t).mpr h1)], after1_5]
      rw [show (dat1 V c).leavesExact 6 t = owns (c : Thread nD τ) (st1_6 t) fullShare ((dat1 V c).after 6 t) from by
        unfold Dat.leavesExact; rw [liveAt1_6 t ((hcond1_1 t).mpr h1)], after1_6]
      rw [acc1_fst_later V c t h0, acc1_snd_later V c t h0]
      rw [PhiS1_castSucc V c t, PhiS1_pos V c _ _ h0]
      iintro ⟨⟨HS0, HS1, Hrest, Hg⟩, Ho, ⟨%d0, H0⟩, ⟨%d1, H1⟩, ⟨%d2, H2⟩, ⟨%d3, H3⟩, ⟨%d4, H4⟩, ⟨%d5, H5⟩, ⟨%d6, H6⟩⟩
      iapply (run1_last c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [acc1_fst_later V c t h0, acc1_snd_later V c t h0]
      rw [PhiS1_castSucc V c t, PhiS1_pos V c _ _ h0]
      iintro ⟨⟨HS0, HS1, Hrest, Hg⟩, Ho, ⟨%d0, H0⟩, ⟨%d1, H1⟩, ⟨%d2, H2⟩, ⟨%d3, H3⟩, ⟨%d4, H4⟩, H5, H6⟩
      iapply (run1_mid c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (acc1 V c (t.val - 1) (Nat.lt_of_le_of_lt (Nat.sub_le _ _) t.isLt)).1 (acc1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's resources back: the rows' named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 100 := N_1; omega), PhiA1_eq]
  iintro ⟨HS0, HS1, Hrest, Hg⟩
  isplitl [HS0 HS1 Hrest]
  · isplitl [HS0 HS1]
    · isplitl [HS0]; · iexists _; iexact HS0
      iexists _; iexact HS1
    iexact Hrest
  iexact Hg

end

end Cert.Kernel.Hand

end
-- ==== Proof.Bits.Region2Body.lean ====
/- Stage 3 of the edge model, the body at one grid point: the block of rows of the first input is scaled
   column by column by the second input's row and shifted by the third input's row, and the result is
   stored over the whole output block. Entry (r, j) of the output block depends only on entry (r, j) of
   the row block and on entry j of the two rows; nothing is carried between points. -/
import proofs.«132934_j50371376447949_1_alg».proof.Proof.Bits.Region2Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Each input's staging buffer holds its block at every point -/

/-- The row block (input 0) is fetched at every point, so its staging buffer holds the point's block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The scale row (input 1) is fetched once; its block index never moves, so the buffer holds the same row at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The shift row (input 2): the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's accesses: every load and the one store go through the whole buffer -/

/-- The whole 5000×256 block as a rectangle at zero offsets. -/
abbrev rBlk2 : Rect S5000x256 := Rect.unit (s := S5000x256) ![0, 0] S5000x256.size inb_S5000x256_S5000x256_0_0
/-- The whole 1×256 row as a rectangle at zero offsets. -/
abbrev rRow2 : Rect S1x256 := Rect.unit (s := S1x256) ![0, 0] S1x256.size inb_S1x256_S1x256_0_0

theorem hzBlk2 : (![0, 0] : Fin S5000x256.rank → Nat) = fun _ => 0 := funext fun a => by fin_cases a <;> rfl
theorem hzRow2 : (![0, 0] : Fin S1x256.rank → Nat) = fun _ => 0 := funext fun a => by fin_cases a <;> rfl

/-- The one store covers the output block. -/
theorem cover2_3 (p0 : Vec F S5000x256 .f32) (y : S5000x256.Idx) :
    ∃ pc ∈ ([⟨rBlk2, p0⟩] : List (View.Piece (Elt F) S5000x256 .f32)), y ∈ pc.1.set :=
  View.cover_of_tiled [⟨rBlk2, p0⟩] S5000x256.size (by rfl) y

/-- What one store over the whole block, of the affine map of whole-buffer loads, leaves: the affine map of the buffers. -/
theorem stored2_3 (x0 : Vec F S5000x256 .f32) (x1 : Vec F S1x256 .f32) (x2 : Vec F S1x256 .f32) :
    View.canon [(⟨rBlk2, k2_pay1 (View.ld x0 rBlk2) (View.ld x1 rRow2) (View.ld x2 rRow2)⟩ : View.Piece (Elt F) S5000x256 .f32)]
      = k2_pay1 x0 x1 x2 := by
  rw [View.canon_unit_zero hzBlk2, View.ld_unit_zero hzBlk2, View.ld_unit_zero hzRow2, View.ld_unit_zero hzRow2]

/-! ## The body's triple -/

set_option maxHeartbeats 1000000 in
/-- The body on whole staging buffers, the three inputs' at contents x0, x1, x2 and the output's at anything, runs to
    the continuation holding the inputs' as they were and the output's at the affine map of the inputs. -/
theorem sound_kernel2 (c : Dev nD) (E : Set ℕ) (i : grid2.Coords)
    (arg1 : Memref sig .tc .vmem S5000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S5000x256 .f32) (harg4 : arg4.IsWhole)
    (x0 : Vec F S5000x256 .f32) (x1 : Vec F S1x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay1 x0 x1 x2)) -∗ K ⟨⟩))
      ⊢ wp frame (wpE (defs₀ (F := F)) Variants.none c none) E (cc2__stage3_kernel i arg1 harg1 arg2 harg2 arg3 harg3 arg4 harg4) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (cover2_3 _)).trans (stored2_3 _ _ _)

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  unfold outBlk2
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of stage 3, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.Bits.Frame.lean ====
/- The program's run with what it leaves: every weakly fair execution ends, the result array holds what the
   last stage's write-backs make of it, and every argument array holds what it held at launch. -/
import proofs.«132934_j50371376447949_1_alg».proof.Proof.Bits.Run
import proofs.«132934_j50371376447949_1_alg».proof.Proof.Bits.RunArgs
import proofs.«132934_j50371376447949_1_alg».proof.Proof.Bits.Region0Body
import proofs.«132934_j50371376447949_1_alg».proof.Proof.Bits.Region1Body
import proofs.«132934_j50371376447949_1_alg».proof.Proof.Bits.Region2Body

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped buffer of the core is among those the run's last state is read at. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_value : θ_run defs (onTc (τ := τ) (main (F := F))) ⟨m, fun _ => 0, ρ⟩ (fun r => ∀ c : Dev nD,
      r.2.mem ((c.tc : Thread nD τ).loc main_v46) = W6 m c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_unscoped main_v46 (by decide)),
      (h c _ (mem_unscoped main_arg0 (by decide))).trans (W6_main_arg0 m c),
      (h c _ (mem_unscoped main_arg1 (by decide))).trans (W6_main_arg1 m c),
      (h c _ (mem_unscoped main_arg2 (by decide))).trans (W6_main_arg2 m c),
      (h c _ (mem_unscoped main_arg3 (by decide))).trans (W6_main_arg3 m c),
      (h c _ (mem_unscoped main_arg4 (by decide))).trans (W6_main_arg4 m c),
      (h c _ (mem_unscoped main_arg5 (by decide))).trans (W6_main_arg5 m c),
      (h c _ (mem_unscoped main_arg6 (by decide))).trans (W6_main_arg6 m c),
      (h c _ (mem_unscoped main_arg7 (by decide))).trans (W6_main_arg7 m c),
      (h c _ (mem_unscoped main_arg8 (by decide))).trans (W6_main_arg8 m c),
      (h c _ (mem_unscoped main_arg9 (by decide))).trans (W6_main_arg9 m c),
      (h c _ (mem_unscoped main_arg10 (by decide))).trans (W6_main_arg10 m c)⟩)
    (run_all m ρ (fun c => body_obligation0 (V1 m) c) (fun c => hin0 (V1 m) c) (fun c => hout0 (V1 m) c)
      (fun c => body_obligation1 (V3 m) c) (fun c => hin1 (V3 m) c) (fun c => hout1 (V3 m) c) (fun c => body_obligation2 (V5 m) c))

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_value m ρ)

end Cert.Kernel.Hand

end
-- ==== Proof.Spec.lean ====
/- The edge model as two formulas over the extended reals.
   Rows are the 500000 edges; the first layer multiplies the concatenated features (source node, destination
   node, edge attribute, gathered graph feature: 128 + 128 + 64 + 64 = 384 columns) by a 384×256 matrix, the
   second multiplies the rectified, normalised result by a 256×256 matrix; each layer is followed by a batch
   normalisation over the rows, column by column.
   The one formula (suffix K) splits the first product into four partial products, takes each column's
   variance as (mean of squares) − (mean)², and applies the normalisation as one multiplication and one
   addition per entry. The other (suffix R) forms the product whole, takes the variance as the mean of the
   squared deviations, and normalises as (x − mean) · r · gamma + beta. -/
import Idealize.ShloMosaic.PureOps.Ideal
import Idealize.ShloMosaic.Lib.ValueIdx

noncomputable section

namespace Cert.Spec

open Idealize.ShloMosaic

/-- The number of rows as the programs spell it (the float 500000.0). -/
abbrev nn : EReal := Ideal.ofBits .f32 0x48F42400#32
/-- The variance offset as the programs spell it (the float nearest 1e-5). -/
abbrev eps : EReal := Ideal.ofBits .f32 0x3727C5AC#32

abbrev Mat (r c : Nat) : Type := Fin r → Fin c → EReal

/-- Column sums over all rows. -/
def colSum (x : Mat 500000 256) (j : Fin 256) : EReal := ∑ i : Fin 500000, x i j
/-- Column sums of squares over all rows. -/
def colSumSq (x : Mat 500000 256) (j : Fin 256) : EReal := ∑ i : Fin 500000, x i j * x i j

/-- Rectifier. -/
def relu (x : Mat 500000 256) : Mat 500000 256 := fun i j => max (x i j) 0
/-- Rows times a 256×256 matrix. -/
def mul256 (h : Mat 500000 256) (W : Mat 256 256) : Mat 500000 256 := fun i j => ∑ k : Fin 256, h i k * W k j

/-! ## The split form -/

/-- The first product as four partial products, added left to right. -/
def pre1K (src dest : Mat 500000 128) (edge ug : Mat 500000 64) (W1 : Mat 384 256) : Mat 500000 256 := fun i j =>
  ((∑ k : Fin 128, src i k * W1 ⟨k.val, by omega⟩ j + ∑ k : Fin 128, dest i k * W1 ⟨128 + k.val, by omega⟩ j)
    + ∑ k : Fin 64, edge i k * W1 ⟨256 + k.val, by omega⟩ j) + ∑ k : Fin 64, ug i k * W1 ⟨320 + k.val, by omega⟩ j

/-- The column mean from the column sum. -/
def meanK (s : Fin 256 → EReal) (j : Fin 256) : EReal := Ideal.div (s j) nn
/-- The per-column factor: gamma / sqrt(E[x²] − E[x]² + eps), from the column sums `s` and sums of squares `q`. -/
def scaleK (s q g : Fin 256 → EReal) (j : Fin 256) : EReal :=
  g j * Ideal.rsqrt ((Ideal.div (q j) nn - meanK s j * meanK s j) + eps)
/-- The per-column offset: beta − mean · factor. -/
def shiftK (s q g b : Fin 256 → EReal) (j : Fin 256) : EReal := b j - meanK s j * scaleK s q g j
/-- One multiplication and one addition per entry. -/
def affine (x : Mat 500000 256) (sc sh : Fin 256 → EReal) : Mat 500000 256 := fun i j => x i j * sc j + sh j
/-- Batch normalisation, split form. -/
def bnK (x : Mat 500000 256) (g b : Fin 256 → EReal) : Mat 500000 256 :=
  affine x (scaleK (colSum x) (colSumSq x) g) (shiftK (colSum x) (colSumSq x) g b)

/-- The whole model, split form. -/
def outK (src dest : Mat 500000 128) (edge ug : Mat 500000 64) (W1 : Mat 384 256) (g1 b1 : Fin 256 → EReal)
    (W2 : Mat 256 256) (g2 b2 : Fin 256 → EReal) : Mat 500000 256 :=
  bnK (mul256 (relu (bnK (pre1K src dest edge ug W1) g1 b1)) W2) g2 b2

/-! ## The whole form -/

/-- The concatenated features. -/
def concat (src dest : Mat 500000 128) (edge ug : Mat 500000 64) : Mat 500000 384 := fun i k =>
  if h0 : k.val < 128 then src i ⟨k.val, h0⟩
  else if h1 : k.val < 256 then dest i ⟨k.val - 128, by omega⟩
  else if h2 : k.val < 320 then edge i ⟨k.val - 256, by omega⟩
  else ug i ⟨k.val - 320, by omega⟩

/-- The first product, whole. -/
def pre1R (src dest : Mat 500000 128) (edge ug : Mat 500000 64) (W1 : Mat 384 256) : Mat 500000 256 := fun i j =>
  ∑ k : Fin 384, concat src dest edge ug i k * W1 k j

/-- The column mean. -/
def meanR (x : Mat 500000 256) (j : Fin 256) : EReal := Ideal.div (colSum x j) nn
/-- The column variance as the mean of squared deviations. -/
def varR (x : Mat 500000 256) (j : Fin 256) : EReal :=
  Ideal.div (∑ i : Fin 500000, (x i j - meanR x j) * (x i j - meanR x j)) nn
/-- Batch normalisation, whole form. -/
def bnR (x : Mat 500000 256) (g b : Fin 256 → EReal) : Mat 500000 256 := fun i j =>
  ((x i j - meanR x j) * Ideal.rsqrt (varR x j + eps)) * g j + b j

/-- The whole model, whole form. -/
def outR (src dest : Mat 500000 128) (edge ug : Mat 500000 64) (W1 : Mat 384 256) (g1 b1 : Fin 256 → EReal)
    (W2 : Mat 256 256) (g2 b2 : Fin 256 → EReal) : Mat 500000 256 :=
  bnR (mul256 (relu (bnR (pre1R src dest edge ug W1) g1 b1)) W2) g2 b2

/-- Every entry a real number. -/
def Fin2 {r c : Nat} (x : Mat r c) : Prop := ∀ i j, ∃ a : ℝ, x i j = (a : EReal)
def Fin1 (x : Fin 256 → EReal) : Prop := ∀ j, ∃ a : ℝ, x j = (a : EReal)

end Cert.Spec

end
-- ==== Proof.ValueDefs.lean ====
/- The names through which the stages' arrays are read at the exact instance: a two-axis array as a matrix of
   extended reals, a 1×256 array as a row, a 256-vector as a function of its index; and the matrices the three
   stages write, each as a formula of the arrays its stage finds. -/
import proofs.«132934_j50371376447949_1_alg».proof.Proof.RunDefs
import proofs.«132934_j50371376447949_1_alg».proof.Proof.Spec
import Idealize.ShloMosaic.Lib.ValueIdx
import Idealize.ShloMosaic.PureOps.Ideal

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

/-- A two-axis array of extended reals as a matrix. -/
def at2 {r k : Nat} (a : (⟨2, ![r, k]⟩ : Shape).Idx → EReal) : Spec.Mat r k := fun i j => a (ix2 i j)
/-- A 1×256 array as a row. -/
def row (a : (⟨2, ![1, 256]⟩ : Shape).Idx → EReal) : Fin 256 → EReal := fun j => a (ix2 (0 : Fin 1) j)
/-- A 256-vector as a function. -/
def vec (a : (⟨1, ![256]⟩ : Shape).Idx → EReal) : Fin 256 → EReal := fun j => a (ix1 j)

/-- The buffers' contents, at the exact instance, as a stage finds them. -/
abbrev VI : Type := (c : Dev nD) → (b : Ref sig .tc) → Buf (Elt Ideal) ((c : Thread nD τ).loc b)

/-- What stage 1 writes: the four partial products of the arrays it finds, added left to right. -/
def P1 (V : VI) (c : Dev nD) : Spec.Mat 500000 256 := fun i j =>
  ((∑ k : Fin 128, at2 (V c main_arg0) i k * at2 (V c main_v8) k j + ∑ k : Fin 128, at2 (V c main_arg1) i k * at2 (V c main_v10) k j)
    + ∑ k : Fin 64, at2 (V c main_arg2) i k * at2 (V c main_v12) k j) + ∑ k : Fin 64, at2 (V c main_v6) i k * at2 (V c main_v14) k j

/-- What stage 2 writes: the first pre-activation under the affine map it finds, rectified, times the weights it finds. -/
def P2 (V : VI) (c : Dev nD) : Spec.Mat 500000 256 :=
  Spec.mul256 (Spec.relu (Spec.affine (at2 (V c main_v16_0)) (row (V c main_v27)) (row (V c main_v30)))) (at2 (V c main_v15))

/-- What stage 3 writes: the second pre-activation under the affine map it finds. -/
def O3 (V : VI) (c : Dev nD) : Spec.Mat 500000 256 :=
  Spec.affine (at2 (V c main_v31_0)) (row (V c main_v42)) (row (V c main_v45))

end Cert.KernelIdeal.Hand

end
-- ==== Proof.BlockIdx.lean ====
/- Rows by block: the 500000 rows are 100 consecutive blocks of 5000; row 5000·t + r is row r of block t. -/
import Idealize.ShloMosaic.Lib.ValueIdx

namespace Cert.Spec

/-- Row `r` of block `t`. -/
def rowAt (t : Fin 100) (r : Fin 5000) : Fin 500000 := ⟨5000 * t.val + r.val, by omega⟩

theorem rowAt_val (t : Fin 100) (r : Fin 5000) : (rowAt t r).val = 5000 * t.val + r.val := rfl

/-- A sum over all rows is the sum over the blocks of the sums over each block's rows. -/
theorem sum_rowAt {M : Type*} [AddCommMonoid M] (f : Fin 500000 → M) :
    ∑ i : Fin 500000, f i = ∑ t : Fin 100, ∑ r : Fin 5000, f (rowAt t r) := by
  have h : ∀ p : Fin 100 × Fin 5000, f (finProdFinEquiv (m := 100) (n := 5000) p) = f (rowAt p.1 p.2) := by
    intro p
    congr 1
    apply Fin.ext
    show p.2.val + 5000 * p.1.val = 5000 * p.1.val + p.2.val
    omega
  calc ∑ i : Fin 500000, f i
      = ∑ p : Fin 100 × Fin 5000, f (finProdFinEquiv (m := 100) (n := 5000) p) :=
        (Fintype.sum_equiv (finProdFinEquiv (m := 100) (n := 5000)) _ _ (fun _ => rfl)).symm
    _ = ∑ p : Fin 100 × Fin 5000, f (rowAt p.1 p.2) := Finset.sum_congr rfl (fun p _ => h p)
    _ = ∑ t : Fin 100, ∑ r : Fin 5000, f (rowAt t r) := Fintype.sum_prod_type _

end Cert.Spec
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Region0Value.lean ====
/- Stage 1's pre-activation array after the stage, at the exact instance.
   Point t's block is rows 5000·t … 5000·t+4999: each of the four row blocks read at (r, k) is its array at row
   5000·t + r, each weight block is its whole array; entry (r, j) of the block is the four sums over the contracted
   coordinate of row entry times weight entry, added left to right — entry (5000·t + r, j) of stage 1's matrix.
   The blocks are written back at every point and tile the array (row i lies in the block of point i / 5000), so the
   array ends holding stage 1's matrix. -/
import proofs.«132934_j50371376447949_1_alg».proof.Proof.ValueDefs
import proofs.«132934_j50371376447949_1_alg».proof.Proof.BlockIdx
import proofs.«132934_j50371376447949_1_alg».proof.Proof.LibDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

/-- The index maps of stage 1, over the grid: the four row windows and the pre-activation window sit at block
    (t, 0) at point t; the four weight windows sit at block (0, 0) throughout. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## An input block at an index: rows 5000·t … 5000·t+4999 of a row array, the whole of a weight array -/

theorem iblk0_0_apply (V : VI) (c : Dev nD) (t : Fin cfg0.N) (r : Fin 5000) (k : Fin 128) :
    (iblk0 (F := Ideal) V c 0 t : S5000x128.Idx → EReal) (ix2 r k) = at2 (V c main_arg0) (Spec.rowAt (Fin.cast N_0 t) r) k := by
  have e := idx_facts0 t
  unfold iblk0
  rw [View.read_apply]
  show V c main_arg0 _ = V c main_arg0 _
  congr 1
  funext a
  apply Fin.ext
  match a with
  | ⟨0, _⟩ => show win0_0.index t (0 : Fin 2) * 5000 + 1 * r.val = 5000 * t.val + r.val; omega
  | ⟨1, _⟩ => show win0_0.index t (1 : Fin 2) * 128 + 1 * k.val = k.val; omega

theorem iblk0_1_apply (V : VI) (c : Dev nD) (t : Fin cfg0.N) (r : Fin 5000) (k : Fin 128) :
    (iblk0 (F := Ideal) V c 1 t : S5000x128.Idx → EReal) (ix2 r k) = at2 (V c main_arg1) (Spec.rowAt (Fin.cast N_0 t) r) k := by
  have e := idx_facts0 t
  unfold iblk0
  rw [View.read_apply]
  show V c main_arg1 _ = V c main_arg1 _
  congr 1
  funext a
  apply Fin.ext
  match a with
  | ⟨0, _⟩ => show win0_1.index t (0 : Fin 2) * 5000 + 1 * r.val = 5000 * t.val + r.val; omega
  | ⟨1, _⟩ => show win0_1.index t (1 : Fin 2) * 128 + 1 * k.val = k.val; omega

theorem iblk0_2_apply (V : VI) (c : Dev nD) (t : Fin cfg0.N) (r : Fin 5000) (k : Fin 64) :
    (iblk0 (F := Ideal) V c 2 t : S5000x64.Idx → EReal) (ix2 r k) = at2 (V c main_arg2) (Spec.rowAt (Fin.cast N_0 t) r) k := by
  have e := idx_facts0 t
  unfold iblk0
  rw [View.read_apply]
  show V c main_arg2 _ = V c main_arg2 _
  congr 1
  funext a
  apply Fin.ext
  match a with
  | ⟨0, _⟩ => show win0_2.index t (0 : Fin 2) * 5000 + 1 * r.val = 5000 * t.val + r.val; omega
  | ⟨1, _⟩ => show win0_2.index t (1 : Fin 2) * 64 + 1 * k.val = k.val; omega

theorem iblk0_3_apply (V : VI) (c : Dev nD) (t : Fin cfg0.N) (r : Fin 5000) (k : Fin 64) :
    (iblk0 (F := Ideal) V c 3 t : S5000x64.Idx → EReal) (ix2 r k) = at2 (V c main_v6) (Spec.rowAt (Fin.cast N_0 t) r) k := by
  have e := idx_facts0 t
  unfold iblk0
  rw [View.read_apply]
  show V c main_v6 _ = V c main_v6 _
  congr 1
  funext a
  apply Fin.ext
  match a with
  | ⟨0, _⟩ => show win0_3.index t (0 : Fin 2) * 5000 + 1 * r.val = 5000 * t.val + r.val; omega
  | ⟨1, _⟩ => show win0_3.index t (1 : Fin 2) * 64 + 1 * k.val = k.val; omega

theorem iblk0_4_apply (V : VI) (c : Dev nD) (t : Fin cfg0.N) (k : Fin 128) (j : Fin 256) :
    (iblk0 (F := Ideal) V c 4 t : S128x256.Idx → EReal) (ix2 k j) = at2 (V c main_v8) k j := by
  have e := idx_facts0 t
  unfold iblk0
  rw [View.read_apply]
  show V c main_v8 _ = V c main_v8 _
  congr 1
  funext a
  apply Fin.ext
  match a with
  | ⟨0, _⟩ => show win0_4.index t (0 : Fin 2) * 128 + 1 * k.val = k.val; omega
  | ⟨1, _⟩ => show win0_4.index t (1 : Fin 2) * 256 + 1 * j.val = j.val; omega

theorem iblk0_5_apply (V : VI) (c : Dev nD) (t : Fin cfg0.N) (k : Fin 128) (j : Fin 256) :
    (iblk0 (F := Ideal) V c 5 t : S128x256.Idx → EReal) (ix2 k j) = at2 (V c main_v10) k j := by
  have e := idx_facts0 t
  unfold iblk0
  rw [View.read_apply]
  show V c main_v10 _ = V c main_v10 _
  congr 1
  funext a
  apply Fin.ext
  match a with
  | ⟨0, _⟩ => show win0_5.index t (0 : Fin 2) * 128 + 1 * k.val = k.val; omega
  | ⟨1, _⟩ => show win0_5.index t (1 : Fin 2) * 256 + 1 * j.val = j.val; omega

theorem iblk0_6_apply (V : VI) (c : Dev nD) (t : Fin cfg0.N) (k : Fin 64) (j : Fin 256) :
    (iblk0 (F := Ideal) V c 6 t : S64x256.Idx → EReal) (ix2 k j) = at2 (V c main_v12) k j := by
  have e := idx_facts0 t
  unfold iblk0
  rw [View.read_apply]
  show V c main_v12 _ = V c main_v12 _
  congr 1
  funext a
  apply Fin.ext
  match a with
  | ⟨0, _⟩ => show win0_6.index t (0 : Fin 2) * 64 + 1 * k.val = k.val; omega
  | ⟨1, _⟩ => show win0_6.index t (1 : Fin 2) * 256 + 1 * j.val = j.val; omega

theorem iblk0_7_apply (V : VI) (c : Dev nD) (t : Fin cfg0.N) (k : Fin 64) (j : Fin 256) :
    (iblk0 (F := Ideal) V c 7 t : S64x256.Idx → EReal) (ix2 k j) = at2 (V c main_v14) k j := by
  have e := idx_facts0 t
  unfold iblk0
  rw [View.read_apply]
  show V c main_v14 _ = V c main_v14 _
  congr 1
  funext a
  apply Fin.ext
  match a with
  | ⟨0, _⟩ => show win0_7.index t (0 : Fin 2) * 64 + 1 * k.val = k.val; omega
  | ⟨1, _⟩ => show win0_7.index t (1 : Fin 2) * 256 + 1 * j.val = j.val; omega

/-! ## The block's formula at an index -/

/-- Entry (r, j) of the pre-activation block of any eight input blocks: row r of each row block against column j
    of its weight block, the four products added left to right (the narrowing of the row blocks is exact here). -/
theorem pay5_apply (x0 x1 : Vec Ideal S5000x128 .f32) (x2 x3 : Vec Ideal S5000x64 .f32)
    (w0 w1 : Vec Ideal S128x256 .bf16) (w2 w3 : Vec Ideal S64x256 .bf16) (r : Fin 5000) (j : Fin 256) :
    (k0_pay5 (F := Ideal) x0 x1 x2 x3 w0 w1 w2 w3 : S5000x256.Idx → EReal) (ix2 r j)
      = ((∑ k : Fin 128, (x0 (ix2 r k) : EReal) * (w0 (ix2 k j) : EReal) + ∑ k : Fin 128, (x1 (ix2 r k) : EReal) * (w1 (ix2 k j) : EReal))
          + ∑ k : Fin 64, (x2 (ix2 r k) : EReal) * (w2 (ix2 k j) : EReal)) + ∑ k : Fin 64, (x3 (ix2 r k) : EReal) * (w3 (ix2 k j) : EReal) := by
  unfold k0_pay5
  simp only [addf_apply, shapeCast_self]
  rw [Cert.LibDot.matmul_10_zero_apply dot_S5000x128_S128x256_S5000x256_1_0_0_1_n_n rfl rfl rfl rfl rfl rfl,
    Cert.LibDot.matmul_10_zero_apply dot_S5000x128_S128x256_S5000x256_1_0_0_1_n_n rfl rfl rfl rfl rfl rfl,
    Cert.LibDot.matmul_10_zero_apply dot_S5000x64_S64x256_S5000x256_1_0_0_1_n_n rfl rfl rfl rfl rfl rfl,
    Cert.LibDot.matmul_10_zero_apply dot_S5000x64_S64x256_S5000x256_1_0_0_1_n_n rfl rfl rfl rfl rfl rfl]
  simp only [truncf_apply]

/-- Entry (r, j) of point t's pre-activation block is entry (5000·t + r, j) of stage 1's matrix. -/
theorem preBlk0_apply (V : VI) (c : Dev nD) (t : Fin cfg0.N) (r : Fin 5000) (j : Fin 256) :
    (preBlk0 (F := Ideal) V c t : S5000x256.Idx → EReal) (ix2 r j) = P1 V c (Spec.rowAt (Fin.cast N_0 t) r) j := by
  unfold preBlk0
  refine (pay5_apply _ _ _ _ _ _ _ _ r j).trans ?_
  unfold P1
  simp only [iblk0_0_apply, iblk0_1_apply, iblk0_2_apply, iblk0_3_apply, iblk0_4_apply, iblk0_5_apply, iblk0_6_apply, iblk0_7_apply]

/-! ## From the blocks to the array -/

/-- Stage 1's matrix as contents of the pre-activation array. -/
def G8 (V : VI) (c : Dev nD) : S500000x256.Idx → EReal := fun i => P1 V c ⟨(i 0).val, (i 0).isLt⟩ ⟨(i 1).val, (i 1).isLt⟩

/-- What point t writes back is block t of stage 1's matrix. -/
theorem flushed0_8_eq (V : VI) (c : Dev nD) (t : Fin cfg0.N) :
    (dat0 (F := Ideal) V c).flushed 8 t = ((cfg0.win 8).blk t).view.read (Elt Ideal) (G8 V c) := by
  show (cfg0.win 8).cut (grid0.coords t) ((dat0 (F := Ideal) V c).after 8 t) = _
  rw [after0_8]
  funext y
  obtain ⟨r, j, rfl⟩ : ∃ (r : Fin 5000) (j : Fin 256), y = ix2 r j := ⟨y 0, y 1, eq_ix2 y⟩
  have e := idx_facts0 t
  rw [View.read_apply]
  show (preBlk0 (F := Ideal) V c t : S5000x256.Idx → EReal) (ix2 r j) = G8 V c (((cfg0.win 8).blk t).view.emb (ix2 r j))
  rw [preBlk0_apply]
  unfold G8
  congr 1
  · apply Fin.ext
    show 5000 * t.val + r.val = win0_8.index t (0 : Fin 2) * 5000 + 1 * r.val
    omega
  · apply Fin.ext
    show j.val = win0_8.index t (1 : Fin 2) * 256 + 1 * j.val
    omega

/-- An index of the array is in point t's block iff each coordinate is in the block's range on its axis. -/
theorem mem_blk0_8 (t : Fin cfg0.N) (i : S500000x256.Idx) :
    i ∈ ((cfg0.win 8).blk t).view.set ↔ ∀ a : Fin 2, win0_8.index t a * S5000x256.size a ≤ (i a).val ∧ (i a).val < win0_8.index t a * S5000x256.size a + S5000x256.size a := by
  show i ∈ ((View.whole main_v16_0).slice (win0_8.rect t)).set ↔ _
  rw [View.set_slice_whole, Rect.mem_set_unit]
  exact Iff.rfl

/-- Row i is in the block of point i / 5000. -/
theorem cover0_8 (i : S500000x256.Idx) :
    ∃ t : Fin cfg0.N, (cfg0.win 8).flush t = true ∧ i ∈ ((cfg0.win 8).blk t).view.set := by
  have hi0 : (i 0).val < 500000 := (i 0).isLt
  have hi1 : (i 1).val < 256 := (i 1).isLt
  have hN : cfg0.N = 100 := N_0
  let t : Fin cfg0.N := ⟨(i 0).val / 5000, by rw [hN]; omega⟩
  have e := idx_facts0 t
  have ht : t.val = (i 0).val / 5000 := rfl
  refine ⟨t, flush0_8 t, ?_⟩
  rw [mem_blk0_8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 256 ≤ (i 1).val ∧ (i 1).val < win0_8.index t (1 : Fin 2) * 256 + 256; omega

/-- The pre-activation array after stage 1 is stage 1's matrix. -/
theorem arr0_8 (V : VI) (c : Dev nD) :
    at2 ((dat0 (F := Ideal) V c).arrAt 8 cfg0.N : S500000x256.Idx → EReal) = P1 V c := by
  have h := (dat0 (F := Ideal) V c).arrAt_eq_of_cover 8 (G8 V c) (fun t _ => flushed0_8_eq V c t) cover0_8
  funext r j
  unfold at2
  rw [h]
  rfl

end Cert.KernelIdeal.Hand

end
-- ==== Proof.Region0Sums.lean ====
/- Stage 1's two statistics rows: the column sums and the column sums of squares of the matrix the stage writes.
   Two scratch rows start at zero; every point adds, column by column, the sum over its block's 5000 rows of the
   entries (first row) and of their squares (second row); the last point's rows are the arrays' final contents.
   The 100 blocks of 5000 rows are all 500000 rows, and addition of extended reals is commutative and associative,
   so the rows end at the sums over all rows. -/
import proofs.«132934_j50371376447949_1_alg».proof.Proof.ValueDefs
import proofs.«132934_j50371376447949_1_alg».proof.Proof.BlockIdx
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

/-- A 256-vector viewed as a 1×256 row reads, at column j of its one row, the vector's entry j. -/
theorem castRow_apply (v : S256.Idx → EReal) (h : S256.ShapeCasts S1x256) (j : Fin 256) :
    shapeCast S1x256 v h (ix2 (0 : Fin 1) j) = v (ix1 j) := by
  refine shapeCast_apply v h _ (ix1 j) ?_
  rw [Shape.rowMajor_val_one, Shape.rowMajor_val_two]
  show j.val = (0 : ℕ) * 256 + j.val
  omega

/-- The sum over the rows of a 5000×256 block, read at column j. -/
theorem colReduce_apply (X : S5000x256.Idx → EReal) (h : S5000x256.Reduces [0] S256) (hφ : FKind.Formats .f32)
    (hacc : (0x00000000#32 : BitVec 32) = 0x00000000#32) (j : Fin 256) :
    (multiReduction (F := Ideal) .add [0] S256 X 0x00000000#32 h hφ hacc : S256.Idx → EReal) (ix1 j)
      = ∑ r : Fin 5000, X (ix2 r j) := by
  refine (Ideal.multiReduction_add_single X 0x00000000#32 h hφ hacc (ix1 j)).trans ?_
  refine Finset.sum_congr rfl fun r _ => congrArg X ?_
  funext a
  match a with
  | ⟨0, _⟩ => rfl
  | ⟨1, _⟩ => rfl

/-- The first scratch row's step: what it held plus the block's column sums. -/
theorem k0_pay1_apply (v28 : S1x256.Idx → EReal) (v29 : S256.Idx → EReal) (j : Fin 256) :
    (k0_pay1 (F := Ideal) v28 v29 : S1x256.Idx → EReal) (ix2 (0 : Fin 1) j) = v28 (ix2 (0 : Fin 1) j) + v29 (ix1 j) := by
  unfold k0_pay1
  rw [shapeCast_self]
  refine (addf_apply _ _ _).trans ?_
  rw [castRow_apply]

/-- The zero row. -/
theorem k0_pay3_apply (j : Fin 256) : (k0_pay3 (F := Ideal) : S1x256.Idx → EReal) (ix2 (0 : Fin 1) j) = 0 := by
  unfold k0_pay3
  rw [shapeCast_self]
  exact Ideal.ofBits_zero_f32
theorem k0_pay4_apply (j : Fin 256) : (k0_pay4 (F := Ideal) : S1x256.Idx → EReal) (ix2 (0 : Fin 1) j) = 0 := by
  unfold k0_pay4
  rw [shapeCast_self]
  exact Ideal.ofBits_zero_f32

/-- The second scratch row's step: what it held plus the column sums of the block's squares. -/
theorem k0_pay2_apply (v26 : S5000x256.Idx → EReal) (v35 : S1x256.Idx → EReal) (j : Fin 256) :
    (k0_pay2 (F := Ideal) v26 v35 : S1x256.Idx → EReal) (ix2 (0 : Fin 1) j)
      = v35 (ix2 (0 : Fin 1) j) + ∑ r : Fin 5000, v26 (ix2 r j) * v26 (ix2 r j) := by
  unfold k0_pay2
  rw [shapeCast_self]
  refine (addf_apply _ _ _).trans ?_
  rw [castRow_apply, colReduce_apply]
  rfl

theorem k0_pay6_apply (v3 : Vec Ideal S5000x128 .f32) (v5 : Vec Ideal S5000x128 .f32) (v7 : Vec Ideal S5000x64 .f32) (v9 : Vec Ideal S5000x64 .f32) (v12 : Vec Ideal S128x256 .bf16) (v15 : Vec Ideal S128x256 .bf16) (v19 : Vec Ideal S64x256 .bf16) (v23 : Vec Ideal S64x256 .bf16) (j : Fin 256) :
    (k0_pay6 (F := Ideal) v3 v5 v7 v9 v12 v15 v19 v23 : S256.Idx → EReal) (ix1 j)
      = ∑ r : Fin 5000, (k0_pay5 (F := Ideal) v3 v5 v7 v9 v12 v15 v19 v23 : S5000x256.Idx → EReal) (ix2 r j) := by
  unfold k0_pay6
  exact colReduce_apply _ _ _ _ j

section
variable (V : VI) (c : Dev nD)

/-- The column sums of point t's block. -/
theorem colSum0_apply (t : Fin cfg0.N) (j : Fin 256) :
    (colSum0 (F := Ideal) V c t : S256.Idx → EReal) (ix1 j) = ∑ r : Fin 5000, (preBlk0 (F := Ideal) V c t : S5000x256.Idx → EReal) (ix2 r j) := by
  unfold colSum0 preBlk0
  exact k0_pay6_apply _ _ _ _ _ _ _ _ j

variable (hblk : ∀ (t : Fin cfg0.N) (r : Fin 5000) (j : Fin 256), (preBlk0 (F := Ideal) V c t : S5000x256.Idx → EReal) (ix2 r j) = P1 V c (Spec.rowAt (Fin.cast N_0 t) r) j)
include hblk

/-- Block t's rows of the stage's matrix, summed in column j, are the point's block summed. -/
theorem blkSum0 (t : ℕ) (ht : t < cfg0.N) (j : Fin 256) :
    (if h : t < 100 then ∑ r : Fin 5000, P1 V c (Spec.rowAt ⟨t, h⟩ r) j else 0)
      = ∑ r : Fin 5000, (preBlk0 (F := Ideal) V c ⟨t, ht⟩ : S5000x256.Idx → EReal) (ix2 r j) := by
  have h : t < 100 := by have := ht; rw [show cfg0.N = 100 from N_0] at this; exact this
  rw [dif_pos h]
  exact Finset.sum_congr rfl fun r _ => (hblk ⟨t, ht⟩ r j).symm

theorem blkSumSq0 (t : ℕ) (ht : t < cfg0.N) (j : Fin 256) :
    (if h : t < 100 then ∑ r : Fin 5000, P1 V c (Spec.rowAt ⟨t, h⟩ r) j * P1 V c (Spec.rowAt ⟨t, h⟩ r) j else 0)
      = ∑ r : Fin 5000, (preBlk0 (F := Ideal) V c ⟨t, ht⟩ : S5000x256.Idx → EReal) (ix2 r j) * (preBlk0 (F := Ideal) V c ⟨t, ht⟩ : S5000x256.Idx → EReal) (ix2 r j) := by
  have h : t < 100 := by have := ht; rw [show cfg0.N = 100 from N_0] at this; exact this
  rw [dif_pos h]
  exact Finset.sum_congr rfl fun r _ => by rw [hblk ⟨t, ht⟩ r j]; rfl

/-- After point n the first scratch row holds, in column j, the sum over the blocks up to n of the block's rows. -/
theorem acc0_fst_apply (j : Fin 256) : ∀ (n : ℕ) (hn : n < cfg0.N),
    ((acc0 (F := Ideal) V c n hn).1 : S1x256.Idx → EReal) (ix2 (0 : Fin 1) j)
      = ∑ t ∈ Finset.range (n + 1), if h : t < 100 then ∑ r : Fin 5000, P1 V c (Spec.rowAt ⟨t, h⟩ r) j else 0
  | 0, hn => by
    rw [acc0_zero, Finset.sum_range_one, blkSum0 V c hblk 0 hn j]
    refine (k0_pay1_apply _ _ j).trans ?_
    rw [k0_pay3_apply, zero_add, colSum0_apply]
  | n + 1, hn => by
    rw [acc0_succ, Finset.sum_range_succ, blkSum0 V c hblk (n + 1) hn j, ← acc0_fst_apply j n (Nat.lt_of_succ_lt hn)]
    refine (k0_pay1_apply _ _ j).trans ?_
    rw [colSum0_apply]

/-- and the second, the sum of their squares. -/
theorem acc0_snd_apply (j : Fin 256) : ∀ (n : ℕ) (hn : n < cfg0.N),
    ((acc0 (F := Ideal) V c n hn).2 : S1x256.Idx → EReal) (ix2 (0 : Fin 1) j)
      = ∑ t ∈ Finset.range (n + 1), if h : t < 100 then ∑ r : Fin 5000, P1 V c (Spec.rowAt ⟨t, h⟩ r) j * P1 V c (Spec.rowAt ⟨t, h⟩ r) j else 0
  | 0, hn => by
    rw [acc0_zero, Finset.sum_range_one, blkSumSq0 V c hblk 0 hn j]
    refine (k0_pay2_apply _ _ j).trans ?_
    rw [k0_pay4_apply, zero_add]
  | n + 1, hn => by
    rw [acc0_succ, Finset.sum_range_succ, blkSumSq0 V c hblk (n + 1) hn j, ← acc0_snd_apply j n (Nat.lt_of_succ_lt hn)]
    exact k0_pay2_apply _ _ j

omit hblk

theorem lastPt0 : 99 < cfg0.N := by rw [show cfg0.N = 100 from N_0]; omega

/-- The one write-back of the column-sum row, at the last point, writes the first scratch row: the block is the whole array. -/
theorem flushed0_9 (t : Fin cfg0.N) (hf : (cfg0.win 9).flush t = true) :
    (dat0 (F := Ideal) V c).flushed 9 t = ((cfg0.win 9).blk t).view.read (Elt Ideal) (acc0 (F := Ideal) V c 99 lastPt0).1 := by
  have hN : cfg0.N = 100 := N_0
  have h1 : t.val = 99 := by have := (flush0_9 t).mp hf; have := t.isLt; omega
  obtain rfl : t = ⟨99, lastPt0⟩ := Fin.ext h1
  show (cfg0.win 9).cut (grid0.coords ⟨99, lastPt0⟩) ((dat0 (F := Ideal) V c).after 9 ⟨99, lastPt0⟩) = _
  rw [after0_9]
  have hz' : (fun a => win0_9.index ⟨99, lastPt0⟩ a * main_v16_1.ty.shape.size a) = fun _ => 0 := funext fun a => by fin_cases a <;> decide +kernel
  exact (Memref.read_access_unit_zero (Elt Ideal) main_v16_1 hz' (fun a => by rw [congrFun hz' a]; simp) _).symm

theorem flushed0_10 (t : Fin cfg0.N) (hf : (cfg0.win 10).flush t = true) :
    (dat0 (F := Ideal) V c).flushed 10 t = ((cfg0.win 10).blk t).view.read (Elt Ideal) (acc0 (F := Ideal) V c 99 lastPt0).2 := by
  have hN : cfg0.N = 100 := N_0
  have h1 : t.val = 99 := by have := (flush0_10 t).mp hf; have := t.isLt; omega
  obtain rfl : t = ⟨99, lastPt0⟩ := Fin.ext h1
  show (cfg0.win 10).cut (grid0.coords ⟨99, lastPt0⟩) ((dat0 (F := Ideal) V c).after 10 ⟨99, lastPt0⟩) = _
  rw [after0_10]
  have hz' : (fun a => win0_10.index ⟨99, lastPt0⟩ a * main_v16_2.ty.shape.size a) = fun _ => 0 := funext fun a => by fin_cases a <;> decide +kernel
  exact (Memref.read_access_unit_zero (Elt Ideal) main_v16_2 hz' (fun a => by rw [congrFun hz' a]; simp) _).symm

/-- So the column-sum array ends holding the first scratch row as the last point left it. -/
theorem final0_9 : (dat0 (F := Ideal) V c).arrAt 9 cfg0.N = (acc0 (F := Ideal) V c 99 lastPt0).1 :=
  (dat0 (F := Ideal) V c).arrAt_eq_of_cover 9 _ (flushed0_9 V c) fun i =>
    ⟨⟨99, lastPt0⟩, (flush0_9 ⟨99, lastPt0⟩).mpr rfl, by
      show i ∈ ((View.whole main_v16_1).slice (win0_9.rect ⟨99, lastPt0⟩)).set
      rw [View.set_slice_whole, Rect.mem_set_unit]
      intro a
      have h0 : (i 0 : Nat) < 1 := (i 0).isLt
      have h1 : (i 1 : Nat) < 256 := (i 1).isLt
      match a with
      | ⟨0, _⟩ => show win0_9.index ⟨99, lastPt0⟩ 0 * win0_9.size 0 ≤ (i 0 : Nat) ∧ (i 0 : Nat) < win0_9.index ⟨99, lastPt0⟩ 0 * win0_9.size 0 + win0_9.xsize (grid0.coords ⟨99, lastPt0⟩) 0
                  rw [show win0_9.index ⟨99, lastPt0⟩ 0 * win0_9.size 0 = 0 from by decide +kernel, show win0_9.xsize (grid0.coords ⟨99, lastPt0⟩) 0 = 1 from by decide +kernel]; omega
      | ⟨1, _⟩ => show win0_9.index ⟨99, lastPt0⟩ 1 * win0_9.size 1 ≤ (i 1 : Nat) ∧ (i 1 : Nat) < win0_9.index ⟨99, lastPt0⟩ 1 * win0_9.size 1 + win0_9.xsize (grid0.coords ⟨99, lastPt0⟩) 1
                  rw [show win0_9.index ⟨99, lastPt0⟩ 1 * win0_9.size 1 = 0 from by decide +kernel, show win0_9.xsize (grid0.coords ⟨99, lastPt0⟩) 1 = 256 from by decide +kernel]; omega⟩

theorem final0_10 : (dat0 (F := Ideal) V c).arrAt 10 cfg0.N = (acc0 (F := Ideal) V c 99 lastPt0).2 :=
  (dat0 (F := Ideal) V c).arrAt_eq_of_cover 10 _ (flushed0_10 V c) fun i =>
    ⟨⟨99, lastPt0⟩, (flush0_10 ⟨99, lastPt0⟩).mpr rfl, by
      show i ∈ ((View.whole main_v16_2).slice (win0_10.rect ⟨99, lastPt0⟩)).set
      rw [View.set_slice_whole, Rect.mem_set_unit]
      intro a
      have h0 : (i 0 : Nat) < 1 := (i 0).isLt
      have h1 : (i 1 : Nat) < 256 := (i 1).isLt
      match a with
      | ⟨0, _⟩ => show win0_10.index ⟨99, lastPt0⟩ 0 * win0_10.size 0 ≤ (i 0 : Nat) ∧ (i 0 : Nat) < win0_10.index ⟨99, lastPt0⟩ 0 * win0_10.size 0 + win0_10.xsize (grid0.coords ⟨99, lastPt0⟩) 0
                  rw [show win0_10.index ⟨99, lastPt0⟩ 0 * win0_10.size 0 = 0 from by decide +kernel, show win0_10.xsize (grid0.coords ⟨99, lastPt0⟩) 0 = 1 from by decide +kernel]; omega
      | ⟨1, _⟩ => show win0_10.index ⟨99, lastPt0⟩ 1 * win0_10.size 1 ≤ (i 1 : Nat) ∧ (i 1 : Nat) < win0_10.index ⟨99, lastPt0⟩ 1 * win0_10.size 1 + win0_10.xsize (grid0.coords ⟨99, lastPt0⟩) 1
                  rw [show win0_10.index ⟨99, lastPt0⟩ 1 * win0_10.size 1 = 0 from by decide +kernel, show win0_10.xsize (grid0.coords ⟨99, lastPt0⟩) 1 = 256 from by decide +kernel]; omega⟩

end

/-- The column-sum array after stage 1: the sums over all 500000 rows of the stage's matrix. -/
theorem arr0_9 (V : VI) (c : Dev nD)
    (hblk : ∀ (t : Fin cfg0.N) (r : Fin 5000) (j : Fin 256), (preBlk0 (F := Ideal) V c t : S5000x256.Idx → EReal) (ix2 r j) = P1 V c (Spec.rowAt (Fin.cast N_0 t) r) j) :
    row ((dat0 (F := Ideal) V c).arrAt 9 cfg0.N : S1x256.Idx → EReal) = Spec.colSum (P1 V c) := by
  rw [final0_9]
  funext j
  refine (acc0_fst_apply V c hblk j 99 lastPt0).trans ?_
  unfold Spec.colSum
  rw [Spec.sum_rowAt, ← Fin.sum_univ_eq_sum_range (fun t => if h : t < 100 then ∑ r : Fin 5000, P1 V c (Spec.rowAt ⟨t, h⟩ r) j else 0) 100]
  exact Finset.sum_congr rfl fun t _ => dif_pos t.isLt

/-- The sums-of-squares array after stage 1. -/
theorem arr0_10 (V : VI) (c : Dev nD)
    (hblk : ∀ (t : Fin cfg0.N) (r : Fin 5000) (j : Fin 256), (preBlk0 (F := Ideal) V c t : S5000x256.Idx → EReal) (ix2 r j) = P1 V c (Spec.rowAt (Fin.cast N_0 t) r) j) :
    row ((dat0 (F := Ideal) V c).arrAt 10 cfg0.N : S1x256.Idx → EReal) = Spec.colSumSq (P1 V c) := by
  rw [final0_10]
  funext j
  refine (acc0_snd_apply V c hblk j 99 lastPt0).trans ?_
  unfold Spec.colSumSq
  rw [Spec.sum_rowAt (fun i => P1 V c i j * P1 V c i j), ← Fin.sum_univ_eq_sum_range (fun t => if h : t < 100 then ∑ r : Fin 5000, P1 V c (Spec.rowAt ⟨t, h⟩ r) j * P1 V c (Spec.rowAt ⟨t, h⟩ r) j else 0) 100]
  exact Finset.sum_congr rfl fun t _ => dif_pos t.isLt

end Cert.KernelIdeal.Hand

end
-- ==== Proof.Region1Value.lean ====
/- Stage 2's big output, read at the exact instance: the block a grid point writes is, entry by entry, rows
   5000·t … 5000·t + 4999 of the stage's matrix (the first pre-activation under the affine map, rectified, times the
   weights), and the 100 blocks tile the 500000 rows, so the array ends holding that matrix. -/
import proofs.«132934_j50371376447949_1_alg».proof.Proof.ValueDefs
import proofs.«132934_j50371376447949_1_alg».proof.Proof.BlockIdx
import proofs.«132934_j50371376447949_1_alg».proof.Proof.LibDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

/-! ## The payload at an entry -/

/-- A 1×256 row broadcast down 5000 rows reads, at row r and column k, the row's entry k. -/
theorem bcast_row_apply (v : Vec Ideal S1x256 .f32) (r : Fin 5000) (k : Fin 256) :
    (broadcastTo S5000x256 v broadcasts_S1x256_S5000x256 : S5000x256.Idx → EReal) (ix2 r k) = v (ix2 (0 : Fin 1) k) := by
  refine broadcastTo_apply v _ (ix2 r k) (ix2 (0 : Fin 1) k) fun a => ?_
  match a with
  | ⟨0, _⟩ => rfl
  | ⟨1, _⟩ => rfl

/-- The block this stage writes, at entry (r, j): the sum over k of the rectified affine image of the row block's
    entry (r, k) under the scale and shift rows, times the weight block's entry (k, j). The identity shape casts and
    the truncation disappear, the broadcast rows read their entry k, the zero word is the number zero, and the
    product into the zero accumulator is the sum over the contracted coordinate. -/
theorem pay4_apply (x : Vec Ideal S5000x256 .f32) (sc sh : Vec Ideal S1x256 .f32) (w : Vec Ideal S256x256 .bf16)
    (r : Fin 5000) (j : Fin 256) :
    (k1_pay4 (F := Ideal) x sc sh w : S5000x256.Idx → EReal) (ix2 r j)
      = ∑ k : Fin 256, max ((x (ix2 r k) : EReal) * sc (ix2 (0 : Fin 1) k) + sh (ix2 (0 : Fin 1) k)) 0 * (w (ix2 k j) : EReal) := by
  unfold k1_pay4
  refine (Cert.LibDot.matmul_10_zero_apply dot_S5000x256_S256x256_S5000x256_1_0_0_1_n_n rfl rfl rfl rfl rfl rfl none _ _ r j).trans ?_
  refine Finset.sum_congr rfl fun k _ => ?_
  rw [shapeCast_self, shapeCast_self, shapeCast_self, shapeCast_self]
  rw [truncf_apply, maximumf_apply, addf_apply, mulf_apply, bcast_row_apply, bcast_row_apply, broadcast_apply]
  show max _ (Ideal.ofBits .f32 0x00000000#32) * _ = _
  rw [Ideal.ofBits_zero_f32]

/-! ## The input blocks as entries of the arrays the stage finds -/

/-- The block indices of this stage's windows at every grid point: the two row windows (input 0, output 4) are at
    block (t, 0), the scale row, the shift row and the weights at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (r, k) of the row block at point t is entry (5000·t + r, k) of the first pre-activation. -/
theorem iblk1_0_apply (V : VI) (c : Dev nD) (t : Fin cfg1.N) (r : Fin 5000) (k : Fin 256) :
    (iblk1 (F := Ideal) V c 0 t : S5000x256.Idx → EReal) (ix2 r k) = at2 (V c main_v16_0) (Spec.rowAt (Fin.cast N_1 t) r) k := by
  obtain ⟨e0, e1, -⟩ := idx1 t
  unfold iblk1
  rw [View.read_apply]
  show (V c main_v16_0 : S500000x256.Idx → EReal) _ = (V c main_v16_0 : S500000x256.Idx → EReal) _
  congr 1
  funext a; apply Fin.ext
  match a with
  | ⟨0, _⟩ => show win1_0.index t (0 : Fin 2) * 5000 + 1 * r.val = 5000 * t.val + r.val; rw [e0]; omega
  | ⟨1, _⟩ => show win1_0.index t (1 : Fin 2) * 256 + 1 * k.val = k.val; rw [e1]; omega

/-- The scale row's block at any point is the whole scale row. -/
theorem iblk1_1_apply (V : VI) (c : Dev nD) (t : Fin cfg1.N) (k : Fin 256) :
    (iblk1 (F := Ideal) V c 1 t : S1x256.Idx → EReal) (ix2 (0 : Fin 1) k) = row (V c main_v27) k := by
  obtain ⟨-, -, e0, e1, -⟩ := idx1 t
  unfold iblk1
  rw [View.read_apply]
  show (V c main_v27 : S1x256.Idx → EReal) _ = (V c main_v27 : S1x256.Idx → EReal) _
  congr 1
  funext a; apply Fin.ext
  match a with
  | ⟨0, _⟩ => show win1_1.index t (0 : Fin 2) * 1 + 1 * 0 = 0; rw [e0]
  | ⟨1, _⟩ => show win1_1.index t (1 : Fin 2) * 256 + 1 * k.val = k.val; rw [e1]; omega

/-- The shift row's block at any point is the whole shift row. -/
theorem iblk1_2_apply (V : VI) (c : Dev nD) (t : Fin cfg1.N) (k : Fin 256) :
    (iblk1 (F := Ideal) V c 2 t : S1x256.Idx → EReal) (ix2 (0 : Fin 1) k) = row (V c main_v30) k := by
  obtain ⟨-, -, -, -, e0, e1, -⟩ := idx1 t
  unfold iblk1
  rw [View.read_apply]
  show (V c main_v30 : S1x256.Idx → EReal) _ = (V c main_v30 : S1x256.Idx → EReal) _
  congr 1
  funext a; apply Fin.ext
  match a with
  | ⟨0, _⟩ => show win1_2.index t (0 : Fin 2) * 1 + 1 * 0 = 0; rw [e0]
  | ⟨1, _⟩ => show win1_2.index t (1 : Fin 2) * 256 + 1 * k.val = k.val; rw [e1]; omega

/-- The weight block at any point is the whole weight matrix. -/
theorem iblk1_3_apply (V : VI) (c : Dev nD) (t : Fin cfg1.N) (k j : Fin 256) :
    (iblk1 (F := Ideal) V c 3 t : S256x256.Idx → EReal) (ix2 k j) = at2 (V c main_v15) k j := by
  obtain ⟨-, -, -, -, -, -, e0, e1, -⟩ := idx1 t
  unfold iblk1
  rw [View.read_apply]
  show (V c main_v15 : S256x256.Idx → EReal) _ = (V c main_v15 : S256x256.Idx → EReal) _
  congr 1
  funext a; apply Fin.ext
  match a with
  | ⟨0, _⟩ => show win1_3.index t (0 : Fin 2) * 256 + 1 * k.val = k.val; rw [e0]; omega
  | ⟨1, _⟩ => show win1_3.index t (1 : Fin 2) * 256 + 1 * j.val = j.val; rw [e1]; omega

/-- THE BLOCK POINT t WRITES, at entry (r, j), is the stage's matrix at row 5000·t + r, column j. -/
theorem preBlk1_apply (V : VI) (c : Dev nD) (t : Fin cfg1.N) (r : Fin 5000) (j : Fin 256) :
    (preBlk1 (F := Ideal) V c t : S5000x256.Idx → EReal) (ix2 r j) = P2 V c (Spec.rowAt (Fin.cast N_1 t) r) j := by
  unfold preBlk1
  refine (pay4_apply _ _ _ _ r j).trans ?_
  unfold P2 Spec.mul256 Spec.relu Spec.affine
  refine Finset.sum_congr rfl fun k _ => ?_
  exact congrArg₂ (· * ·) (congrArg₂ max (congrArg₂ (· + ·) (congrArg₂ (· * ·) (iblk1_0_apply V c t r k) (iblk1_1_apply V c t k))
    (iblk1_2_apply V c t k)) rfl) (iblk1_3_apply V c t k j)

/-! ## From the blocks to the array -/

/-- The stage's matrix as an array over two-axis indices. -/
def G1 (V : VI) (c : Dev nD) : S500000x256.Idx → EReal := fun i => P2 V c (i 0) (i 1)

/-- What point t writes back is block t of the stage's matrix: rows 5000·t … 5000·t + 4999, all columns. -/
theorem flushed1_4 (V : VI) (c : Dev nD) (t : Fin cfg1.N) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  obtain ⟨-, -, -, -, -, -, -, -, e0, e1⟩ := idx1 t
  funext y
  obtain ⟨r, j, rfl⟩ : ∃ (r : Fin 5000) (j : Fin 256), y = ix2 r j := ⟨y 0, y 1, eq_ix2 y⟩
  rw [View.read_apply]
  refine (preBlk1_apply V c t r j).trans ?_
  show P2 V c _ _ = P2 V c _ _
  congr 1
  · apply Fin.ext
    show 5000 * t.val + r.val = win1_4.index t (0 : Fin 2) * 5000 + 1 * r.val
    rw [e0]; omega
  · apply Fin.ext
    show j.val = win1_4.index t (1 : Fin 2) * 256 + 1 * j.val
    rw [e1]; omega

/-- An index of the array is in point t's block iff each coordinate is in the block's range on its axis. -/
theorem mem_blk1_4 (t : Fin cfg1.N) (i : S500000x256.Idx) :
    i ∈ ((cfg1.win 4).blk t).view.set ↔ ∀ a : Fin 2, win1_4.index t a * S5000x256.size a ≤ (i a).val ∧ (i a).val < win1_4.index t a * S5000x256.size a + S5000x256.size a := by
  show i ∈ ((View.whole main_v31_0).slice (win1_4.rect t)).set ↔ _
  rw [View.set_slice_whole, Rect.mem_set_unit]
  exact Iff.rfl

/-- Every index of the array is in some point's block: row i is in block i / 5000. -/
theorem cover1_4 (i : S500000x256.Idx) : ∃ t : Fin cfg1.N, (cfg1.win 4).flush t = true ∧ i ∈ ((cfg1.win 4).blk t).view.set := by
  have hi0 : (i 0).val < 500000 := (i 0).isLt
  have hi1 : (i 1).val < 256 := (i 1).isLt
  have hN : grid1.N = 100 := N_1
  have ht : (i 0).val / 5000 < cfg1.N := by show _ < grid1.N; omega
  obtain ⟨-, -, -, -, -, -, -, -, e0, e1⟩ := idx1 ⟨(i 0).val / 5000, ht⟩
  refine ⟨⟨(i 0).val / 5000, ht⟩, flush1_4 _, ?_⟩
  rw [mem_blk1_4]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 256 ≤ (i 1).val ∧ (i 1).val < win1_4.index ⟨(i 0).val / 5000, ht⟩ (1 : Fin 2) * 256 + 256
    rw [e1]; omega

/-- THE ARRAY after the stage: the stage's matrix, entry by entry. -/
theorem arr1_4 (V : VI) (c : Dev nD) :
    at2 ((dat1 (F := Ideal) V c).arrAt 4 cfg1.N : S500000x256.Idx → EReal) = P2 V c := by
  have h := (dat1 (F := Ideal) V c).arrAt_eq_of_cover 4 (G1 V c) (fun t _ => flushed1_4 V c t) cover1_4
  funext i j
  show ((dat1 (F := Ideal) V c).arrAt 4 cfg1.N : S500000x256.Idx → EReal) (ix2 i j) = _
  rw [h]
  rfl

end Cert.KernelIdeal.Hand

end
-- ==== Proof.Region1Sums.lean ====
/- Stage 2's two statistics rows: the column sums and the column sums of squares of the matrix the stage writes.
   Two scratch rows start at zero; every point adds, column by column, the sum over its block's 5000 rows of the
   entries (first row) and of their squares (second row); the last point's rows are the arrays' final contents.
   The 100 blocks of 5000 rows are all 500000 rows, and addition of extended reals is commutative and associative,
   so the rows end at the sums over all rows. -/
import proofs.«132934_j50371376447949_1_alg».proof.Proof.ValueDefs
import proofs.«132934_j50371376447949_1_alg».proof.Proof.BlockIdx
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

/-- A 256-vector viewed as a 1×256 row reads, at column j of its one row, the vector's entry j. -/
theorem castRow1_apply (v : S256.Idx → EReal) (h : S256.ShapeCasts S1x256) (j : Fin 256) :
    shapeCast S1x256 v h (ix2 (0 : Fin 1) j) = v (ix1 j) := by
  refine shapeCast_apply v h _ (ix1 j) ?_
  rw [Shape.rowMajor_val_one, Shape.rowMajor_val_two]
  show j.val = (0 : ℕ) * 256 + j.val
  omega

/-- The sum over the rows of a 5000×256 block, read at column j. -/
theorem colReduce1_apply (X : S5000x256.Idx → EReal) (h : S5000x256.Reduces [0] S256) (hφ : FKind.Formats .f32)
    (hacc : (0x00000000#32 : BitVec 32) = 0x00000000#32) (j : Fin 256) :
    (multiReduction (F := Ideal) .add [0] S256 X 0x00000000#32 h hφ hacc : S256.Idx → EReal) (ix1 j)
      = ∑ r : Fin 5000, X (ix2 r j) := by
  refine (Ideal.multiReduction_add_single X 0x00000000#32 h hφ hacc (ix1 j)).trans ?_
  refine Finset.sum_congr rfl fun r _ => congrArg X ?_
  funext a
  match a with
  | ⟨0, _⟩ => rfl
  | ⟨1, _⟩ => rfl

/-- The first scratch row's step: what it held plus the block's column sums. -/
theorem k1_pay5_apply (v3 : Vec Ideal S5000x256 .f32) (v5 : Vec Ideal S1x256 .f32) (v9 : Vec Ideal S1x256 .f32) (v16 : Vec Ideal S256x256 .bf16)
    (v20 : S1x256.Idx → EReal) (j : Fin 256) :
    (k1_pay5 (F := Ideal) v3 v5 v9 v16 v20 : S1x256.Idx → EReal) (ix2 (0 : Fin 1) j)
      = v20 (ix2 (0 : Fin 1) j) + ∑ r : Fin 5000, (k1_pay4 (F := Ideal) v3 v5 v9 v16 : S5000x256.Idx → EReal) (ix2 r j) := by
  unfold k1_pay5
  rw [shapeCast_self]
  refine (addf_apply _ _ _).trans ?_
  rw [castRow1_apply, colReduce1_apply]

/-- The second scratch row's step: what it held plus the column sums of the block's squares. -/
theorem k1_pay6_apply (v3 : Vec Ideal S5000x256 .f32) (v5 : Vec Ideal S1x256 .f32) (v9 : Vec Ideal S1x256 .f32) (v16 : Vec Ideal S256x256 .bf16)
    (v27 : S1x256.Idx → EReal) (j : Fin 256) :
    (k1_pay1 (F := Ideal) (k1_pay6 (F := Ideal) v3 v5 v9 v16 v27) : S1x256.Idx → EReal) (ix2 (0 : Fin 1) j)
      = v27 (ix2 (0 : Fin 1) j) + ∑ r : Fin 5000, (k1_pay4 (F := Ideal) v3 v5 v9 v16 : S5000x256.Idx → EReal) (ix2 r j) * (k1_pay4 (F := Ideal) v3 v5 v9 v16 : S5000x256.Idx → EReal) (ix2 r j) := by
  unfold k1_pay1 k1_pay6
  rw [shapeCast_self]
  refine (addf_apply _ _ _).trans ?_
  rw [castRow1_apply, colReduce1_apply]
  rfl

/-- The zero rows. -/
theorem k1_pay2_apply (j : Fin 256) : (k1_pay2 (F := Ideal) : S1x256.Idx → EReal) (ix2 (0 : Fin 1) j) = 0 := by
  unfold k1_pay2
  rw [shapeCast_self]
  exact Ideal.ofBits_zero_f32
theorem k1_pay3_apply (j : Fin 256) : (k1_pay3 (F := Ideal) : S1x256.Idx → EReal) (ix2 (0 : Fin 1) j) = 0 := by
  unfold k1_pay3
  rw [shapeCast_self]
  exact Ideal.ofBits_zero_f32

section
variable (V : VI) (c : Dev nD)

variable (hblk : ∀ (t : Fin cfg1.N) (r : Fin 5000) (j : Fin 256), (preBlk1 (F := Ideal) V c t : S5000x256.Idx → EReal) (ix2 r j) = P2 V c (Spec.rowAt (Fin.cast N_1 t) r) j)
include hblk

/-- Block t's rows of the stage's matrix, summed in column j, are the point's block summed. -/
theorem blkSum1 (t : ℕ) (ht : t < cfg1.N) (j : Fin 256) :
    (if h : t < 100 then ∑ r : Fin 5000, P2 V c (Spec.rowAt ⟨t, h⟩ r) j else 0)
      = ∑ r : Fin 5000, (preBlk1 (F := Ideal) V c ⟨t, ht⟩ : S5000x256.Idx → EReal) (ix2 r j) := by
  have h : t < 100 := by have := ht; rw [show cfg1.N = 100 from N_1] at this; exact this
  rw [dif_pos h]
  exact Finset.sum_congr rfl fun r _ => (hblk ⟨t, ht⟩ r j).symm

theorem blkSumSq1 (t : ℕ) (ht : t < cfg1.N) (j : Fin 256) :
    (if h : t < 100 then ∑ r : Fin 5000, P2 V c (Spec.rowAt ⟨t, h⟩ r) j * P2 V c (Spec.rowAt ⟨t, h⟩ r) j else 0)
      = ∑ r : Fin 5000, (preBlk1 (F := Ideal) V c ⟨t, ht⟩ : S5000x256.Idx → EReal) (ix2 r j) * (preBlk1 (F := Ideal) V c ⟨t, ht⟩ : S5000x256.Idx → EReal) (ix2 r j) := by
  have h : t < 100 := by have := ht; rw [show cfg1.N = 100 from N_1] at this; exact this
  rw [dif_pos h]
  exact Finset.sum_congr rfl fun r _ => by rw [hblk ⟨t, ht⟩ r j]; rfl

/-- After point n the first scratch row holds, in column j, the sum over the blocks up to n of the block's rows. -/
theorem acc1_fst_apply (j : Fin 256) : ∀ (n : ℕ) (hn : n < cfg1.N),
    ((acc1 (F := Ideal) V c n hn).1 : S1x256.Idx → EReal) (ix2 (0 : Fin 1) j)
      = ∑ t ∈ Finset.range (n + 1), if h : t < 100 then ∑ r : Fin 5000, P2 V c (Spec.rowAt ⟨t, h⟩ r) j else 0
  | 0, hn => by
    rw [acc1_zero, Finset.sum_range_one, blkSum1 V c hblk 0 hn j]
    refine (k1_pay5_apply _ _ _ _ _ j).trans ?_
    rw [k1_pay2_apply, zero_add]
    rfl
  | n + 1, hn => by
    rw [acc1_succ, Finset.sum_range_succ, blkSum1 V c hblk (n + 1) hn j, ← acc1_fst_apply j n (Nat.lt_of_succ_lt hn)]
    exact k1_pay5_apply _ _ _ _ _ j

/-- and the second, the sum of their squares. -/
theorem acc1_snd_apply (j : Fin 256) : ∀ (n : ℕ) (hn : n < cfg1.N),
    ((acc1 (F := Ideal) V c n hn).2 : S1x256.Idx → EReal) (ix2 (0 : Fin 1) j)
      = ∑ t ∈ Finset.range (n + 1), if h : t < 100 then ∑ r : Fin 5000, P2 V c (Spec.rowAt ⟨t, h⟩ r) j * P2 V c (Spec.rowAt ⟨t, h⟩ r) j else 0
  | 0, hn => by
    rw [acc1_zero, Finset.sum_range_one, blkSumSq1 V c hblk 0 hn j]
    refine (k1_pay6_apply _ _ _ _ _ j).trans ?_
    rw [k1_pay3_apply, zero_add]
    rfl
  | n + 1, hn => by
    rw [acc1_succ, Finset.sum_range_succ, blkSumSq1 V c hblk (n + 1) hn j, ← acc1_snd_apply j n (Nat.lt_of_succ_lt hn)]
    exact k1_pay6_apply _ _ _ _ _ j

omit hblk

theorem lastPt1 : 99 < cfg1.N := by rw [show cfg1.N = 100 from N_1]; omega

/- The one write-back of each statistics row, at the last point, writes the scratch row: the block is the whole
   array; so each array ends holding its scratch row as the last point left it. -/

theorem flushed1_5 (t : Fin cfg1.N) (hf : (cfg1.win 5).flush t = true) :
    (dat1 (F := Ideal) V c).flushed 5 t = ((cfg1.win 5).blk t).view.read (Elt Ideal) (acc1 (F := Ideal) V c 99 lastPt1).1 := by
  have hN : cfg1.N = 100 := N_1
  have h1 : t.val = 99 := by have := (flush1_5 t).mp hf; have := t.isLt; omega
  obtain rfl : t = ⟨99, lastPt1⟩ := Fin.ext h1
  show (cfg1.win 5).cut (grid1.coords ⟨99, lastPt1⟩) ((dat1 (F := Ideal) V c).after 5 ⟨99, lastPt1⟩) = _
  rw [after1_5]
  have hz' : (fun a => win1_5.index ⟨99, lastPt1⟩ a * main_v31_1.ty.shape.size a) = fun _ => 0 := funext fun a => by fin_cases a <;> decide +kernel
  exact (Memref.read_access_unit_zero (Elt Ideal) main_v31_1 hz' (fun a => by rw [congrFun hz' a]; simp) _).symm

theorem final1_5 : (dat1 (F := Ideal) V c).arrAt 5 cfg1.N = (acc1 (F := Ideal) V c 99 lastPt1).1 :=
  (dat1 (F := Ideal) V c).arrAt_eq_of_cover 5 _ (flushed1_5 V c) fun i =>
    ⟨⟨99, lastPt1⟩, (flush1_5 ⟨99, lastPt1⟩).mpr rfl, by
      show i ∈ ((View.whole main_v31_1).slice (win1_5.rect ⟨99, lastPt1⟩)).set
      rw [View.set_slice_whole, Rect.mem_set_unit]
      intro a
      have h0 : (i 0 : Nat) < 1 := (i 0).isLt
      have h1 : (i 1 : Nat) < 256 := (i 1).isLt
      match a with
      | ⟨0, _⟩ => show win1_5.index ⟨99, lastPt1⟩ 0 * win1_5.size 0 ≤ (i 0 : Nat) ∧ (i 0 : Nat) < win1_5.index ⟨99, lastPt1⟩ 0 * win1_5.size 0 + win1_5.xsize (grid1.coords ⟨99, lastPt1⟩) 0
                  rw [show win1_5.index ⟨99, lastPt1⟩ 0 * win1_5.size 0 = 0 from by decide +kernel, show win1_5.xsize (grid1.coords ⟨99, lastPt1⟩) 0 = 1 from by decide +kernel]; omega
      | ⟨1, _⟩ => show win1_5.index ⟨99, lastPt1⟩ 1 * win1_5.size 1 ≤ (i 1 : Nat) ∧ (i 1 : Nat) < win1_5.index ⟨99, lastPt1⟩ 1 * win1_5.size 1 + win1_5.xsize (grid1.coords ⟨99, lastPt1⟩) 1
                  rw [show win1_5.index ⟨99, lastPt1⟩ 1 * win1_5.size 1 = 0 from by decide +kernel, show win1_5.xsize (grid1.coords ⟨99, lastPt1⟩) 1 = 256 from by decide +kernel]; omega⟩

theorem flushed1_6 (t : Fin cfg1.N) (hf : (cfg1.win 6).flush t = true) :
    (dat1 (F := Ideal) V c).flushed 6 t = ((cfg1.win 6).blk t).view.read (Elt Ideal) (acc1 (F := Ideal) V c 99 lastPt1).2 := by
  have hN : cfg1.N = 100 := N_1
  have h1 : t.val = 99 := by have := (flush1_6 t).mp hf; have := t.isLt; omega
  obtain rfl : t = ⟨99, lastPt1⟩ := Fin.ext h1
  show (cfg1.win 6).cut (grid1.coords ⟨99, lastPt1⟩) ((dat1 (F := Ideal) V c).after 6 ⟨99, lastPt1⟩) = _
  rw [after1_6]
  have hz' : (fun a => win1_6.index ⟨99, lastPt1⟩ a * main_v31_2.ty.shape.size a) = fun _ => 0 := funext fun a => by fin_cases a <;> decide +kernel
  exact (Memref.read_access_unit_zero (Elt Ideal) main_v31_2 hz' (fun a => by rw [congrFun hz' a]; simp) _).symm

theorem final1_6 : (dat1 (F := Ideal) V c).arrAt 6 cfg1.N = (acc1 (F := Ideal) V c 99 lastPt1).2 :=
  (dat1 (F := Ideal) V c).arrAt_eq_of_cover 6 _ (flushed1_6 V c) fun i =>
    ⟨⟨99, lastPt1⟩, (flush1_6 ⟨99, lastPt1⟩).mpr rfl, by
      show i ∈ ((View.whole main_v31_2).slice (win1_6.rect ⟨99, lastPt1⟩)).set
      rw [View.set_slice_whole, Rect.mem_set_unit]
      intro a
      have h0 : (i 0 : Nat) < 1 := (i 0).isLt
      have h1 : (i 1 : Nat) < 256 := (i 1).isLt
      match a with
      | ⟨0, _⟩ => show win1_6.index ⟨99, lastPt1⟩ 0 * win1_6.size 0 ≤ (i 0 : Nat) ∧ (i 0 : Nat) < win1_6.index ⟨99, lastPt1⟩ 0 * win1_6.size 0 + win1_6.xsize (grid1.coords ⟨99, lastPt1⟩) 0
                  rw [show win1_6.index ⟨99, lastPt1⟩ 0 * win1_6.size 0 = 0 from by decide +kernel, show win1_6.xsize (grid1.coords ⟨99, lastPt1⟩) 0 = 1 from by decide +kernel]; omega
      | ⟨1, _⟩ => show win1_6.index ⟨99, lastPt1⟩ 1 * win1_6.size 1 ≤ (i 1 : Nat) ∧ (i 1 : Nat) < win1_6.index ⟨99, lastPt1⟩ 1 * win1_6.size 1 + win1_6.xsize (grid1.coords ⟨99, lastPt1⟩) 1
                  rw [show win1_6.index ⟨99, lastPt1⟩ 1 * win1_6.size 1 = 0 from by decide +kernel, show win1_6.xsize (grid1.coords ⟨99, lastPt1⟩) 1 = 256 from by decide +kernel]; omega⟩

end

/-- The column-sum array after stage 2: the sums over all 500000 rows of the stage's matrix. -/
theorem arr1_5 (V : VI) (c : Dev nD)
    (hblk : ∀ (t : Fin cfg1.N) (r : Fin 5000) (j : Fin 256), (preBlk1 (F := Ideal) V c t : S5000x256.Idx → EReal) (ix2 r j) = P2 V c (Spec.rowAt (Fin.cast N_1 t) r) j) :
    row ((dat1 (F := Ideal) V c).arrAt 5 cfg1.N : S1x256.Idx → EReal) = Spec.colSum (P2 V c) := by
  rw [final1_5]
  funext j
  refine (acc1_fst_apply V c hblk j 99 lastPt1).trans ?_
  unfold Spec.colSum
  rw [Spec.sum_rowAt, ← Fin.sum_univ_eq_sum_range (fun t => if h : t < 100 then ∑ r : Fin 5000, P2 V c (Spec.rowAt ⟨t, h⟩ r) j else 0) 100]
  exact Finset.sum_congr rfl fun t _ => dif_pos t.isLt

/-- The sums-of-squares array after stage 2. -/
theorem arr1_6 (V : VI) (c : Dev nD)
    (hblk : ∀ (t : Fin cfg1.N) (r : Fin 5000) (j : Fin 256), (preBlk1 (F := Ideal) V c t : S5000x256.Idx → EReal) (ix2 r j) = P2 V c (Spec.rowAt (Fin.cast N_1 t) r) j) :
    row ((dat1 (F := Ideal) V c).arrAt 6 cfg1.N : S1x256.Idx → EReal) = Spec.colSumSq (P2 V c) := by
  rw [final1_6]
  funext j
  refine (acc1_snd_apply V c hblk j 99 lastPt1).trans ?_
  unfold Spec.colSumSq
  rw [Spec.sum_rowAt (fun i => P2 V c i j * P2 V c i j), ← Fin.sum_univ_eq_sum_range (fun t => if h : t < 100 then ∑ r : Fin 5000, P2 V c (Spec.rowAt ⟨t, h⟩ r) j * P2 V c (Spec.rowAt ⟨t, h⟩ r) j else 0) 100]
  exact Finset.sum_congr rfl fun t _ => dif_pos t.isLt

end Cert.KernelIdeal.Hand

end
-- ==== Proof.Region2Value.lean ====
/- What stage 3 leaves in its result array: each grid point writes, into its block of 5000 rows, the rows it
   finds scaled column by column by the scale row and shifted by the shift row; the hundred blocks tile the
   500000 rows, so the array ends at that affine map of the whole input, entry by entry. -/
import proofs.«132934_j50371376447949_1_alg».proof.Proof.ValueDefs
import proofs.«132934_j50371376447949_1_alg».proof.Proof.BlockIdx
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

/-- The block indices over the grid: the row block and the result block sit at block (t, 0); the scale row and
    the shift row are whole arrays, at block (0, 0) at every point. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (r, j) of the row block at point t is entry (5000·t + r, j) of the input array. -/
theorem iblk2_0_apply (V : VI) (c : Dev nD) (t : Fin cfg2.N) (r : Fin 5000) (j : Fin 256) :
    (iblk2 (F := Ideal) V c 0 t : S5000x256.Idx → EReal) (ix2 r j)
      = at2 (V c main_v31_0) (Spec.rowAt (Fin.cast N_2 t) r) j := by
  obtain ⟨e0, e1, -⟩ := idx_facts2 t
  unfold iblk2
  rw [View.read_apply]
  show V c main_v31_0 _ = V c main_v31_0 (ix2 _ _)
  congr 1
  funext a; apply Fin.ext
  match a with
  | ⟨0, _⟩ => show win2_0.index t (0 : Fin 2) * 5000 + 1 * r.val = 5000 * t.val + r.val; omega
  | ⟨1, _⟩ => show win2_0.index t (1 : Fin 2) * 256 + 1 * j.val = j.val; omega

/-- Entry (0, j) of the scale row's block, at any point, is entry j of the scale row. -/
theorem iblk2_1_apply (V : VI) (c : Dev nD) (t : Fin cfg2.N) (j : Fin 256) :
    (iblk2 (F := Ideal) V c 1 t : S1x256.Idx → EReal) (ix2 (0 : Fin 1) j) = row (V c main_v42) j := by
  obtain ⟨-, -, e0, e1, -⟩ := idx_facts2 t
  unfold iblk2
  rw [View.read_apply]
  show V c main_v42 _ = V c main_v42 (ix2 _ _)
  congr 1
  funext a; apply Fin.ext
  match a with
  | ⟨0, _⟩ => show win2_1.index t (0 : Fin 2) * 1 + 1 * 0 = 0; omega
  | ⟨1, _⟩ => show win2_1.index t (1 : Fin 2) * 256 + 1 * j.val = j.val; omega

/-- Entry (0, j) of the shift row's block, at any point, is entry j of the shift row. -/
theorem iblk2_2_apply (V : VI) (c : Dev nD) (t : Fin cfg2.N) (j : Fin 256) :
    (iblk2 (F := Ideal) V c 2 t : S1x256.Idx → EReal) (ix2 (0 : Fin 1) j) = row (V c main_v45) j := by
  obtain ⟨-, -, -, -, e0, e1, -⟩ := idx_facts2 t
  unfold iblk2
  rw [View.read_apply]
  show V c main_v45 _ = V c main_v45 (ix2 _ _)
  congr 1
  funext a; apply Fin.ext
  match a with
  | ⟨0, _⟩ => show win2_2.index t (0 : Fin 2) * 1 + 1 * 0 = 0; omega
  | ⟨1, _⟩ => show win2_2.index t (1 : Fin 2) * 256 + 1 * j.val = j.val; omega

/-- The arithmetic of one grid point at an entry: the row block's entry times the scale row's entry of that
    column plus the shift row's entry of that column (both rows broadcast over the 5000 rows). -/
theorem pay2_apply (x : Vec Ideal S5000x256 .f32) (sc sh : Vec Ideal S1x256 .f32) (r : Fin 5000) (j : Fin 256) :
    (k2_pay1 (F := Ideal) x sc sh : S5000x256.Idx → EReal) (ix2 r j)
      = (x : S5000x256.Idx → EReal) (ix2 r j) * (sc : S1x256.Idx → EReal) (ix2 (0 : Fin 1) j)
        + (sh : S1x256.Idx → EReal) (ix2 (0 : Fin 1) j) := by
  unfold k2_pay1
  rw [addf_apply, mulf_apply, shapeCast_self, shapeCast_self, shapeCast_self,
    broadcastTo_1b_ab_apply, broadcastTo_1b_ab_apply]

/-- Entry (r, j) of the block point t writes is the affine map's entry (5000·t + r, j). -/
theorem outBlk2_apply (V : VI) (c : Dev nD) (t : Fin cfg2.N) (r : Fin 5000) (j : Fin 256) :
    (outBlk2 (F := Ideal) V c t : S5000x256.Idx → EReal) (ix2 r j) = O3 V c (Spec.rowAt (Fin.cast N_2 t) r) j := by
  unfold outBlk2
  rw [pay2_apply, iblk2_0_apply, iblk2_1_apply, iblk2_2_apply]
  rfl

/-- The affine map of the whole input as an array: its entry at an index's two coordinates. -/
def G3 (V : VI) (c : Dev nD) : S500000x256.Idx → EReal := fun i => O3 V c (i 0) (i 1)

theorem at2_G3 (V : VI) (c : Dev nD) : at2 (G3 V c) = O3 V c := rfl

/-- What point t writes back is block t of the affine map of the whole input: entry (r, j) of the block sits at
    row 5000·t + r, column j of the array. -/
theorem flushed2_3 (V : VI) (c : Dev nD) (t : Fin cfg2.N) :
    (dat2 (F := Ideal) V c).flushed 3 t = ((cfg2.win 3).blk t).view.read (Elt Ideal) (G3 V c) := by
  show (cfg2.win 3).cut (grid2.coords t) ((dat2 (F := Ideal) V c).after 3 t) = _
  rw [after2_3]
  obtain ⟨-, -, -, -, -, -, e0, e1⟩ := idx_facts2 t
  refine funext fun (y : S5000x256.Idx) => ?_
  obtain ⟨r, j, rfl⟩ : ∃ (r : Fin 5000) (j : Fin 256), y = ix2 r j := ⟨y 0, y 1, eq_ix2 y⟩
  show (outBlk2 (F := Ideal) V c t : S5000x256.Idx → EReal) (ix2 r j)
    = G3 V c (((cfg2.win 3).blk t).view.emb (ix2 r j))
  rw [outBlk2_apply]
  unfold G3
  refine congrArg₂ (O3 V c) (Fin.ext ?_) (Fin.ext ?_)
  · show 5000 * t.val + r.val = win2_3.index t (0 : Fin 2) * 5000 + 1 * r.val
    omega
  · show j.val = win2_3.index t (1 : Fin 2) * 256 + 1 * j.val
    omega

/-- An index of the array is in point t's block iff each coordinate is in the block's range on its axis. -/
theorem mem_blk2_3 (t : Fin cfg2.N) (i : S500000x256.Idx) :
    i ∈ ((cfg2.win 3).blk t).view.set ↔ ∀ a : Fin 2, win2_3.index t a * S5000x256.size a ≤ (i a).val
      ∧ (i a).val < win2_3.index t a * S5000x256.size a + S5000x256.size a := by
  show i ∈ ((View.whole main_v46).slice (win2_3.rect t)).set ↔ _
  rw [View.set_slice_whole, Rect.mem_set_unit]
  exact Iff.rfl

/-- Every index of the array is in some point's block: row i is in block i / 5000. -/
theorem blocksCover2_3 (i : S500000x256.Idx) :
    ∃ t : Fin cfg2.N, (cfg2.win 3).flush t = true ∧ i ∈ ((cfg2.win 3).blk t).view.set := by
  have hi0 : (i 0).val < 500000 := (i 0).isLt
  have hi1 : (i 1).val < 256 := (i 1).isLt
  have hN : cfg2.N = 100 := N_2
  obtain ⟨t, ht⟩ : ∃ t : Fin cfg2.N, t.val = (i 0).val / 5000 := ⟨⟨(i 0).val / 5000, by rw [hN]; omega⟩, rfl⟩
  obtain ⟨-, -, -, -, -, -, e0, e1⟩ := idx_facts2 t
  refine ⟨t, flush2_3 t, ?_⟩
  rw [mem_blk2_3]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 256 ≤ (i 1).val ∧ (i 1).val < win2_3.index t (1 : Fin 2) * 256 + 256
    omega

/-- The result array after the last point: the affine map of the whole input, entry by entry. -/
theorem arr2_3 (V : VI) (c : Dev nD) :
    at2 ((dat2 (F := Ideal) V c).arrAt 3 cfg2.N : S500000x256.Idx → EReal) = O3 V c := by
  have h := (dat2 (F := Ideal) V c).arrAt_eq_of_cover 3 (G3 V c) (fun t _ => flushed2_3 V c t) blocksCover2_3
  rw [h]
  rfl

end Cert.KernelIdeal.Hand

end
-- ==== Proof.HostValue0.lean ====
/- What stage 1 finds in its windows' arrays after the first host stretch, at the exact instance. The stretch
   gathers rows of the graph-feature table, cuts the first weight matrix (384×256) into four row bands (rows 0–127,
   128–255, 256–319, 320–383) and narrows each band and the second weight matrix to the shorter float format, which
   at the exact instance is the identity. So each band read at (k, j) is the weight matrix at (offset + k, j), the
   narrowed second weight matrix is the argument itself, the three feature arguments are untouched, and the matrix
   stage 1 writes is the split-form first product of the arguments and the gathered table. -/
import proofs.«132934_j50371376447949_1_alg».proof.Proof.ValueDefs
import proofs.«132934_j50371376447949_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

variable (m : (ℓ : Loc nD τ sig) → Buf (Elt Ideal) ℓ) (c : Dev nD)

/-! ## The three feature arguments: the stretch writes none of them -/

theorem entry_arg0 : at2 (V1 m c main_arg0) = at2 (m ((c : Thread nD τ).loc main_arg0)) :=
  congrArg at2 (StableHlo.after_of_writes_sub hostOps0 _ hostOps0_writes (r := main_arg0) (by decide))
theorem entry_arg1 : at2 (V1 m c main_arg1) = at2 (m ((c : Thread nD τ).loc main_arg1)) :=
  congrArg at2 (StableHlo.after_of_writes_sub hostOps0 _ hostOps0_writes (r := main_arg1) (by decide))
theorem entry_arg2 : at2 (V1 m c main_arg2) = at2 (m ((c : Thread nD τ).loc main_arg2)) :=
  congrArg at2 (StableHlo.after_of_writes_sub hostOps0 _ hostOps0_writes (r := main_arg2) (by decide))

/-! ## The four row bands of the first weight matrix

Each band is a unit-stride slice of the 384×256 matrix at a row offset, then narrowed; the narrowing is the identity
on extended reals, and a slice read at (k, j) is the matrix at (offset + k, j). -/

/-- Rows 0–127: entry (k, j) of the band is entry (k, j) of the weight matrix. -/
theorem band0_at (k : Fin 128) (j : Fin 256) :
    at2 (V1 m c main_v8) k j = at2 (m ((c : Thread nD τ).loc main_arg5)) ⟨k.val, by omega⟩ j := by
  have e : (W1 m c (Proc.devRef .tc main_v8) : S128x256.Idx → EReal) =
      (truncf .bf16 (extractStridedSlice S128x256 ![0, 0] (m ((c : Thread nD τ).loc main_arg5) : FVec Ideal S384x256 .f32) slices_S384x256_S128x256_0_0 : FVec Ideal S128x256 .f32) bitsLt_bf16_f32 : FVec Ideal S128x256 .bf16) := by
    show StableHlo.after hostOps0 _ (Proc.devRef .tc main_v8) = _
    after_results
  show (W1 m c (Proc.devRef .tc main_v8) : S128x256.Idx → EReal) (ix2 k j) = _
  rw [e, truncf_apply]
  refine extractStridedSlice_apply _ _ _ _ _ fun a => ?_
  match a with
  | ⟨0, _⟩ => show k.val = 0 + k.val; omega
  | ⟨1, _⟩ => show j.val = 0 + j.val; omega

/-- Rows 128–255: entry (k, j) of the band is entry (128 + k, j) of the weight matrix. -/
theorem band1_at (k : Fin 128) (j : Fin 256) :
    at2 (V1 m c main_v10) k j = at2 (m ((c : Thread nD τ).loc main_arg5)) ⟨128 + k.val, by omega⟩ j := by
  have e : (W1 m c (Proc.devRef .tc main_v10) : S128x256.Idx → EReal) =
      (truncf .bf16 (extractStridedSlice S128x256 ![128, 0] (m ((c : Thread nD τ).loc main_arg5) : FVec Ideal S384x256 .f32) slices_S384x256_S128x256_128_0 : FVec Ideal S128x256 .f32) bitsLt_bf16_f32 : FVec Ideal S128x256 .bf16) := by
    show StableHlo.after hostOps0 _ (Proc.devRef .tc main_v10) = _
    after_results
  show (W1 m c (Proc.devRef .tc main_v10) : S128x256.Idx → EReal) (ix2 k j) = _
  rw [e, truncf_apply]
  refine extractStridedSlice_apply _ _ _ _ _ fun a => ?_
  match a with
  | ⟨0, _⟩ => show 128 + k.val = 128 + k.val; omega
  | ⟨1, _⟩ => show j.val = 0 + j.val; omega

/-- Rows 256–319: entry (k, j) of the band is entry (256 + k, j) of the weight matrix. -/
theorem band2_at (k : Fin 64) (j : Fin 256) :
    at2 (V1 m c main_v12) k j = at2 (m ((c : Thread nD τ).loc main_arg5)) ⟨256 + k.val, by omega⟩ j := by
  have e : (W1 m c (Proc.devRef .tc main_v12) : S64x256.Idx → EReal) =
      (truncf .bf16 (extractStridedSlice S64x256 ![256, 0] (m ((c : Thread nD τ).loc main_arg5) : FVec Ideal S384x256 .f32) slices_S384x256_S64x256_256_0 : FVec Ideal S64x256 .f32) bitsLt_bf16_f32 : FVec Ideal S64x256 .bf16) := by
    show StableHlo.after hostOps0 _ (Proc.devRef .tc main_v12) = _
    after_results
  show (W1 m c (Proc.devRef .tc main_v12) : S64x256.Idx → EReal) (ix2 k j) = _
  rw [e, truncf_apply]
  refine extractStridedSlice_apply _ _ _ _ _ fun a => ?_
  match a with
  | ⟨0, _⟩ => show 256 + k.val = 256 + k.val; omega
  | ⟨1, _⟩ => show j.val = 0 + j.val; omega

/-- Rows 320–383: entry (k, j) of the band is entry (320 + k, j) of the weight matrix. -/
theorem band3_at (k : Fin 64) (j : Fin 256) :
    at2 (V1 m c main_v14) k j = at2 (m ((c : Thread nD τ).loc main_arg5)) ⟨320 + k.val, by omega⟩ j := by
  have e : (W1 m c (Proc.devRef .tc main_v14) : S64x256.Idx → EReal) =
      (truncf .bf16 (extractStridedSlice S64x256 ![320, 0] (m ((c : Thread nD τ).loc main_arg5) : FVec Ideal S384x256 .f32) slices_S384x256_S64x256_320_0 : FVec Ideal S64x256 .f32) bitsLt_bf16_f32 : FVec Ideal S64x256 .bf16) := by
    show StableHlo.after hostOps0 _ (Proc.devRef .tc main_v14) = _
    after_results
  show (W1 m c (Proc.devRef .tc main_v14) : S64x256.Idx → EReal) (ix2 k j) = _
  rw [e, truncf_apply]
  refine extractStridedSlice_apply _ _ _ _ _ fun a => ?_
  match a with
  | ⟨0, _⟩ => show 320 + k.val = 320 + k.val; omega
  | ⟨1, _⟩ => show j.val = 0 + j.val; omega

/-! ## The first product -/

/-- What stage 1 writes is the split-form first product of the three feature arguments, the gathered table and the
    first weight matrix: each factor of each partial product is rewritten to the argument's entry. -/
theorem P1_entry (m : (ℓ : Loc nD τ sig) → Buf (Elt Ideal) ℓ) (c : Dev nD) :
    P1 (V1 m) c = Spec.pre1K (at2 (m ((c : Thread nD τ).loc main_arg0))) (at2 (m ((c : Thread nD τ).loc main_arg1))) (at2 (m ((c : Thread nD τ).loc main_arg2)))
      (at2 (V1 m c main_v6)) (at2 (m ((c : Thread nD τ).loc main_arg5))) := by
  funext i j
  unfold P1 Spec.pre1K
  rw [entry_arg0 m c, entry_arg1 m c, entry_arg2 m c]
  simp only [band0_at m c, band1_at m c, band2_at m c, band3_at m c]

/-! ## The second weight matrix -/

/-- The narrowed second weight matrix is the argument: narrowing is the identity on extended reals. -/
theorem W1_main_v15_eq (m : (ℓ : Loc nD τ sig) → Buf (Elt Ideal) ℓ) (c : Dev nD) :
    at2 (V1 m c main_v15) = at2 (m ((c : Thread nD τ).loc main_arg8)) := by
  have e : (W1 m c (Proc.devRef .tc main_v15) : S256x256.Idx → EReal) =
      (truncf .bf16 (m ((c : Thread nD τ).loc main_arg8) : FVec Ideal S256x256 .f32) bitsLt_bf16_f32 : FVec Ideal S256x256 .bf16) := by
    show StableHlo.after hostOps0 _ (Proc.devRef .tc main_v15) = _
    after_results
  funext k j
  show (W1 m c (Proc.devRef .tc main_v15) : S256x256.Idx → EReal) (ix2 k j) = _
  rw [e, truncf_apply]
  rfl

/-! ## The gathered table -/

/-- The gathered table as the stretch's first nine operations make it: the batch index of each row, with a negative
    index moved up by the table's 512 rows, laid out as a column of start indices, and the table's rows taken there. -/
theorem V1_main_v6_eq (m : (ℓ : Loc nD τ sig) → Buf (Elt Ideal) ℓ) (c : Dev nD) :
    (V1 m c main_v6 : S500000x64.Idx → EReal) = Host.gather gather_S512x64_S500000x1_S500000x64_1_0_n_n_0_1_164 (m ((c : Thread nD τ).loc main_arg3) : S512x64.Idx → EReal)
      (broadcastInDim S500000x1 ![0] bcast_S500000_S500000x1_0 (select (cmpi .slt (m ((c : Thread nD τ).loc main_arg4) : IVec S500000 32) (broadcastInDim S500000 ![] bcast_S_S500000 (constantI S_ 32 0#32))) (addi (m ((c : Thread nD τ).loc main_arg4) : IVec S500000 32) (broadcastInDim S500000 ![] bcast_S_S500000 (constantI S_ 32 512#32))) (m ((c : Thread nD τ).loc main_arg4) : IVec S500000 32)) : IVec S500000x1 32) := by
  show StableHlo.after hostOps0 _ (Proc.devRef .tc main_v6) = _
  after_results

/-- Every entry of a gather is an entry of its operand, so the gathered table's entries are reals if the table's are. -/
theorem ug_fin (m : (ℓ : Loc nD τ sig) → Buf (Elt Ideal) ℓ) (c : Dev nD) (hu : Spec.Fin2 (at2 (m ((c : Thread nD τ).loc main_arg3)))) :
    Spec.Fin2 (at2 (V1 m c main_v6)) := by
  intro i j
  show ∃ a : ℝ, (V1 m c main_v6 : S500000x64.Idx → EReal) (ix2 i j) = (a : EReal)
  rw [V1_main_v6_eq]
  unfold Host.gather
  generalize gather_S512x64_S500000x1_S500000x64_1_0_n_n_0_1_164.operandIdx (ix2 i j) _ = p
  rw [eq_ix2 p]
  exact hu (p 0) (p 1)

end Cert.KernelIdeal.Hand

end
-- ==== Proof.HostValue12.lean ====
/- What the second and third stages find where the host lines between the stages leave the batch normalisation's
   per-column factor and offset. Each of the two stretches takes the previous stage's two statistics rows (column
   sums s, column sums of squares q) and the layer's two parameter vectors (gamma, beta) through the same seventeen
   operations: mean = s / n, var = q / n − mean · mean, inv = rsqrt (var + eps), factor = gamma · inv,
   offset = beta − mean · factor. Read at a column, the composed term is the split form's factor and offset. -/
import proofs.«132934_j50371376447949_1_alg».proof.Proof.ValueDefs
import proofs.«132934_j50371376447949_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.IdealHost

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

/-! ## The seventeen operations as one term -/

/-- A statistics row divided by the row count: the count is a scalar constant broadcast along the row. -/
def hMean (s : FVec Ideal S1x256 .f32) : FVec Ideal S1x256 .f32 :=
  Host.divf s (broadcastInDim S1x256 ![] bcast_S_S1x256 (constant (F := Ideal) S_ .f32 0x48F42400#32))

/-- The factor row: gamma (a 256-vector read as a 1×256 row) times rsqrt (q / n − (s / n) · (s / n) + eps). -/
def hScale (s q : FVec Ideal S1x256 .f32) (g : FVec Ideal S256 .f32) : FVec Ideal S1x256 .f32 :=
  mulf (shapeCast S1x256 g shapeCasts_S256_S1x256)
    (Host.rsqrt (addf (subf (hMean q) (mulf (hMean s) (hMean s)))
      (broadcastInDim S1x256 ![] bcast_S_S1x256 (constant (F := Ideal) S_ .f32 0x3727C5AC#32))))

/-- The offset row: beta (read as a row) minus mean · factor. -/
def hShift (s q : FVec Ideal S1x256 .f32) (g b : FVec Ideal S256 .f32) : FVec Ideal S1x256 .f32 :=
  subf (shapeCast S1x256 b shapeCasts_S256_S1x256) (mulf (hMean s) (hScale s q g))

/-- The mean row at a column is the column sum over the count. -/
theorem hMean_apply (s : FVec Ideal S1x256 .f32) (j : Fin 256) :
    hMean s (ix2 (0 : Fin 1) j) = Spec.meanK (row s) j := by
  unfold hMean Spec.meanK row
  rw [hostDivf_apply, broadcastInDim_scalar_apply, constant_apply]

/-- A 256-vector read as a 1×256 row: column j of the row is entry j of the vector. -/
theorem asRow_apply (g : FVec Ideal S256 .f32) (j : Fin 256) :
    shapeCast S1x256 g shapeCasts_S256_S1x256 (ix2 (0 : Fin 1) j) = vec g j := by
  unfold vec
  refine shapeCast_apply g shapeCasts_S256_S1x256 _ (ix1 j) ?_
  rw [Shape.rowMajor_val_two, Shape.rowMajor_val_one]
  simp

/-- The factor row at a column is the split form's factor. -/
theorem hScale_apply (s q : FVec Ideal S1x256 .f32) (g : FVec Ideal S256 .f32) (j : Fin 256) :
    hScale s q g (ix2 (0 : Fin 1) j) = Spec.scaleK (row s) (row q) (vec g) j := by
  unfold hScale Spec.scaleK
  rw [mulf_apply, asRow_apply]
  show vec g j * Ideal.rsqrt _ = _
  rw [addf_apply, subf_apply, mulf_apply, hMean_apply, hMean_apply, broadcastInDim_scalar_apply, constant_apply]
  rfl

/-- The offset row at a column is the split form's offset. -/
theorem hShift_apply (s q : FVec Ideal S1x256 .f32) (g b : FVec Ideal S256 .f32) (j : Fin 256) :
    hShift s q g b (ix2 (0 : Fin 1) j) = Spec.shiftK (row s) (row q) (vec g) (vec b) j := by
  unfold hShift Spec.shiftK
  rw [subf_apply, mulf_apply, asRow_apply, hMean_apply, hScale_apply]

/-! ## The two stretches read off the fold -/

variable (m : (ℓ : Loc nD τ sig) → Buf (Elt Ideal) ℓ)

/-- A parameter vector is as launched when the second stage is entered: no host line writes an argument and it is
    none of the first stage's windows. -/
theorem W2_arg (c : Dev nD) (r : Ref sig .tc) (h0 : r ∉ hostOps0_W) (n0 : ∀ w, Pipeline.arrRef spec0 w ≠ r) :
    W2 m c (Proc.devRef .tc r) = m ((c : Thread nD τ).loc r) :=
  (W2_of_ne m c r n0).trans ((StableHlo.after_of_writes_sub hostOps0 _ hostOps0_writes h0).trans rfl)

/-- A parameter vector is as launched when the third stage is entered. -/
theorem W4_arg (c : Dev nD) (r : Ref sig .tc) (h0 : r ∉ hostOps0_W) (n0 : ∀ w, Pipeline.arrRef spec0 w ≠ r)
    (h1 : r ∉ hostOps1_W) (n1 : ∀ w, Pipeline.arrRef spec1 w ≠ r) :
    W4 m c (Proc.devRef .tc r) = m ((c : Thread nD τ).loc r) :=
  (W4_of_ne m c r n1).trans ((StableHlo.after_of_writes_sub hostOps1 _ hostOps1_writes h1).trans (W2_arg m c r h0 n0))

/-- The first layer's factor row, as the second stretch leaves it. -/
theorem W3_main_v27 (c : Dev nD) :
    (W3 m c (Proc.devRef .tc main_v27) : S1x256.Idx → EReal)
      = hScale (W2 m c (Proc.devRef .tc main_v16_1)) (W2 m c (Proc.devRef .tc main_v16_2)) (W2 m c (Proc.devRef .tc main_arg6)) := by
  show StableHlo.after hostOps1 _ (Proc.devRef .tc main_v27) = _
  after_results
  rfl

/-- The first layer's offset row, as the second stretch leaves it. -/
theorem W3_main_v30 (c : Dev nD) :
    (W3 m c (Proc.devRef .tc main_v30) : S1x256.Idx → EReal)
      = hShift (W2 m c (Proc.devRef .tc main_v16_1)) (W2 m c (Proc.devRef .tc main_v16_2)) (W2 m c (Proc.devRef .tc main_arg6))
          (W2 m c (Proc.devRef .tc main_arg7)) := by
  show StableHlo.after hostOps1 _ (Proc.devRef .tc main_v30) = _
  after_results
  rfl

/-- The second layer's factor row, as the third stretch leaves it. -/
theorem W5_main_v42 (c : Dev nD) :
    (W5 m c (Proc.devRef .tc main_v42) : S1x256.Idx → EReal)
      = hScale (W4 m c (Proc.devRef .tc main_v31_1)) (W4 m c (Proc.devRef .tc main_v31_2)) (W4 m c (Proc.devRef .tc main_arg9)) := by
  show StableHlo.after hostOps2 _ (Proc.devRef .tc main_v42) = _
  after_results
  rfl

/-- The second layer's offset row, as the third stretch leaves it. -/
theorem W5_main_v45 (c : Dev nD) :
    (W5 m c (Proc.devRef .tc main_v45) : S1x256.Idx → EReal)
      = hShift (W4 m c (Proc.devRef .tc main_v31_1)) (W4 m c (Proc.devRef .tc main_v31_2)) (W4 m c (Proc.devRef .tc main_arg9))
          (W4 m c (Proc.devRef .tc main_arg10)) := by
  show StableHlo.after hostOps2 _ (Proc.devRef .tc main_v45) = _
  after_results
  rfl

/-! ## What the stages find -/

/-- The second stage finds the split form's factor of the first stage's statistics and the first layer's gamma. -/
theorem entry1_scale (m : (ℓ : Loc nD τ sig) → Buf (Elt Ideal) ℓ) (c : Dev nD) :
    row (V3 m c main_v27) = Spec.scaleK (row (V2 m c main_v16_1)) (row (V2 m c main_v16_2)) (vec (m ((c : Thread nD τ).loc main_arg6))) := by
  funext j
  show (W3 m c (Proc.devRef .tc main_v27) : S1x256.Idx → EReal) (ix2 (0 : Fin 1) j) = _
  rw [W3_main_v27, hScale_apply, W2_arg m c main_arg6 (by decide) (by decide)]

/-- The second stage finds the split form's offset of the first stage's statistics and the first layer's gamma, beta. -/
theorem entry1_shift (m : (ℓ : Loc nD τ sig) → Buf (Elt Ideal) ℓ) (c : Dev nD) :
    row (V3 m c main_v30) = Spec.shiftK (row (V2 m c main_v16_1)) (row (V2 m c main_v16_2)) (vec (m ((c : Thread nD τ).loc main_arg6)))
      (vec (m ((c : Thread nD τ).loc main_arg7))) := by
  funext j
  show (W3 m c (Proc.devRef .tc main_v30) : S1x256.Idx → EReal) (ix2 (0 : Fin 1) j) = _
  rw [W3_main_v30, hShift_apply, W2_arg m c main_arg6 (by decide) (by decide), W2_arg m c main_arg7 (by decide) (by decide)]

/-- The third stage finds the split form's factor of the second stage's statistics and the second layer's gamma. -/
theorem entry2_scale (m : (ℓ : Loc nD τ sig) → Buf (Elt Ideal) ℓ) (c : Dev nD) :
    row (V5 m c main_v42) = Spec.scaleK (row (V4 m c main_v31_1)) (row (V4 m c main_v31_2)) (vec (m ((c : Thread nD τ).loc main_arg9))) := by
  funext j
  show (W5 m c (Proc.devRef .tc main_v42) : S1x256.Idx → EReal) (ix2 (0 : Fin 1) j) = _
  rw [W5_main_v42, hScale_apply, W4_arg m c main_arg9 (by decide) (by decide) (by decide) (by decide)]

/-- The third stage finds the split form's offset of the second stage's statistics and the second layer's gamma, beta. -/
theorem entry2_shift (m : (ℓ : Loc nD τ sig) → Buf (Elt Ideal) ℓ) (c : Dev nD) :
    row (V5 m c main_v45) = Spec.shiftK (row (V4 m c main_v31_1)) (row (V4 m c main_v31_2)) (vec (m ((c : Thread nD τ).loc main_arg9)))
      (vec (m ((c : Thread nD τ).loc main_arg10))) := by
  funext j
  show (W5 m c (Proc.devRef .tc main_v45) : S1x256.Idx → EReal) (ix2 (0 : Fin 1) j) = _
  rw [W5_main_v45, hShift_apply, W4_arg m c main_arg9 (by decide) (by decide) (by decide) (by decide),
    W4_arg m c main_arg10 (by decide) (by decide) (by decide) (by decide)]

end Cert.KernelIdeal.Hand

end
-- ==== Proof.KernelValue.lean ====
/- The idealized kernel program's result as one formula of its arguments: stage 3's output is the second
   layer's affine map of stage 2's matrix with factor and offset computed from stage 2's column statistics — a
   batch normalisation in the split form —, stage 2's matrix is the rectified first normalisation times the
   second weight matrix, and stage 1's matrix is the split first product. -/
import proofs.«132934_j50371376447949_1_alg».proof.Proof.ValueDefs
import proofs.«132934_j50371376447949_1_alg».proof.Proof.RunArgs
import proofs.«132934_j50371376447949_1_alg».proof.Proof.Region0Value
import proofs.«132934_j50371376447949_1_alg».proof.Proof.Region0Sums
import proofs.«132934_j50371376447949_1_alg».proof.Proof.Region1Value
import proofs.«132934_j50371376447949_1_alg».proof.Proof.Region1Sums
import proofs.«132934_j50371376447949_1_alg».proof.Proof.Region2Value
import proofs.«132934_j50371376447949_1_alg».proof.Proof.HostValue0
import proofs.«132934_j50371376447949_1_alg».proof.Proof.HostValue12

set_option maxRecDepth 16384

noncomputable section

namespace Cert.KernelIdeal.Hand

open Cert.KernelIdeal.Gen
open Idealize.ShloMosaic Idealize.ShloMosaic.TcCoe Idealize.SL.Sem
open ValueIdx

variable (m : (ℓ : Loc nD τ sig) → Buf (Elt Ideal) ℓ) (c : Dev nD)

/-- Stage 1's matrix is the split first product of the arguments. -/
theorem stage1_matrix : at2 (V3 m c main_v16_0) = Spec.pre1K (at2 (m ((c : Thread nD τ).loc main_arg0))) (at2 (m ((c : Thread nD τ).loc main_arg1)))
    (at2 (m ((c : Thread nD τ).loc main_arg2))) (at2 (V1 m c main_v6)) (at2 (m ((c : Thread nD τ).loc main_arg5))) := by
  show at2 (W3 m c (Proc.devRef .tc main_v16_0)) = _
  rw [W3_main_v16_0 m c, arr0_8 (V1 m) c, P1_entry m c]

/-- Stage 1's statistics rows are that matrix's column sums and column sums of squares. -/
theorem stage1_sum : row (V2 m c main_v16_1) = Spec.colSum (P1 (V1 m) c) := by
  show row (W2 m c (Proc.devRef .tc main_v16_1)) = _
  rw [show W2 m c (Proc.devRef .tc main_v16_1) = (dat0 (V1 m) c).arrAt 9 cfg0.N from W2_arr m c 9]
  exact arr0_9 (V1 m) c (preBlk0_apply (V1 m) c)
theorem stage1_sumsq : row (V2 m c main_v16_2) = Spec.colSumSq (P1 (V1 m) c) := by
  show row (W2 m c (Proc.devRef .tc main_v16_2)) = _
  rw [show W2 m c (Proc.devRef .tc main_v16_2) = (dat0 (V1 m) c).arrAt 10 cfg0.N from W2_arr m c 10]
  exact arr0_10 (V1 m) c (preBlk0_apply (V1 m) c)

/-- Stage 2's matrix: the first layer normalised (split form), rectified, times the second weight matrix. -/
theorem stage2_matrix : P2 (V3 m) c = Spec.mul256 (Spec.relu (Spec.bnK (Spec.pre1K (at2 (m ((c : Thread nD τ).loc main_arg0))) (at2 (m ((c : Thread nD τ).loc main_arg1)))
    (at2 (m ((c : Thread nD τ).loc main_arg2))) (at2 (V1 m c main_v6)) (at2 (m ((c : Thread nD τ).loc main_arg5))))
      (vec (m ((c : Thread nD τ).loc main_arg6))) (vec (m ((c : Thread nD τ).loc main_arg7))))) (at2 (m ((c : Thread nD τ).loc main_arg8))) := by
  unfold P2 Spec.bnK
  rw [stage1_matrix m c, entry1_scale m c, entry1_shift m c, stage1_sum m c, stage1_sumsq m c, P1_entry m c]
  rw [show at2 (V3 m c main_v15) = at2 (m ((c : Thread nD τ).loc main_arg8)) from by
    show at2 (W3 m c (Proc.devRef .tc main_v15)) = _
    rw [W3_main_v15 m c]; exact W1_main_v15_eq m c]

theorem stage2_out : at2 (V5 m c main_v31_0) = P2 (V3 m) c := by
  show at2 (W5 m c (Proc.devRef .tc main_v31_0)) = _
  rw [W5_main_v31_0 m c, arr1_4 (V3 m) c]
theorem stage2_sum : row (V4 m c main_v31_1) = Spec.colSum (P2 (V3 m) c) := by
  show row (W4 m c (Proc.devRef .tc main_v31_1)) = _
  rw [show W4 m c (Proc.devRef .tc main_v31_1) = (dat1 (V3 m) c).arrAt 5 cfg1.N from W4_arr m c 5]
  exact arr1_5 (V3 m) c (preBlk1_apply (V3 m) c)
theorem stage2_sumsq : row (V4 m c main_v31_2) = Spec.colSumSq (P2 (V3 m) c) := by
  show row (W4 m c (Proc.devRef .tc main_v31_2)) = _
  rw [show W4 m c (Proc.devRef .tc main_v31_2) = (dat1 (V3 m) c).arrAt 6 cfg1.N from W4_arr m c 6]
  exact arr1_6 (V3 m) c (preBlk1_apply (V3 m) c)

/-- THE KERNEL'S VALUE: the result array is the model in the split form. -/
theorem kernel_value : at2 (W6 m c (Proc.devRef .tc main_v46) : S500000x256.Idx → EReal)
    = Spec.outK (at2 (m ((c : Thread nD τ).loc main_arg0))) (at2 (m ((c : Thread nD τ).loc main_arg1))) (at2 (m ((c : Thread nD τ).loc main_arg2)))
        (at2 (V1 m c main_v6)) (at2 (m ((c : Thread nD τ).loc main_arg5))) (vec (m ((c : Thread nD τ).loc main_arg6))) (vec (m ((c : Thread nD τ).loc main_arg7)))
        (at2 (m ((c : Thread nD τ).loc main_arg8))) (vec (m ((c : Thread nD τ).loc main_arg9))) (vec (m ((c : Thread nD τ).loc main_arg10))) := by
  rw [W6_main_v46 m c, arr2_3 (V5 m) c]
  unfold O3 Spec.outK
  rw [stage2_out m c, entry2_scale m c, entry2_shift m c, stage2_sum m c, stage2_sumsq m c, stage2_matrix m c]
  rfl

end Cert.KernelIdeal.Hand

end
-- ==== Proof.RefValue.lean ====
/- The reference program's result, read index by index: it is the whole-form formula of the model. -/
import proofs.«132934_j50371376447949_1_alg».proof.Proof.Gen.ReferenceIdeal.Read
import proofs.«132934_j50371376447949_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.SL.Sem ValueIdx

/-! ## Indices by coordinates

Each stage that re-lays an array reads its operand at an index computed from the result's index. At a result index
given by its coordinates these are again indices given by coordinates: a product's entry (i, j) reads row i of the left
factor and column j of the right one; a column sum's entry j reads column j, row by row; a per-column vector spread over
the rows is read at the column. -/

theorem lidx8 (i : Fin 500000) (j : Fin 256) (k : Fin 384) : Read.lidx_main_v8 (ix2 i j) k = ix2 i k :=
  funext fun a => Fin.ext (by match a with | ⟨0, _⟩ => rfl | ⟨1, _⟩ => rfl)
theorem ridx8 (i : Fin 500000) (j : Fin 256) (k : Fin 384) : Read.ridx_main_v8 (ix2 i j) k = ix2 k j :=
  funext fun a => Fin.ext (by match a with | ⟨0, _⟩ => rfl | ⟨1, _⟩ => rfl)
theorem lidx35 (i : Fin 500000) (j : Fin 256) (k : Fin 256) : Read.lidx_main_v35 (ix2 i j) k = ix2 i k :=
  funext fun a => Fin.ext (by match a with | ⟨0, _⟩ => rfl | ⟨1, _⟩ => rfl)
theorem ridx35 (i : Fin 500000) (j : Fin 256) (k : Fin 256) : Read.ridx_main_v35 (ix2 i j) k = ix2 k j :=
  funext fun a => Fin.ext (by match a with | ⟨0, _⟩ => rfl | ⟨1, _⟩ => rfl)
theorem idx9 (j : Fin 256) (k : Fin 500000) : Read.idx_main_v9 (ix1 j) k = ix2 k j :=
  funext fun a => Fin.ext (by match a with | ⟨0, _⟩ => rfl | ⟨1, _⟩ => rfl)
theorem idx16 (j : Fin 256) (k : Fin 500000) : Read.idx_main_v16 (ix1 j) k = ix2 k j :=
  funext fun a => Fin.ext (by match a with | ⟨0, _⟩ => rfl | ⟨1, _⟩ => rfl)
theorem idx36 (j : Fin 256) (k : Fin 500000) : Read.idx_main_v36 (ix1 j) k = ix2 k j :=
  funext fun a => Fin.ext (by match a with | ⟨0, _⟩ => rfl | ⟨1, _⟩ => rfl)
theorem idx43 (j : Fin 256) (k : Fin 500000) : Read.idx_main_v43 (ix1 j) k = ix2 k j :=
  funext fun a => Fin.ext (by match a with | ⟨0, _⟩ => rfl | ⟨1, _⟩ => rfl)
theorem idx12_13 (i : Fin 500000) (j : Fin 256) : Read.idx_main_v12 (Read.idx_main_v13 (ix2 i j)) = ix1 j :=
  funext fun a => Fin.ext (by match a with | ⟨0, _⟩ => rfl)
theorem idx19_20 (i : Fin 500000) (j : Fin 256) : Read.idx_main_v19 (Read.idx_main_v20 (ix2 i j)) = ix1 j :=
  funext fun a => Fin.ext (by match a with | ⟨0, _⟩ => rfl)
theorem idx25_26 (i : Fin 500000) (j : Fin 256) : Read.idx_main_v25 (Read.idx_main_v26 (ix2 i j)) = ix1 j :=
  funext fun a => Fin.ext (by match a with | ⟨0, _⟩ => rfl)
theorem idx28_29 (i : Fin 500000) (j : Fin 256) : Read.idx_main_v28 (Read.idx_main_v29 (ix2 i j)) = ix1 j :=
  funext fun a => Fin.ext (by match a with | ⟨0, _⟩ => rfl)
theorem idx31_32 (i : Fin 500000) (j : Fin 256) : Read.idx_main_v31 (Read.idx_main_v32 (ix2 i j)) = ix1 j :=
  funext fun a => Fin.ext (by match a with | ⟨0, _⟩ => rfl)
theorem idx39_40 (i : Fin 500000) (j : Fin 256) : Read.idx_main_v39 (Read.idx_main_v40 (ix2 i j)) = ix1 j :=
  funext fun a => Fin.ext (by match a with | ⟨0, _⟩ => rfl)
theorem idx46_47 (i : Fin 500000) (j : Fin 256) : Read.idx_main_v46 (Read.idx_main_v47 (ix2 i j)) = ix1 j :=
  funext fun a => Fin.ext (by match a with | ⟨0, _⟩ => rfl)
theorem idx52_53 (i : Fin 500000) (j : Fin 256) : Read.idx_main_v52 (Read.idx_main_v53 (ix2 i j)) = ix1 j :=
  funext fun a => Fin.ext (by match a with | ⟨0, _⟩ => rfl)
theorem idx55_56 (i : Fin 500000) (j : Fin 256) : Read.idx_main_v55 (Read.idx_main_v56 (ix2 i j)) = ix1 j :=
  funext fun a => Fin.ext (by match a with | ⟨0, _⟩ => rfl)
theorem idx58_59 (i : Fin 500000) (j : Fin 256) : Read.idx_main_v58 (Read.idx_main_v59 (ix2 i j)) = ix1 j :=
  funext fun a => Fin.ext (by match a with | ⟨0, _⟩ => rfl)

/-! ## The concatenated features

Column k of the joined array comes from the piece whose span of columns holds k — columns 0 … 127 from the first,
128 … 255 from the second, 256 … 319 from the third, 320 … 383 from the fourth — at k less the columns before it. -/

theorem concat_eq (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal))
    (i : Fin 500000) (k : Fin 384) :
    Read.val_main_v7 (F := Ideal) x0 x1 x2 x3 x4 (ix2 i k) = Spec.concat (fun i k => x0 (ix2 i k)) (fun i k => x1 (ix2 i k)) (fun i k => x2 (ix2 i k)) (fun i k => Read.val_main_v6 (F := Ideal) x3 x4 (ix2 i k)) i k := by
  unfold Read.val_main_v7 Spec.concat
  have hk := k.isLt
  split
  · next h0 =>
    refine concatenate_apply_piece (1 : Fin S500000x384.rank) _ _ (ix2 i k) 0 (by simp) S500000x128 x0 rfl rfl 0 rfl
      (ix2 i ⟨k.val, h0⟩) (fun b hb => ?_) ?_
    · match b with
      | ⟨0, _⟩ => rfl
      | ⟨1, _⟩ => exact absurd rfl hb
    · show 0 + k.val = k.val
      omega
  · next h0 =>
    split
    · next h1 =>
      refine concatenate_apply_piece (1 : Fin S500000x384.rank) _ _ (ix2 i k) 1 (by simp) S500000x128 x1 rfl rfl 128 rfl
        (ix2 i ⟨k.val - 128, by omega⟩) (fun b hb => ?_) ?_
      · match b with
        | ⟨0, _⟩ => rfl
        | ⟨1, _⟩ => exact absurd rfl hb
      · show 128 + (k.val - 128) = k.val
        omega
    · next h1 =>
      split
      · next h2 =>
        refine concatenate_apply_piece (1 : Fin S500000x384.rank) _ _ (ix2 i k) 2 (by simp) S500000x64 x2 rfl rfl 256 rfl
          (ix2 i ⟨k.val - 256, by omega⟩) (fun b hb => ?_) ?_
        · match b with
          | ⟨0, _⟩ => rfl
          | ⟨1, _⟩ => exact absurd rfl hb
        · show 256 + (k.val - 256) = k.val
          omega
      · next h2 =>
        refine concatenate_apply_piece (1 : Fin S500000x384.rank) _ _ (ix2 i k) 3 (by simp) S500000x64 (Read.val_main_v6 (F := Ideal) x3 x4) rfl rfl 320 rfl
          (ix2 i ⟨k.val - 320, by omega⟩) (fun b hb => ?_) ?_
        · match b with
          | ⟨0, _⟩ => rfl
          | ⟨1, _⟩ => exact absurd rfl hb
        · show 320 + (k.val - 320) = k.val
          omega

/-! ## The first product -/

theorem pre1_eq (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (i : Fin 500000) (j : Fin 256) :
    Read.val_main_v8 (F := Ideal) x0 x1 x2 x3 x4 x5 (ix2 i j) = Spec.pre1R (fun i k => x0 (ix2 i k)) (fun i k => x1 (ix2 i k)) (fun i k => x2 (ix2 i k)) (fun i k => Read.val_main_v6 (F := Ideal) x3 x4 (ix2 i k)) (fun k j => x5 (ix2 k j)) i j := by
  rw [Read.val_main_v8_apply]
  unfold Spec.pre1R
  refine Finset.sum_congr rfl fun k _ => ?_
  rw [lidx8, ridx8, concat_eq]

/-! ## The first normalisation

Column j of the first product: its mean is the column sum (from the zero word) over the number of rows; its variance
the sum of the squared deviations from the mean over the number of rows; an entry is its deviation from the mean times
the reciprocal square root of (variance + offset), times the column's scale, plus the column's shift. -/

theorem meanfirst (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (j : Fin 256) :
    Read.val_main_v11 (F := Ideal) x0 x1 x2 x3 x4 x5 (ix1 j) = Spec.meanR (fun i j => Read.val_main_v8 (F := Ideal) x0 x1 x2 x3 x4 x5 (ix2 i j)) j := by
  rw [Read.val_main_v11_apply, Read.val_main_v9_apply, Read.val_main_v10_apply, Read.val_main_cst_apply, Read.val_main_cst_1_apply]
  simp only [idx9, Ideal.hostDivf_def, Ideal.ofBits_def, Ideal.ofBits_zero_f32, zero_add]
  rfl

theorem bmeanAfirst (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (i : Fin 500000) (j : Fin 256) :
    Read.val_main_v13 (F := Ideal) x0 x1 x2 x3 x4 x5 (ix2 i j) = Spec.meanR (fun i j => Read.val_main_v8 (F := Ideal) x0 x1 x2 x3 x4 x5 (ix2 i j)) j := by
  rw [Read.val_main_v13_apply, Read.val_main_v12_apply, idx12_13, meanfirst]

theorem bmeanBfirst (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (i : Fin 500000) (j : Fin 256) :
    Read.val_main_v20 (F := Ideal) x0 x1 x2 x3 x4 x5 (ix2 i j) = Spec.meanR (fun i j => Read.val_main_v8 (F := Ideal) x0 x1 x2 x3 x4 x5 (ix2 i j)) j := by
  rw [Read.val_main_v20_apply, Read.val_main_v19_apply, idx19_20, meanfirst]

theorem varfirst (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (j : Fin 256) :
    Read.val_main_v18 (F := Ideal) x0 x1 x2 x3 x4 x5 (ix1 j) = Spec.varR (fun i j => Read.val_main_v8 (F := Ideal) x0 x1 x2 x3 x4 x5 (ix2 i j)) j := by
  rw [Read.val_main_v18_apply, Read.val_main_v16_apply, Read.val_main_v17_apply, Read.val_main_cst_2_apply, Read.val_main_cst_3_apply]
  simp only [idx16, Read.val_main_v15_apply, Read.val_main_v14_apply, bmeanAfirst, Ideal.hostDivf_def, Ideal.ofBits_def,
    Ideal.ofBits_zero_f32, zero_add, Ideal.mulf_def, Ideal.subf_def]
  rfl

theorem rstdfirst (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (i : Fin 500000) (j : Fin 256) :
    Read.val_main_v26 (F := Ideal) x0 x1 x2 x3 x4 x5 (ix2 i j) = Ideal.rsqrt (Spec.varR (fun i j => Read.val_main_v8 (F := Ideal) x0 x1 x2 x3 x4 x5 (ix2 i j)) j + Spec.eps) := by
  rw [Read.val_main_v26_apply, Read.val_main_v25_apply, idx25_26, Read.val_main_v24_apply, Read.val_main_v23_apply,
    Read.val_main_v22_apply, Read.val_main_cst_4_apply, varfirst]
  rfl

theorem bnfirst (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (x6 x7 : (⟨S256, .f32⟩ : BufTy).Contents (Elt Ideal))
    (i : Fin 500000) (j : Fin 256) :
    Read.val_main_v33 (F := Ideal) x0 x1 x2 x3 x4 x5 x6 x7 (ix2 i j) = Spec.bnR (fun i j => Read.val_main_v8 (F := Ideal) x0 x1 x2 x3 x4 x5 (ix2 i j)) (fun j => x6 (ix1 j)) (fun j => x7 (ix1 j)) i j := by
  rw [Read.val_main_v33_apply, Read.val_main_v30_apply, Read.val_main_v27_apply, Read.val_main_v21_apply, bmeanBfirst, rstdfirst,
    Read.val_main_v29_apply, Read.val_main_v28_apply, idx28_29,
    Read.val_main_v32_apply, Read.val_main_v31_apply, idx31_32]
  rfl

/-! ## The rectifier and the second product -/

theorem relu_eq (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (x6 x7 : (⟨S256, .f32⟩ : BufTy).Contents (Elt Ideal))
    (i : Fin 500000) (j : Fin 256) :
    Read.val_main_v34 (F := Ideal) x0 x1 x2 x3 x4 x5 x6 x7 (ix2 i j) = Spec.relu (fun i j => Read.val_main_v33 (F := Ideal) x0 x1 x2 x3 x4 x5 x6 x7 (ix2 i j)) i j := by
  rw [Read.val_main_v34_apply, Read.val_main_call0_v0_apply, Read.val_main_call0_cst_apply]
  simp only [Ideal.maximumf_def, Ideal.ofBits_def, Ideal.ofBits_zero_f32]
  rfl

theorem mul_eq (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (x6 x7 : (⟨S256, .f32⟩ : BufTy).Contents (Elt Ideal)) (x8 : (⟨S256x256, .f32⟩ : BufTy).Contents (Elt Ideal))
    (i : Fin 500000) (j : Fin 256) :
    Read.val_main_v35 (F := Ideal) x0 x1 x2 x3 x4 x5 x6 x7 x8 (ix2 i j) = Spec.mul256 (fun i k => Read.val_main_v34 (F := Ideal) x0 x1 x2 x3 x4 x5 x6 x7 (ix2 i k)) (fun k j => x8 (ix2 k j)) i j := by
  rw [Read.val_main_v35_apply]
  unfold Spec.mul256
  refine Finset.sum_congr rfl fun k _ => ?_
  rw [lidx35, ridx35]

/-! ## The second normalisation

Column j of the second product: its mean is the column sum (from the zero word) over the number of rows; its variance
the sum of the squared deviations from the mean over the number of rows; an entry is its deviation from the mean times
the reciprocal square root of (variance + offset), times the column's scale, plus the column's shift. -/

theorem meansecond (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (x6 x7 : (⟨S256, .f32⟩ : BufTy).Contents (Elt Ideal)) (x8 : (⟨S256x256, .f32⟩ : BufTy).Contents (Elt Ideal))
    (j : Fin 256) :
    Read.val_main_v38 (F := Ideal) x0 x1 x2 x3 x4 x5 x6 x7 x8 (ix1 j) = Spec.meanR (fun i j => Read.val_main_v35 (F := Ideal) x0 x1 x2 x3 x4 x5 x6 x7 x8 (ix2 i j)) j := by
  rw [Read.val_main_v38_apply, Read.val_main_v36_apply, Read.val_main_v37_apply, Read.val_main_cst_5_apply, Read.val_main_cst_6_apply]
  simp only [idx36, Ideal.hostDivf_def, Ideal.ofBits_def, Ideal.ofBits_zero_f32, zero_add]
  rfl

theorem bmeanAsecond (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (x6 x7 : (⟨S256, .f32⟩ : BufTy).Contents (Elt Ideal)) (x8 : (⟨S256x256, .f32⟩ : BufTy).Contents (Elt Ideal))
    (i : Fin 500000) (j : Fin 256) :
    Read.val_main_v40 (F := Ideal) x0 x1 x2 x3 x4 x5 x6 x7 x8 (ix2 i j) = Spec.meanR (fun i j => Read.val_main_v35 (F := Ideal) x0 x1 x2 x3 x4 x5 x6 x7 x8 (ix2 i j)) j := by
  rw [Read.val_main_v40_apply, Read.val_main_v39_apply, idx39_40, meansecond]

theorem bmeanBsecond (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (x6 x7 : (⟨S256, .f32⟩ : BufTy).Contents (Elt Ideal)) (x8 : (⟨S256x256, .f32⟩ : BufTy).Contents (Elt Ideal))
    (i : Fin 500000) (j : Fin 256) :
    Read.val_main_v47 (F := Ideal) x0 x1 x2 x3 x4 x5 x6 x7 x8 (ix2 i j) = Spec.meanR (fun i j => Read.val_main_v35 (F := Ideal) x0 x1 x2 x3 x4 x5 x6 x7 x8 (ix2 i j)) j := by
  rw [Read.val_main_v47_apply, Read.val_main_v46_apply, idx46_47, meansecond]

theorem varsecond (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (x6 x7 : (⟨S256, .f32⟩ : BufTy).Contents (Elt Ideal)) (x8 : (⟨S256x256, .f32⟩ : BufTy).Contents (Elt Ideal))
    (j : Fin 256) :
    Read.val_main_v45 (F := Ideal) x0 x1 x2 x3 x4 x5 x6 x7 x8 (ix1 j) = Spec.varR (fun i j => Read.val_main_v35 (F := Ideal) x0 x1 x2 x3 x4 x5 x6 x7 x8 (ix2 i j)) j := by
  rw [Read.val_main_v45_apply, Read.val_main_v43_apply, Read.val_main_v44_apply, Read.val_main_cst_7_apply, Read.val_main_cst_8_apply]
  simp only [idx43, Read.val_main_v42_apply, Read.val_main_v41_apply, bmeanAsecond, Ideal.hostDivf_def, Ideal.ofBits_def,
    Ideal.ofBits_zero_f32, zero_add, Ideal.mulf_def, Ideal.subf_def]
  rfl

theorem rstdsecond (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (x6 x7 : (⟨S256, .f32⟩ : BufTy).Contents (Elt Ideal)) (x8 : (⟨S256x256, .f32⟩ : BufTy).Contents (Elt Ideal))
    (i : Fin 500000) (j : Fin 256) :
    Read.val_main_v53 (F := Ideal) x0 x1 x2 x3 x4 x5 x6 x7 x8 (ix2 i j) = Ideal.rsqrt (Spec.varR (fun i j => Read.val_main_v35 (F := Ideal) x0 x1 x2 x3 x4 x5 x6 x7 x8 (ix2 i j)) j + Spec.eps) := by
  rw [Read.val_main_v53_apply, Read.val_main_v52_apply, idx52_53, Read.val_main_v51_apply, Read.val_main_v50_apply,
    Read.val_main_v49_apply, Read.val_main_cst_9_apply, varsecond]
  rfl

theorem bnsecond (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (x6 x7 : (⟨S256, .f32⟩ : BufTy).Contents (Elt Ideal)) (x8 : (⟨S256x256, .f32⟩ : BufTy).Contents (Elt Ideal))
    (x9 x10 : (⟨S256, .f32⟩ : BufTy).Contents (Elt Ideal))
    (i : Fin 500000) (j : Fin 256) :
    Read.val_main_v60 (F := Ideal) x0 x1 x2 x3 x4 x5 x6 x7 x8 x9 x10 (ix2 i j) = Spec.bnR (fun i j => Read.val_main_v35 (F := Ideal) x0 x1 x2 x3 x4 x5 x6 x7 x8 (ix2 i j)) (fun j => x9 (ix1 j)) (fun j => x10 (ix1 j)) i j := by
  rw [Read.val_main_v60_apply, Read.val_main_v57_apply, Read.val_main_v54_apply, Read.val_main_v48_apply, bmeanBsecond, rstdsecond,
    Read.val_main_v56_apply, Read.val_main_v55_apply, idx55_56,
    Read.val_main_v59_apply, Read.val_main_v58_apply, idx58_59]
  rfl

/-! ## The whole model -/

/-- The reference's result at (i, j) is the whole-form formula at (i, j): the layers above, one inside the other. -/
theorem ref_value (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal)) (x5 : (⟨S384x256, .f32⟩ : BufTy).Contents (Elt Ideal))
    (x6 x7 : (⟨S256, .f32⟩ : BufTy).Contents (Elt Ideal)) (x8 : (⟨S256x256, .f32⟩ : BufTy).Contents (Elt Ideal)) (x9 x10 : (⟨S256, .f32⟩ : BufTy).Contents (Elt Ideal))
    (i : Fin 500000) (j : Fin 256) :
    Read.val_main_v60 (F := Ideal) x0 x1 x2 x3 x4 x5 x6 x7 x8 x9 x10 (ix2 i j)
      = Spec.outR (fun i k => x0 (ix2 i k)) (fun i k => x1 (ix2 i k)) (fun i k => x2 (ix2 i k)) (fun i k => Read.val_main_v6 (F := Ideal) x3 x4 (ix2 i k))
          (fun k j => x5 (ix2 k j)) (fun j => x6 (ix1 j)) (fun j => x7 (ix1 j)) (fun k j => x8 (ix2 k j)) (fun j => x9 (ix1 j)) (fun j => x10 (ix1 j)) i j := by
  have h8 : (fun i j => Read.val_main_v8 (F := Ideal) x0 x1 x2 x3 x4 x5 (ix2 i j)) = Spec.pre1R (fun i k => x0 (ix2 i k)) (fun i k => x1 (ix2 i k)) (fun i k => x2 (ix2 i k)) (fun i k => Read.val_main_v6 (F := Ideal) x3 x4 (ix2 i k)) (fun k j => x5 (ix2 k j)) :=
    funext fun i => funext fun j => pre1_eq x0 x1 x2 x3 x4 x5 i j
  have h33 : (fun i j => Read.val_main_v33 (F := Ideal) x0 x1 x2 x3 x4 x5 x6 x7 (ix2 i j))
      = Spec.bnR (fun i j => Read.val_main_v8 (F := Ideal) x0 x1 x2 x3 x4 x5 (ix2 i j)) (fun j => x6 (ix1 j)) (fun j => x7 (ix1 j)) :=
    funext fun i => funext fun j => bnfirst x0 x1 x2 x3 x4 x5 x6 x7 i j
  have h34 : (fun i k => Read.val_main_v34 (F := Ideal) x0 x1 x2 x3 x4 x5 x6 x7 (ix2 i k)) = Spec.relu (fun i j => Read.val_main_v33 (F := Ideal) x0 x1 x2 x3 x4 x5 x6 x7 (ix2 i j)) :=
    funext fun i => funext fun j => relu_eq x0 x1 x2 x3 x4 x5 x6 x7 i j
  have h35 : (fun i j => Read.val_main_v35 (F := Ideal) x0 x1 x2 x3 x4 x5 x6 x7 x8 (ix2 i j))
      = Spec.mul256 (fun i k => Read.val_main_v34 (F := Ideal) x0 x1 x2 x3 x4 x5 x6 x7 (ix2 i k)) (fun k j => x8 (ix2 k j)) :=
    funext fun i => funext fun j => mul_eq x0 x1 x2 x3 x4 x5 x6 x7 x8 i j
  rw [bnsecond, h35, h34, h33, h8]
  rfl

end Cert.ReferenceIdeal.RefValue

end
-- ==== Proof.Algebra.lean ====
/- The two formulas of the edge model agree when every input is a real number.
   Three facts: the product over the 384 concatenated columns is the sum of the four partial products; for a
   real column the mean of squared deviations equals (mean of squares) − (mean)², so both normalisations take
   the reciprocal root of the same positive real, and the two ways of applying it agree by the ring laws; the
   rectifier and the 256×256 product keep real matrices real, so the second layer repeats the first. -/
import proofs.«132934_j50371376447949_1_alg».proof.Proof.Spec
import Idealize.ShloMosaic.PureOps.Ideal.Laws

noncomputable section

namespace Cert.Spec

open Idealize.ShloMosaic

/-! ## The two constants -/

/-- The row count is the real number 500000 (sign 0, exponent 145, significand 2^23 + 7611392:
    16000000 · 2^(145 − 127 − 23) = 16000000 / 32). -/
theorem nn_eq : nn = ((500000 : ℝ) : EReal) := by
  simp [nn, Ideal.ofBits, Ideal.ieee]
  rw [← EReal.coe_mul]
  norm_num

/-- The variance offset is a positive real (sign 0, exponent 110: a normal number). -/
theorem eps_real : ∃ e : ℝ, 0 < e ∧ eps = (e : EReal) := by
  refine ⟨(10995116 : ℝ) * (2:ℝ) ^ (-40 : ℤ), by positivity, ?_⟩
  simp [eps, Ideal.ofBits, Ideal.ieee]

/-- The variance offset as a real number. -/
def epsR : ℝ := Classical.choose eps_real
theorem epsR_pos : 0 < epsR := (Classical.choose_spec eps_real).1
theorem eps_eq : eps = (epsR : EReal) := (Classical.choose_spec eps_real).2

theorem nn_ne : (500000 : ℝ) ≠ 0 := by norm_num

/-! ## Real matrices inside the extended reals -/

/-- A real matrix read as a matrix of extended reals. -/
def cm {r c : Nat} (x : Fin r → Fin c → ℝ) : Mat r c := fun i j => ((x i j : ℝ) : EReal)
/-- A real row read as a row of extended reals. -/
def cv (g : Fin 256 → ℝ) : Fin 256 → EReal := fun j => ((g j : ℝ) : EReal)

theorem Fin2.real {r c : Nat} {x : Mat r c} (h : Fin2 x) : ∃ xr : Fin r → Fin c → ℝ, x = cm xr := by
  choose xr hxr using h
  exact ⟨xr, funext fun i => funext fun j => hxr i j⟩

theorem Fin1.real {g : Fin 256 → EReal} (h : Fin1 g) : ∃ gr : Fin 256 → ℝ, g = cv gr := by
  choose gr hgr using h
  exact ⟨gr, funext fun j => hgr j⟩

/-- A finite sum of reals, formed in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of a real and zero, formed in the extended reals, is the real maximum. -/
theorem max_coe (a : ℝ) : max (a : EReal) 0 = ((max a 0 : ℝ) : EReal) := by
  rw [← EReal.coe_zero]
  exact (EReal.coe_strictMono.monotone.map_max).symm

/-! ## The first product: 384 = 128 + 128 + 64 + 64 -/

/-- A sum over `a + b` indices is the sum over the first `a` plus the sum over the last `b`. -/
theorem sum_split (a b : Nat) (f : Fin (a + b) → EReal) :
    ∑ k, f k = ∑ k : Fin a, f ⟨k.val, by omega⟩ + ∑ k : Fin b, f ⟨a + k.val, by omega⟩ := by
  rw [Fin.sum_univ_add]; rfl

/-- A sum over 384 indices as four consecutive blocks. -/
theorem sum384 (f : Fin 384 → EReal) :
    ∑ k, f k = ((∑ k : Fin 128, f ⟨k.val, by omega⟩ + ∑ k : Fin 128, f ⟨128 + k.val, by omega⟩)
      + ∑ k : Fin 64, f ⟨256 + k.val, by omega⟩) + ∑ k : Fin 64, f ⟨320 + k.val, by omega⟩ := by
  have h1 := sum_split 320 64 f
  have h2 := sum_split 256 64 (fun k : Fin (256 + 64) => f ⟨k.val, by omega⟩)
  have h3 := sum_split 128 128 (fun k : Fin (128 + 128) => f ⟨k.val, by omega⟩)
  rw [h1, h2, h3]

/-- The whole product over the concatenated columns is the sum of the four partial products: columns 0–127 of
    the concatenation are the source features, 128–255 the destination's, 256–319 the edge's, 320–383 the
    gathered graph feature's. No finiteness is needed. -/
theorem pre1K_eq_pre1R (src dest : Mat 500000 128) (edge ug : Mat 500000 64) (W1 : Mat 384 256) :
    pre1K src dest edge ug W1 = pre1R src dest edge ug W1 := by
  funext i j
  unfold pre1K pre1R
  rw [sum384]
  have c0 : ∀ (k : Fin 128) (h : k.val < 384), concat src dest edge ug i ⟨k.val, h⟩ = src i k := by
    intro k h; unfold concat; rw [dif_pos k.isLt]
  have c1 : ∀ (k : Fin 128) (h : 128 + k.val < 384), concat src dest edge ug i ⟨128 + k.val, h⟩ = dest i k := by
    intro k h; unfold concat
    rw [dif_neg (by simp), dif_pos (by simp; omega)]
    congr 1; ext; simp
  have c2 : ∀ (k : Fin 64) (h : 256 + k.val < 384), concat src dest edge ug i ⟨256 + k.val, h⟩ = edge i k := by
    intro k h; unfold concat
    rw [dif_neg (by simp; omega), dif_neg (by simp), dif_pos (by simp; omega)]
    congr 1; ext; simp
  have c3 : ∀ (k : Fin 64) (h : 320 + k.val < 384), concat src dest edge ug i ⟨320 + k.val, h⟩ = ug i k := by
    intro k h; unfold concat
    rw [dif_neg (by simp; omega), dif_neg (by simp; omega), dif_neg (by simp)]
    congr 1; ext; simp
  simp only [c0, c1, c2, c3]

/-! ## One batch normalisation over real entries -/

/-- For real numbers `x i` over a finite index set of `n` elements, the mean of the squared deviations from the
    mean is the mean of the squares less the square of the mean: expand the square and use `∑ x = n · mean`. -/
theorem var_identity {ι : Type*} [Fintype ι] (x : ι → ℝ) (n : ℝ) (hn : (Fintype.card ι : ℝ) = n) (h0 : n ≠ 0) :
    (∑ i, x i * x i) * (1 / n) - ((∑ i, x i) * (1 / n)) * ((∑ i, x i) * (1 / n))
      = (∑ i, (x i - (∑ i, x i) * (1 / n)) * (x i - (∑ i, x i) * (1 / n))) * (1 / n) := by
  generalize hs : ∑ i, x i = s
  have h1 : ∑ i, (x i - s * (1 / n)) * (x i - s * (1 / n))
      = ∑ i, x i * x i - 2 * (s * (1 / n)) * s + n * ((s * (1 / n)) * (s * (1 / n))) := by
    have e : ∀ i, (x i - s * (1 / n)) * (x i - s * (1 / n))
        = x i * x i - 2 * (s * (1 / n)) * x i + (s * (1 / n)) * (s * (1 / n)) := fun i => by ring
    rw [Finset.sum_congr rfl fun i _ => e i, Finset.sum_add_distrib, Finset.sum_sub_distrib, ← Finset.mul_sum,
      Finset.sum_const, Finset.card_univ, nsmul_eq_mul, hn, hs]
  rw [h1]
  field_simp
  ring

/-- Column mean of a real matrix. -/
def muR (x : Fin 500000 → Fin 256 → ℝ) (j : Fin 256) : ℝ := (∑ i, x i j) * (1 / 500000)
/-- Column variance of a real matrix: the mean of the squared deviations. -/
def vaR (x : Fin 500000 → Fin 256 → ℝ) (j : Fin 256) : ℝ :=
  (∑ i, (x i j - muR x j) * (x i j - muR x j)) * (1 / 500000)
/-- The normalised real matrix. -/
def bnReal (x : Fin 500000 → Fin 256 → ℝ) (g b : Fin 256 → ℝ) : Fin 500000 → Fin 256 → ℝ := fun i j =>
  ((x i j - muR x j) * (Real.sqrt (vaR x j + epsR))⁻¹) * g j + b j

/-- A mean of squares is not negative. -/
theorem vaR_nonneg (x : Fin 500000 → Fin 256 → ℝ) (j : Fin 256) : 0 ≤ vaR x j :=
  mul_nonneg (Finset.sum_nonneg fun _ _ => mul_self_nonneg _) (by norm_num)

theorem vaR_eps_pos (x : Fin 500000 → Fin 256 → ℝ) (j : Fin 256) : 0 < vaR x j + epsR :=
  add_pos_of_nonneg_of_pos (vaR_nonneg x j) epsR_pos

/-- The variance by the two formulas. -/
theorem var_formula (x : Fin 500000 → Fin 256 → ℝ) (j : Fin 256) :
    (∑ i, x i j * x i j) * (1 / 500000) - muR x j * muR x j = vaR x j := by
  unfold vaR muR
  exact var_identity (fun i => x i j) 500000 (by rw [Fintype.card_fin]; norm_num) nn_ne

/-- The reciprocal root of a positive real is the real reciprocal root. -/
theorem rsqrt_pos_coe {r : ℝ} (h : 0 < r) : Ideal.rsqrt (r : EReal) = (((Real.sqrt r)⁻¹ : ℝ) : EReal) := by
  rw [Ideal.rsqrt_coe, if_neg (not_lt.mpr h.le), if_neg h.ne']

theorem colSum_cm (x : Fin 500000 → Fin 256 → ℝ) (j : Fin 256) :
    colSum (cm x) j = ((∑ i, x i j : ℝ) : EReal) := by
  simp only [colSum, cm, coe_sum]

theorem colSumSq_cm (x : Fin 500000 → Fin 256 → ℝ) (j : Fin 256) :
    colSumSq (cm x) j = ((∑ i, x i j * x i j : ℝ) : EReal) := by
  simp only [colSumSq, cm, ← EReal.coe_mul, coe_sum]

theorem meanR_cm (x : Fin 500000 → Fin 256 → ℝ) (j : Fin 256) : meanR (cm x) j = ((muR x j : ℝ) : EReal) := by
  unfold meanR muR
  rw [colSum_cm, nn_eq, Ideal.div_coe nn_ne, ← EReal.coe_mul]

theorem meanK_cm (x : Fin 500000 → Fin 256 → ℝ) (j : Fin 256) :
    meanK (colSum (cm x)) j = ((muR x j : ℝ) : EReal) := by
  unfold meanK muR
  rw [colSum_cm, nn_eq, Ideal.div_coe nn_ne, ← EReal.coe_mul]

theorem varR_cm (x : Fin 500000 → Fin 256 → ℝ) (j : Fin 256) : varR (cm x) j = ((vaR x j : ℝ) : EReal) := by
  unfold varR vaR
  rw [meanR_cm, nn_eq, Ideal.div_coe nn_ne]
  simp only [cm, ← EReal.coe_sub, ← EReal.coe_mul, coe_sum]

/-- The whole-form normalisation of a real matrix is the real normalised matrix. -/
theorem bnR_cm (x : Fin 500000 → Fin 256 → ℝ) (g b : Fin 256 → ℝ) :
    bnR (cm x) (cv g) (cv b) = cm (bnReal x g b) := by
  funext i j
  unfold bnR
  rw [meanR_cm, varR_cm, eps_eq, ← EReal.coe_add, rsqrt_pos_coe (vaR_eps_pos x j)]
  simp only [cm, cv, bnReal, ← EReal.coe_sub, ← EReal.coe_mul, ← EReal.coe_add]

/-- The split form's per-column factor for a real matrix: both forms take the reciprocal root of the same
    positive real. -/
theorem scaleK_cm (x : Fin 500000 → Fin 256 → ℝ) (g : Fin 256 → ℝ) (j : Fin 256) :
    scaleK (colSum (cm x)) (colSumSq (cm x)) (cv g) j
      = ((g j * (Real.sqrt (vaR x j + epsR))⁻¹ : ℝ) : EReal) := by
  unfold scaleK
  rw [meanK_cm, colSumSq_cm, nn_eq, Ideal.div_coe nn_ne, eps_eq]
  simp only [← EReal.coe_mul, ← EReal.coe_sub, ← EReal.coe_add]
  rw [var_formula, rsqrt_pos_coe (vaR_eps_pos x j)]
  simp only [cv, ← EReal.coe_mul]

/-- The split-form normalisation of a real matrix is the same real matrix:
    x·(g·r) + (b − μ·(g·r)) = ((x − μ)·r)·g + b. -/
theorem bnK_cm (x : Fin 500000 → Fin 256 → ℝ) (g b : Fin 256 → ℝ) :
    bnK (cm x) (cv g) (cv b) = cm (bnReal x g b) := by
  funext i j
  unfold bnK affine shiftK
  rw [scaleK_cm, meanK_cm]
  simp only [cm, cv, ← EReal.coe_sub, ← EReal.coe_mul, ← EReal.coe_add]
  congr 1
  unfold bnReal
  ring

/-! ## The rectifier and the products keep real matrices real -/

theorem relu_cm (x : Fin 500000 → Fin 256 → ℝ) : relu (cm x) = cm (fun i j => max (x i j) 0) := by
  funext i j
  simp only [relu, cm, max_coe]

theorem mul256_cm (h : Fin 500000 → Fin 256 → ℝ) (W : Fin 256 → Fin 256 → ℝ) :
    mul256 (cm h) (cm W) = cm (fun i j => ∑ k, h i k * W k j) := by
  funext i j
  simp only [mul256, cm, ← EReal.coe_mul, coe_sum]

theorem pre1K_cm (src dest : Fin 500000 → Fin 128 → ℝ) (edge ug : Fin 500000 → Fin 64 → ℝ)
    (W1 : Fin 384 → Fin 256 → ℝ) :
    ∃ p : Fin 500000 → Fin 256 → ℝ, pre1K (cm src) (cm dest) (cm edge) (cm ug) (cm W1) = cm p := by
  refine ⟨fun i j => ((∑ k : Fin 128, src i k * W1 ⟨k.val, by omega⟩ j
      + ∑ k : Fin 128, dest i k * W1 ⟨128 + k.val, by omega⟩ j)
      + ∑ k : Fin 64, edge i k * W1 ⟨256 + k.val, by omega⟩ j)
      + ∑ k : Fin 64, ug i k * W1 ⟨320 + k.val, by omega⟩ j, ?_⟩
  funext i j
  simp only [pre1K, cm, ← EReal.coe_mul, coe_sum, ← EReal.coe_add]

/-! ## The model -/

theorem outK_eq_outR (src dest : Mat 500000 128) (edge ug : Mat 500000 64) (W1 : Mat 384 256) (g1 b1 : Fin 256 → EReal)
    (W2 : Mat 256 256) (g2 b2 : Fin 256 → EReal)
    (hsrc : Fin2 src) (hdest : Fin2 dest) (hedge : Fin2 edge) (hug : Fin2 ug) (hW1 : Fin2 W1) (hg1 : Fin1 g1) (hb1 : Fin1 b1)
    (hW2 : Fin2 W2) (hg2 : Fin1 g2) (hb2 : Fin1 b2) :
    outK src dest edge ug W1 g1 b1 W2 g2 b2 = outR src dest edge ug W1 g1 b1 W2 g2 b2 := by
  obtain ⟨srcr, rfl⟩ := hsrc.real
  obtain ⟨destr, rfl⟩ := hdest.real
  obtain ⟨edger, rfl⟩ := hedge.real
  obtain ⟨ugr, rfl⟩ := hug.real
  obtain ⟨W1r, rfl⟩ := hW1.real
  obtain ⟨g1r, rfl⟩ := hg1.real
  obtain ⟨b1r, rfl⟩ := hb1.real
  obtain ⟨W2r, rfl⟩ := hW2.real
  obtain ⟨g2r, rfl⟩ := hg2.real
  obtain ⟨b2r, rfl⟩ := hb2.real
  obtain ⟨p, hp⟩ := pre1K_cm srcr destr edger ugr W1r
  unfold outK outR
  rw [← pre1K_eq_pre1R, hp, bnK_cm, bnR_cm, relu_cm, mul256_cm, bnK_cm, bnR_cm]

end Cert.Spec

end
-- ==== Proof.Finite.lean ====
import proofs.«132934_j50371376447949_1_alg».proof.Defs
import proofs.«132934_j50371376447949_1_alg».proof.Proof.Gen.Pre_finite_inputs
import proofs.«132934_j50371376447949_1_alg».proof.Proof.Gen.KernelIdeal
import proofs.«132934_j50371376447949_1_alg».proof.Proof.Spec
import Idealize.ShloMosaic.Lib.ReduceAll
import Idealize.ShloMosaic.Lib.ValueIdx
import Idealize.ShloMosaic.PureOps.Ideal.Laws

noncomputable section

namespace Cert.Proof.Finite

open Idealize.ShloMosaic Idealize.SL.Sem

/-- The scalar shape has one index. -/
instance : Subsingleton Cert.Pre_finite_inputs.S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ a : ℝ, x = (a : EReal) := by
  rw [inf_bits] at h
  induction x using EReal.rec with
  | bot => simp [Ideal.cmp] at h
  | coe a => exact ⟨a, rfl⟩
  | top => simp [Ideal.cmp] at h

/-- All-entries form: if the comparison |x| < +∞ holds at every index, every entry is real. -/
theorem real_of_all {s : Shape} (x : FVec Ideal s .f32)
    (hb : Cert.Pre_finite_inputs.S_.BroadcastsInDim s (![] : Fin 0 → Fin s.rank)) (i : s.Idx)
    (h : cmpf .olt (Host.absf x) (broadcastInDim s ![] hb (constant (F := Ideal) Cert.Pre_finite_inputs.S_ .f32 0x7F800000#32)) i = 1#1) :
    ∃ a : ℝ, x i = (a : EReal) := real_of_abs_lt (x i) h

/-- From the precondition (every float input finite, on every device) to: every entry of every float
    argument array is a real number. The predicate is a conjunction of ten all-entries tests, one per
    float array; each test gives the comparison at every index, and the comparison gives a real entry. -/
theorem finite_of_pre {hP : Cert.Pre_finite_inputs.Facts}
    (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    Cert.Spec.Fin2 (r := 500000) (c := 128) (fun i k => (m ((c.tc : Thread Cert.KernelIdeal.nD Cert.KernelIdeal.τ).loc Cert.KernelIdeal.main_arg0) : Cert.KernelIdeal.S500000x128.Idx → EReal) (ValueIdx.ix2 i k))
    ∧ Cert.Spec.Fin2 (r := 500000) (c := 128) (fun i k => (m ((c.tc : Thread Cert.KernelIdeal.nD Cert.KernelIdeal.τ).loc Cert.KernelIdeal.main_arg1) : Cert.KernelIdeal.S500000x128.Idx → EReal) (ValueIdx.ix2 i k))
    ∧ Cert.Spec.Fin2 (r := 500000) (c := 64) (fun i k => (m ((c.tc : Thread Cert.KernelIdeal.nD Cert.KernelIdeal.τ).loc Cert.KernelIdeal.main_arg2) : Cert.KernelIdeal.S500000x64.Idx → EReal) (ValueIdx.ix2 i k))
    ∧ Cert.Spec.Fin2 (r := 512) (c := 64) (fun i k => (m ((c.tc : Thread Cert.KernelIdeal.nD Cert.KernelIdeal.τ).loc Cert.KernelIdeal.main_arg3) : Cert.KernelIdeal.S512x64.Idx → EReal) (ValueIdx.ix2 i k))
    ∧ Cert.Spec.Fin2 (r := 384) (c := 256) (fun i k => (m ((c.tc : Thread Cert.KernelIdeal.nD Cert.KernelIdeal.τ).loc Cert.KernelIdeal.main_arg5) : Cert.KernelIdeal.S384x256.Idx → EReal) (ValueIdx.ix2 i k))
    ∧ Cert.Spec.Fin1 (fun j => (m ((c.tc : Thread Cert.KernelIdeal.nD Cert.KernelIdeal.τ).loc Cert.KernelIdeal.main_arg6) : Cert.KernelIdeal.S256.Idx → EReal) (ValueIdx.ix1 j))
    ∧ Cert.Spec.Fin1 (fun j => (m ((c.tc : Thread Cert.KernelIdeal.nD Cert.KernelIdeal.τ).loc Cert.KernelIdeal.main_arg7) : Cert.KernelIdeal.S256.Idx → EReal) (ValueIdx.ix1 j))
    ∧ Cert.Spec.Fin2 (r := 256) (c := 256) (fun i k => (m ((c.tc : Thread Cert.KernelIdeal.nD Cert.KernelIdeal.τ).loc Cert.KernelIdeal.main_arg8) : Cert.KernelIdeal.S256x256.Idx → EReal) (ValueIdx.ix2 i k))
    ∧ Cert.Spec.Fin1 (fun j => (m ((c.tc : Thread Cert.KernelIdeal.nD Cert.KernelIdeal.τ).loc Cert.KernelIdeal.main_arg9) : Cert.KernelIdeal.S256.Idx → EReal) (ValueIdx.ix1 j))
    ∧ Cert.Spec.Fin1 (fun j => (m ((c.tc : Thread Cert.KernelIdeal.nD Cert.KernelIdeal.τ).loc Cert.KernelIdeal.main_arg10) : Cert.KernelIdeal.S256.Idx → EReal) (ValueIdx.ix1 j)) := by
  have h0 := congrFun (h c) ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨⟨e0, e1⟩, e2⟩, e3⟩, e5⟩, e6⟩, e7⟩, e8⟩, e9⟩, e10⟩ := h0
  refine ⟨?_, ?_, ?_, ?_, ?_, ?_, ?_, ?_, ?_, ?_⟩
  · exact fun i k => real_of_all _ _ _ (Host.reduce_andi_all _ _ _ _ _ e0 (ValueIdx.ix2 i k))
  · exact fun i k => real_of_all _ _ _ (Host.reduce_andi_all _ _ _ _ _ e1 (ValueIdx.ix2 i k))
  · exact fun i k => real_of_all _ _ _ (Host.reduce_andi_all _ _ _ _ _ e2 (ValueIdx.ix2 i k))
  · exact fun i k => real_of_all _ _ _ (Host.reduce_andi_all _ _ _ _ _ e3 (ValueIdx.ix2 i k))
  · exact fun i k => real_of_all _ _ _ (Host.reduce_andi_all _ _ _ _ _ e5 (ValueIdx.ix2 i k))
  · exact fun j => real_of_all _ _ _ (Host.reduce_andi_all _ _ _ _ _ e6 (ValueIdx.ix1 j))
  · exact fun j => real_of_all _ _ _ (Host.reduce_andi_all _ _ _ _ _ e7 (ValueIdx.ix1 j))
  · exact fun i k => real_of_all _ _ _ (Host.reduce_andi_all _ _ _ _ _ e8 (ValueIdx.ix2 i k))
  · exact fun j => real_of_all _ _ _ (Host.reduce_andi_all _ _ _ _ _ e9 (ValueIdx.ix1 j))
  · exact fun j => real_of_all _ _ _ (Host.reduce_andi_all _ _ _ _ _ e10 (ValueIdx.ix1 j))

end Cert.Proof.Finite
-- ==== Proof.Bridge.lean ====
/- The gathered graph feature is one array in both programs: each applies the same nine host operations to the
   graph-feature table and the batch vector (a negative index is wrapped by adding 512, the vector is made a
   column, the table's rows are gathered by it), over shapes, side facts and a gather record that are equal. -/
import proofs.«132934_j50371376447949_1_alg».proof.KernelIdeal
import proofs.«132934_j50371376447949_1_alg».proof.Proof.Gen.ReferenceIdeal.Read
import Idealize.ShloMosaic.PureOps.Ideal

noncomputable section

namespace Cert.Proof.Bridge

open Idealize.ShloMosaic

/-- The two programs' gather records are one record: the same axis lists and slice sizes over the same shapes. -/
theorem gather_record_eq [hK : Cert.KernelIdeal.Facts] [hR : Cert.ReferenceIdeal.Facts] :
    Cert.KernelIdeal.gather_S512x64_S500000x1_S500000x64_1_0_n_n_0_1_164
      = Cert.ReferenceIdeal.gather_S512x64_S500000x1_S500000x64_1_0_n_n_0_1_164 := rfl

/-- The kernel program's gathered graph feature is the reference program's. -/
theorem gather_bridge [hK : Cert.KernelIdeal.Facts] [hR : Cert.ReferenceIdeal.Facts]
    (x3 : (⟨Cert.KernelIdeal.S512x64, .f32⟩ : BufTy).Contents (Elt Ideal)) (x4 : (⟨Cert.KernelIdeal.S500000, .i32⟩ : BufTy).Contents (Elt Ideal)) :
    Host.gather Cert.KernelIdeal.gather_S512x64_S500000x1_S500000x64_1_0_n_n_0_1_164 x3
      (broadcastInDim Cert.KernelIdeal.S500000x1 ![0] Cert.KernelIdeal.Facts₀.bcast_S500000_S500000x1_0 (select (cmpi .slt x4 (broadcastInDim Cert.KernelIdeal.S500000 ![] Cert.KernelIdeal.Facts₀.bcast_S_S500000 (constantI Cert.KernelIdeal.S_ 32 0#32))) (addi x4 (broadcastInDim Cert.KernelIdeal.S500000 ![] Cert.KernelIdeal.Facts₀.bcast_S_S500000 (constantI Cert.KernelIdeal.S_ 32 512#32))) x4))
      = Cert.ReferenceIdeal.Read.val_main_v6 (F := Ideal) x3 x4 := by
  unfold Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c_0 Cert.ReferenceIdeal.Read.val_main_c
  rw [gather_record_eq]

end Cert.Proof.Bridge

end
-- ==== Proof.lean ====
/- The certificate of the edge model's kernel against its reference.
   The kernel program runs three pipelined stages around host arithmetic: the first product (as four partial
   products) with its column statistics, the normalised and rectified second product with its statistics, and the
   final normalisation, each normalisation applied as one multiplication and one addition per entry with the
   variance taken as (mean of squares) − (mean)². The reference forms the products whole and normalises as
   (x − mean) · r · gamma + beta with the variance the mean of squared deviations. Over the extended reals, for
   finite inputs, the two are one function: the sums split and regroup freely, the two variance formulas agree
   over the reals, the variance plus the positive offset is positive so its reciprocal square root is a real,
   and the two ways of applying the normalisation differ by the distributive law. -/
import proofs.«132934_j50371376447949_1_alg».proof.Defs
import proofs.«132934_j50371376447949_1_alg».proof.Proof.Gen.Kernel
import proofs.«132934_j50371376447949_1_alg».proof.Proof.Gen.KernelIdeal
import proofs.«132934_j50371376447949_1_alg».proof.Proof.Gen.ReferenceIdeal
import proofs.«132934_j50371376447949_1_alg».proof.Proof.Gen.Pre_finite_inputs
import proofs.«132934_j50371376447949_1_alg».proof.Proof.Frame
import proofs.«132934_j50371376447949_1_alg».proof.Proof.Bits.Frame
import proofs.«132934_j50371376447949_1_alg».proof.Proof.KernelValue
import proofs.«132934_j50371376447949_1_alg».proof.Proof.RefValue
import proofs.«132934_j50371376447949_1_alg».proof.Proof.Algebra
import proofs.«132934_j50371376447949_1_alg».proof.Proof.Finite
import proofs.«132934_j50371376447949_1_alg».proof.Proof.Bridge
import proofs.«132934_j50371376447949_1_alg».proof.Proof.HostValue0
import Idealize.ShloMosaic.Adequacy
import Idealize.ShloMosaic.Init

set_option maxRecDepth 16384

noncomputable section

namespace Cert.Proof

open Idealize.ShloMosaic Idealize.ShloMosaic.TcCoe Idealize.SL.Sem ValueIdx
open Cert.KernelIdeal.Hand (at2 row vec)

/-- The two idealized programs compute one function of finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.W6 m c (Proc.devRef .tc Cert.KernelIdeal.main_v46),
    Cert.KernelIdeal.Hand.run_value (F := Ideal) m g, ?_⟩
  refine (θ_run Cert.ReferenceIdeal.defs _ _).mono (fun r h c => ⟨?_, (h c).2⟩) (Cert.ReferenceIdeal.Value.run (F := Ideal) m' g')
  refine ((h c).1).trans ?_
  rw [Cert.ReferenceIdeal.Read.val_main_v60_eq]
  obtain ⟨e0, e1, e2, e3, e4, e5, e6, e7, e8, e9, e10⟩ := hagree c
  rw [e0, e1, e2, e3, e4, e5, e6, e7, e8, e9, e10]
  obtain ⟨f0, f1, f2, f3, f5, f6, f7, f8, f9, f10⟩ := Cert.Proof.Finite.finite_of_pre m hpre c
  have hug := Cert.KernelIdeal.Hand.ug_fin m c f3
  have hk := Cert.KernelIdeal.Hand.kernel_value m c
  funext idx
  obtain ⟨i, j, rfl⟩ : ∃ (i : Fin 500000) (j : Fin 256), idx = ix2 i j := ⟨idx 0, idx 1, ValueIdx.eq_ix2 idx⟩
  refine (Cert.ReferenceIdeal.RefValue.ref_value _ _ _ _ _ _ _ _ _ _ _ i j).trans ?_
  refine Eq.trans ?_ (congrFun (congrFun hk i) j).symm
  refine Eq.trans ?_ (congrFun (congrFun (Cert.Spec.outK_eq_outR _ _ _ _ _ _ _ _ _ _ f0 f1 f2 hug f5 f6 f7 f8 f9 f10) i) j).symm
  have hg : (fun (i : Fin 500000) (k : Fin 64) => Cert.ReferenceIdeal.Read.val_main_v6 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (ix2 i k))
      = at2 (Cert.KernelIdeal.Hand.V1 m c Cert.KernelIdeal.main_v6) := by
    rw [← Cert.Proof.Bridge.gather_bridge, Cert.KernelIdeal.Hand.V1_main_v6_eq m c]; rfl
  rw [hg]

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => (θ_run Cert.ReferenceIdeal.defs _ _).mono (fun _ h c => (h c).2) (Cert.ReferenceIdeal.Value.run (F := Ideal) m ρ),
  trivial,
  algebraic⟩

end Cert.Proof

end
